-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16 : Shape := ⟨1, ![16]⟩
abbrev S16x3 : Shape := ⟨2, ![16, 3]⟩
abbrev S16x64x2 : Shape := ⟨3, ![16, 64, 2]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x64x2 : S_.BroadcastsInDim S16x64x2 (![] : Fin 0 → Fin S16x64x2.rank)
  reducesTo_S16x64x2_S_d0_1_2 : S16x64x2.ReducesTo [0, 1, 2] S_

variable [Facts]

def fn {F : FTy → Type} [FloatOps F] (main_arg0 : FVec F S16x4096x1024 .f32) (main_arg1 : IVec S16 32) (main_arg2 : IVec S16x3 32) (main_arg3 : FVec F S16x64x2 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x64x2 .f32 := Host.absf main_arg3
  let main_cst_0 : FVec F S_ .f32 := constant S_ .f32 0x7F800000#32
  let main_v5 : FVec F S16x64x2 .f32 := broadcastInDim S16x64x2 ![] bcast_S_S16x64x2 main_cst_0
  let main_v6 : IVec S16x64x2 1 := cmpf .olt main_v4 main_v5
  let main_c_1 : IVec S_ 1 := constantI S_ 1 1#1
  let main_v7 : IVec S_ 1 := (fun x v => Host.reduce IntOp.andi x v reducesTo_S16x64x2_S_d0_1_2 h_S_) main_v6 main_c_1
  let main_v8 : IVec S_ 1 := andi main_v3 main_v7
  main_v8
-- ==== Kernel.lean ====
abbrev S16x4096x1024 : Shape := ⟨3, ![16, 4096, 1024]⟩
abbrev S16 : Shape := ⟨1, ![16]⟩
abbrev S16x3 : Shape := ⟨2, ![16, 3]⟩
abbrev S16x64x2 : Shape := ⟨3, ![16, 64, 2]⟩
abbrev S16x1 : Shape := ⟨2, ![16, 1]⟩
abbrev S_ : Shape := ⟨0, ![]⟩
abbrev S4096 : Shape := ⟨1, ![4096]⟩
abbrev S1x4096 : Shape := ⟨2, ![1, 4096]⟩
abbrev S16x4096 : Shape := ⟨2, ![16, 4096]⟩
abbrev S16x1x4096 : Shape := ⟨3, ![16, 1, 4096]⟩
abbrev S16x2x4096 : Shape := ⟨3, ![16, 2, 4096]⟩
abbrev S16x64x1024 : Shape := ⟨3, ![16, 64, 1024]⟩
abbrev S1x2x1024 : Shape := ⟨3, ![1, 2, 1024]⟩
abbrev S1x1024x1024 : Shape := ⟨3, ![1, 1024, 1024]⟩
abbrev S1 : Shape := ⟨1, ![1]⟩
abbrev S1x64x2 : Shape := ⟨3, ![1, 64, 2]⟩
abbrev S1x64x1024 : Shape := ⟨3, ![1, 64, 1024]⟩
abbrev S64x1024 : Shape := ⟨2, ![64, 1024]⟩
abbrev S64x1 : Shape := ⟨2, ![64, 1]⟩
abbrev S1x1x1024 : Shape := ⟨3, ![1, 1, 1024]⟩
abbrev S1x1024 : Shape := ⟨2, ![1, 1024]⟩
abbrev S64x2 : Shape := ⟨2, ![64, 2]⟩
abbrev S64 : Shape := ⟨1, ![64]⟩
abbrev S1024x1024 : Shape := ⟨2, ![1024, 1024]⟩

abbrev nBuf : Space → Nat
  | .hbm => 84
  | .vmem => 10
  | .smem => 1
  | _ => 0

abbrev bufTy : (tb : Table) → Fin (tcTables nBuf tb) → BufTy
  | .hbm, ⟨0, _⟩ => ⟨S16x4096x1024, .f32⟩
  | .hbm, ⟨1, _⟩ => ⟨S16x3, .i32⟩
  | .hbm, ⟨2, _⟩ => ⟨S16x64x2, .f32⟩
  | .hbm, ⟨3, _⟩ => ⟨S16, .f32⟩
  | .hbm, ⟨4, _⟩ => ⟨S16x1, .i32⟩
  | .hbm, ⟨5, _⟩ => ⟨S16, .i32⟩
  | .hbm, ⟨6, _⟩ => ⟨S16, .f32⟩
  | .hbm, ⟨7, _⟩ => ⟨S16x1, .i32⟩
  | .hbm, ⟨8, _⟩ => ⟨S16, .i32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S4096, .i32⟩
  | .hbm, ⟨26, _⟩ => ⟨S1x4096, .i32⟩
  | .hbm, ⟨27, _⟩ => ⟨S16x1, .i32⟩
  | .hbm, ⟨28, _⟩ => ⟨S16x1, .i32⟩
  | .hbm, ⟨29, _⟩ => ⟨S_, .i32⟩
  | .hbm, ⟨30, _⟩ => ⟨S16x1, .i32⟩
  | .hbm, ⟨31, _⟩ => ⟨S16x1, .i1⟩
  | .hbm, ⟨32, _⟩ => ⟨S_, .i32⟩
  | .hbm, ⟨33, _⟩ => ⟨S16x1, .i32⟩
  | .hbm, ⟨34, _⟩ => ⟨S16x1, .i32⟩
  | .hbm, ⟨35, _⟩ => ⟨S16x4096, .i32⟩
  | .hbm, ⟨36, _⟩ => ⟨S16x4096, .i32⟩
  | .hbm, ⟨37, _⟩ => ⟨S16x4096, .i32⟩
  | .hbm, ⟨38, _⟩ => ⟨S_, .i32⟩
  | .hbm, ⟨39, _⟩ => ⟨S16x4096, .i32⟩
  | .hbm, ⟨40, _⟩ => ⟨S16x4096, .i1⟩
  | .hbm, ⟨41, _⟩ => ⟨S_, .i32⟩
  | .hbm, ⟨42, _⟩ => ⟨S16x4096, .i32⟩
  | .hbm, ⟨43, _⟩ => ⟨S16x4096, .i1⟩
  | .hbm, ⟨44, _⟩ => ⟨S_, .i32⟩
  | .hbm, ⟨45, _⟩ => ⟨S16x1, .i32⟩
  | .hbm, ⟨46, _⟩ => ⟨S16x1, .i1⟩
  | .hbm, ⟨47, _⟩ => ⟨S16x4096, .i1⟩
  | .hbm, ⟨48, _⟩ => ⟨S16x4096, .i1⟩
  | .hbm, ⟨49, _⟩ => ⟨S16x4096, .i1⟩
  | .hbm, ⟨50, _⟩ => ⟨S16x4096, .i32⟩
  | .hbm, ⟨51, _⟩ => ⟨S16x4096, .i32⟩
  | .hbm, ⟨52, _⟩ => ⟨S16x4096, .i32⟩
  | .hbm, ⟨53, _⟩ => ⟨S16x4096, .f32⟩
  | .hbm, ⟨54, _⟩ => ⟨S16x1, .f32⟩
  | .hbm, ⟨55, _⟩ => ⟨S16x4096, .f32⟩
  | .hbm, ⟨56, _⟩ => ⟨S16x4096, .f32⟩
  | .hbm, ⟨57, _⟩ => ⟨S16x4096, .i32⟩
  | .hbm, ⟨58, _⟩ => ⟨S16x4096, .i32⟩
  | .hbm, ⟨59, _⟩ => ⟨S16x4096, .i32⟩
  | .hbm, ⟨60, _⟩ => ⟨S1x4096, .i32⟩
  | .hbm, ⟨61, _⟩ => ⟨S16x1, .i32⟩
  | .hbm, ⟨62, _⟩ => ⟨S16x4096, .i32⟩
  | .hbm, ⟨63, _⟩ => ⟨S16x4096, .i32⟩
  | .hbm, ⟨64, _⟩ => ⟨S16x4096, .i1⟩
  | .hbm, ⟨65, _⟩ => ⟨S16x4096, .i32⟩
  | .hbm, ⟨66, _⟩ => ⟨S16x4096, .i32⟩
  | .hbm, ⟨67, _⟩ => ⟨S16x4096, .i32⟩
  | .hbm, ⟨68, _⟩ => ⟨S_, .i32⟩
  | .hbm, ⟨69, _⟩ => ⟨S16x4096, .i32⟩
  | .hbm, ⟨70, _⟩ => ⟨S16x4096, .i1⟩
  | .hbm, ⟨71, _⟩ => ⟨S16x4096, .i1⟩
  | .hbm, ⟨72, _⟩ => ⟨S_, .i32⟩
  | .hbm, ⟨73, _⟩ => ⟨S16x4096, .i32⟩
  | .hbm, ⟨74, _⟩ => ⟨S16x4096, .i32⟩
  | .hbm, ⟨75, _⟩ => ⟨S16x4096, .i32⟩
  | .hbm, ⟨76, _⟩ => ⟨S16x4096, .f32⟩
  | .hbm, ⟨77, _⟩ => ⟨S16x1, .f32⟩
  | .hbm, ⟨78, _⟩ => ⟨S16x4096, .f32⟩
  | .hbm, ⟨79, _⟩ => ⟨S16x4096, .f32⟩
  | .hbm, ⟨80, _⟩ => ⟨S16x1x4096, .f32⟩
  | .hbm, ⟨81, _⟩ => ⟨S16x1x4096, .f32⟩
  | .hbm, ⟨82, _⟩ => ⟨S16x2x4096, .f32⟩
  | .hbm, ⟨83, _⟩ => ⟨S16x64x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x64x2, .f32⟩
  | .local _ .vmem, ⟨5, _⟩ => ⟨S1x64x2, .f32⟩
  | .local _ .vmem, ⟨6, _⟩ => ⟨S1x64x1024, .f32⟩
  | .local _ .vmem, ⟨7, _⟩ => ⟨S1x64x1024, .f32⟩
  | .local _ .vmem, ⟨8, _⟩ => ⟨S64x1024, .f32⟩
  | .local _ .vmem, ⟨9, _⟩ => ⟨S64x1, .f32⟩
  | .local _ .smem, ⟨0, _⟩ => ⟨S16, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_c_1 : Ref sig .tc := ⟨.hbm, 38, rfl⟩
abbrev main_call1_v7 : Ref sig .tc := ⟨.hbm, 39, rfl⟩
abbrev main_call1_v8 : Ref sig .tc := ⟨.hbm, 40, rfl⟩
abbrev main_call1_c_2 : Ref sig .tc := ⟨.hbm, 41, rfl⟩
abbrev main_call1_v9 : Ref sig .tc := ⟨.hbm, 42, rfl⟩
abbrev main_call1_v10 : Ref sig .tc := ⟨.hbm, 43, rfl⟩
abbrev main_call1_c_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_call1_v17 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_c_0 : Ref sig .tc := ⟨.hbm, 72, rfl⟩
abbrev main_call2_v14 : Ref sig .tc := ⟨.hbm, 73, rfl⟩
abbrev main_call2_v15 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let v20 : BitVec 32 := Scalar.maxsi c0_i32_5 v19
  let v21 : BitVec 32 := Scalar.minsi arg1 v20
  let c0_i32_6 : BitVec 32 := 0#32
  let c0_i32_7 : BitVec 32 := 0#32
  ![arg0.toNat, v21.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S16x3_S16x1_0_1 : S16x3.Slices ![0, 1] S16x1
  shapeCasts_S16x1_S16 : S16x1.ShapeCasts S16
  slices_S16x3_S16x1_0_2 : S16x3.Slices ![0, 2] S16x1
  bcast_S_S16 : S_.BroadcastsInDim S16 (![] : Fin 0 → Fin S16.rank)
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S_S16x1 : S_.BroadcastsInDim S16x1 (![] : Fin 0 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S_S16x4096 : S_.BroadcastsInDim S16x4096 (![] : Fin 0 → Fin S16x4096.rank)
  bcast_S16x4096_S16x1x4096_0_2 : S16x4096.BroadcastsInDim S16x1x4096 (![0, 2] : Fin 2 → Fin S16x1x4096.rank)
  concatenates_S16x1x4096_S16x1x4096_S16x2x4096_d1 : Shape.Concatenates [S16x1x4096, S16x1x4096] S16x2x4096 1
  numel1_S1 : S1.numel = 1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  inb_S1x2x1024_S1x1x1024_0_1_0 : ∀ a, (![0, 1, 0] : Fin 3 → Nat) a + S1x1x1024.size a ≤ S1x2x1024.size a
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  slices_S64x2_o0_0_S64x1 : S64x2.Slices ![0, 0] S64x1
  slices_S64x2_o0_1_S64x1 : S64x2.Slices ![0, 1] S64x1
  broadcasts_S64x1_S64x1024 : S64x1.Broadcasts S64x1024
  broadcasts_S1x1024_S64x1024 : S1x1024.Broadcasts S64x1024
  iota_S1x1024_d1_w32 : S1x1024.Iotas .tc 32 [1]
  natLt_1_32 : 1 < 32
  reduces_S64x1024_S64 : S64x1024.Reduces [1] S64
  shapeCasts_S64_S64x1 : S64.ShapeCasts S64x1
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S64x1024_S1024x1024_S64x1024_1_0_0_1_n_n_wf : DotDims.WF S64x1024 S1024x1024 S64x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024.size a ≤ S16x2x4096.size a
  hwx0_0 : ∀ i : grid0.Coords, EltTy.bits .f32 = 32 ∨ (Rect.block (s := S16x2x4096) S1x2x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2.size a ≤ S16x64x2.size a
  hwx0_2 : ∀ i : grid0.Coords, EltTy.bits .f32 = 32 ∨ (Rect.block (s := S16x64x2) S1x64x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S16x64x1024.size a
  hwx0_3 : ∀ i : grid0.Coords, EltTy.bits .f32 = 32 ∨ (Rect.block (s := S16x64x1024) S1x64x1024.size (cc0_transform_3 i) (hinb0_3 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev spec0_0 : Pipeline.WinSpec sig grid0.rank :=
  Pipeline.WinSpec.ofSpec (Memref.whole main_v36) S1x2x1024.size reads0_0 false false 2 stage0_0 sem0_0 nbuf0_0 hstage0_0

abbrev spec0_1 : Pipeline.WinSpec sig grid0.rank :=
  Pipeline.WinSpec.ofSpec (Memref.whole main_arg0) S1x1024x1024.size reads0_1 false false 2 stage0_1 sem0_1 nbuf0_1 hstage0_1

abbrev spec0_2 : Pipeline.WinSpec sig grid0.rank :=
  Pipeline.WinSpec.ofSpec (Memref.whole main_arg3) S1x64x2.size reads0_2 false false 2 stage0_2 sem0_2 nbuf0_2 hstage0_2

abbrev spec0_3 : Pipeline.WinSpec sig grid0.rank :=
  Pipeline.WinSpec.ofSpec (Memref.whole main_v37) S1x64x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S16x4096x1024.size a), EltTy.bits .f32 = 32 ∨ (Rect.block (s := S16x4096x1024) S1x1024x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x4096x1024 : Shape := ⟨3, ![16, 4096, 1024]⟩
abbrev S16 : Shape := ⟨1, ![16]⟩
abbrev S16x3 : Shape := ⟨2, ![16, 3]⟩
abbrev S16x64x2 : Shape := ⟨3, ![16, 64, 2]⟩
abbrev S16x1 : Shape := ⟨2, ![16, 1]⟩
abbrev S_ : Shape := ⟨0, ![]⟩
abbrev S4096 : Shape := ⟨1, ![4096]⟩
abbrev S1x4096 : Shape := ⟨2, ![1, 4096]⟩
abbrev S16x4096 : Shape := ⟨2, ![16, 4096]⟩
abbrev S16x4096x1 : Shape := ⟨3, ![16, 4096, 1]⟩
abbrev S16x4096x2 : Shape := ⟨3, ![16, 4096, 2]⟩
abbrev S16x64x1x2 : Shape := ⟨4, ![16, 64, 1, 2]⟩
abbrev S16x1x4096x2 : Shape := ⟨4, ![16, 1, 4096, 2]⟩
abbrev S16x64x4096x2 : Shape := ⟨4, ![16, 64, 4096, 2]⟩
abbrev S16x64x4096 : Shape := ⟨3, ![16, 64, 4096]⟩
abbrev S16x1x4096 : Shape := ⟨3, ![16, 1, 4096]⟩
abbrev S16x64x1024 : Shape := ⟨3, ![16, 64, 1024]⟩
abbrev S16x64 : Shape := ⟨2, ![16, 64]⟩
abbrev S16x64x1 : Shape := ⟨3, ![16, 64, 1]⟩

abbrev nBuf : Space → Nat
  | .hbm => 115
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S16x3, .i32⟩
  | .hbm, ⟨3, _⟩ => ⟨S16x64x2, .f32⟩
  | .hbm, ⟨4, _⟩ => ⟨S16, .f32⟩
  | .hbm, ⟨5, _⟩ => ⟨S16x1, .i32⟩
  | .hbm, ⟨6, _⟩ => ⟨S16, .i32⟩
  | .hbm, ⟨7, _⟩ => ⟨S16, .f32⟩
  | .hbm, ⟨8, _⟩ => ⟨S16x1, .i32⟩
  | .hbm, ⟨9, _⟩ => ⟨S16, .i32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S4096, .i32⟩
  | .hbm, ⟨27, _⟩ => ⟨S16x1, .i32⟩
  | .hbm, ⟨28, _⟩ => ⟨S16x1, .i32⟩
  | .hbm, ⟨29, _⟩ => ⟨S1x4096, .i32⟩
  | .hbm, ⟨30, _⟩ => ⟨S_, .i32⟩
  | .hbm, ⟨31, _⟩ => ⟨S16x1, .i32⟩
  | .hbm, ⟨32, _⟩ => ⟨S16x1, .i1⟩
  | .hbm, ⟨33, _⟩ => ⟨S_, .i32⟩
  | .hbm, ⟨34, _⟩ => ⟨S16x1, .i32⟩
  | .hbm, ⟨35, _⟩ => ⟨S16x1, .i32⟩
  | .hbm, ⟨36, _⟩ => ⟨S16x4096, .i32⟩
  | .hbm, ⟨37, _⟩ => ⟨S16x4096, .i32⟩
  | .hbm, ⟨38, _⟩ => ⟨S16x4096, .i32⟩
  | .hbm, ⟨39, _⟩ => ⟨S_, .i32⟩
  | .hbm, ⟨40, _⟩ => ⟨S16x4096, .i32⟩
  | .hbm, ⟨41, _⟩ => ⟨S16x4096, .i1⟩
  | .hbm, ⟨42, _⟩ => ⟨S_, .i32⟩
  | .hbm, ⟨43, _⟩ => ⟨S16x4096, .i32⟩
  | .hbm, ⟨44, _⟩ => ⟨S16x4096, .i1⟩
  | .hbm, ⟨45, _⟩ => ⟨S_, .i32⟩
  | .hbm, ⟨46, _⟩ => ⟨S16x1, .i32⟩
  | .hbm, ⟨47, _⟩ => ⟨S16x1, .i1⟩
  | .hbm, ⟨48, _⟩ => ⟨S16x4096, .i1⟩
  | .hbm, ⟨49, _⟩ => ⟨S16x4096, .i1⟩
  | .hbm, ⟨50, _⟩ => ⟨S16x4096, .i1⟩
  | .hbm, ⟨51, _⟩ => ⟨S16x4096, .i32⟩
  | .hbm, ⟨52, _⟩ => ⟨S16x4096, .i32⟩
  | .hbm, ⟨53, _⟩ => ⟨S16x4096, .i32⟩
  | .hbm, ⟨54, _⟩ => ⟨S16x4096, .f32⟩
  | .hbm, ⟨55, _⟩ => ⟨S16x1, .f32⟩
  | .hbm, ⟨56, _⟩ => ⟨S16x4096, .f32⟩
  | .hbm, ⟨57, _⟩ => ⟨S16x4096, .f32⟩
  | .hbm, ⟨58, _⟩ => ⟨S1x4096, .i32⟩
  | .hbm, ⟨59, _⟩ => ⟨S16x4096, .i32⟩
  | .hbm, ⟨60, _⟩ => ⟨S16x4096, .i32⟩
  | .hbm, ⟨61, _⟩ => ⟨S16x4096, .i32⟩
  | .hbm, ⟨62, _⟩ => ⟨S1x4096, .i32⟩
  | .hbm, ⟨63, _⟩ => ⟨S16x1, .i32⟩
  | .hbm, ⟨64, _⟩ => ⟨S16x4096, .i32⟩
  | .hbm, ⟨65, _⟩ => ⟨S16x4096, .i32⟩
  | .hbm, ⟨66, _⟩ => ⟨S16x4096, .i1⟩
  | .hbm, ⟨67, _⟩ => ⟨S16x4096, .i32⟩
  | .hbm, ⟨68, _⟩ => ⟨S16x4096, .i32⟩
  | .hbm, ⟨69, _⟩ => ⟨S16x4096, .i32⟩
  | .hbm, ⟨70, _⟩ => ⟨S_, .i32⟩
  | .hbm, ⟨71, _⟩ => ⟨S16x4096, .i32⟩
  | .hbm, ⟨72, _⟩ => ⟨S16x4096, .i1⟩
  | .hbm, ⟨73, _⟩ => ⟨S16x4096, .i1⟩
  | .hbm, ⟨74, _⟩ => ⟨S_, .i32⟩
  | .hbm, ⟨75, _⟩ => ⟨S16x4096, .i32⟩
  | .hbm, ⟨76, _⟩ => ⟨S16x4096, .i32⟩
  | .hbm, ⟨77, _⟩ => ⟨S16x4096, .i32⟩
  | .hbm, ⟨78, _⟩ => ⟨S16x4096, .f32⟩
  | .hbm, ⟨79, _⟩ => ⟨S16x1, .f32⟩
  | .hbm, ⟨80, _⟩ => ⟨S16x4096, .f32⟩
  | .hbm, ⟨81, _⟩ => ⟨S16x4096, .f32⟩
  | .hbm, ⟨82, _⟩ => ⟨S16x4096x1, .f32⟩
  | .hbm, ⟨83, _⟩ => ⟨S16x4096x1, .f32⟩
  | .hbm, ⟨84, _⟩ => ⟨S16x4096x2, .f32⟩
  | .hbm, ⟨85, _⟩ => ⟨S16x64x1x2, .f32⟩
  | .hbm, ⟨86, _⟩ => ⟨S16x1x4096x2, .f32⟩
  | .hbm, ⟨87, _⟩ => ⟨S16x64x4096x2, .f32⟩
  | .hbm, ⟨88, _⟩ => ⟨S16x64x4096x2, .f32⟩
  | .hbm, ⟨89, _⟩ => ⟨S16x64x4096x2, .f32⟩
  | .hbm, ⟨90, _⟩ => ⟨S16x64x4096x2, .f32⟩
  | .hbm, ⟨91, _⟩ => ⟨S_, .f32⟩
  | .hbm, ⟨92, _⟩ => ⟨S16x64x4096, .f32⟩
  | .hbm, ⟨93, _⟩ => ⟨S1x4096, .i32⟩
  | .hbm, ⟨94, _⟩ => ⟨S16x1, .i32⟩
  | .hbm, ⟨95, _⟩ => ⟨S16x4096, .i32⟩
  | .hbm, ⟨96, _⟩ => ⟨S16x4096, .i32⟩
  | .hbm, ⟨97, _⟩ => ⟨S16x4096, .i1⟩
  | .hbm, ⟨98, _⟩ => ⟨S16x4096, .f32⟩
  | .hbm, ⟨99, _⟩ => ⟨S_, .f32⟩
  | .hbm, ⟨100, _⟩ => ⟨S16x64x4096, .f32⟩
  | .hbm, ⟨101, _⟩ => ⟨S16x64x4096, .f32⟩
  | .hbm, ⟨102, _⟩ => ⟨S16x64x4096, .f32⟩
  | .hbm, ⟨103, _⟩ => ⟨S16x1x4096, .f32⟩
  | .hbm, ⟨104, _⟩ => ⟨S16x64x4096, .f32⟩
  | .hbm, ⟨105, _⟩ => ⟨S16x64x4096, .f32⟩
  | .hbm, ⟨106, _⟩ => ⟨S16x64x1024, .f32⟩
  | .hbm, ⟨107, _⟩ => ⟨S_, .f32⟩
  | .hbm, ⟨108, _⟩ => ⟨S16x64, .f32⟩
  | .hbm, ⟨109, _⟩ => ⟨S16x64x1, .f32⟩
  | .hbm, ⟨110, _⟩ => ⟨S_, .f32⟩
  | .hbm, ⟨111, _⟩ => ⟨S16x64x1, .f32⟩
  | .hbm, ⟨112, _⟩ => ⟨S16x64x1, .f32⟩
  | .hbm, ⟨113, _⟩ => ⟨S16x64x1024, .f32⟩
  | .hbm, ⟨114, _⟩ => ⟨S16x64x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_c_1 : Ref sig .tc := ⟨.hbm, 39, rfl⟩
abbrev main_call1_v7 : Ref sig .tc := ⟨.hbm, 40, rfl⟩
abbrev main_call1_v8 : Ref sig .tc := ⟨.hbm, 41, rfl⟩
abbrev main_call1_c_2 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_call1_v17 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_c : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_c_0 : Ref sig .tc := ⟨.hbm, 74, rfl⟩
abbrev main_call2_v14 : Ref sig .tc := ⟨.hbm, 75, rfl⟩
abbrev main_call2_v15 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_1 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_2 : Ref sig .tc := ⟨.hbm, 107, rfl⟩
abbrev main_v58 : Ref sig .tc := ⟨.hbm, 108, rfl⟩
abbrev main_v59 : Ref sig .tc := ⟨.hbm, 109, rfl⟩
abbrev main_cst_3 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩

abbrev nD : Nat := 1
abbrev τ : Topo := Topo.v7x

variable {F : FTy → Type} [FloatOps F]

class Facts₀ : Prop where
  slices_S16x3_S16x1_0_1 : S16x3.Slices ![0, 1] S16x1
  shapeCasts_S16x1_S16 : S16x1.ShapeCasts S16
  slices_S16x3_S16x1_0_2 : S16x3.Slices ![0, 2] S16x1
  bcast_S_S16 : S_.BroadcastsInDim S16 (![] : Fin 0 → Fin S16.rank)
  bcast_S16_S16x1_0 : S16.BroadcastsInDim S16x1 (![0] : Fin 1 → Fin S16x1.rank)
  bcast_S4096_S1x4096_1 : S4096.BroadcastsInDim S1x4096 (![1] : Fin 1 → Fin S1x4096.rank)
  bcast_S_S16x1 : S_.BroadcastsInDim S16x1 (![] : Fin 0 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  concatenates_S16x4096x1_S16x4096x1_S16x4096x2_d2 : Shape.Concatenates [S16x4096x1, S16x4096x1] S16x4096x2 2
  bcast_S16x64x2_S16x64x1x2_0_1_3 : S16x64x2.BroadcastsInDim S16x64x1x2 (![0, 1, 3] : Fin 3 → Fin S16x64x1x2.rank)
  bcast_S16x4096x2_S16x1x4096x2_0_2_3 : S16x4096x2.BroadcastsInDim S16x1x4096x2 (![0, 2, 3] : Fin 3 → Fin S16x1x4096x2.rank)
  bcast_S16x64x1x2_S16x64x4096x2_0_1_2_3 : S16x64x1x2.BroadcastsInDim S16x64x4096x2 (![0, 1, 2, 3] : Fin 4 → Fin S16x64x4096x2.rank)
  bcast_S16x1x4096x2_S16x64x4096x2_0_1_2_3 : S16x1x4096x2.BroadcastsInDim S16x64x4096x2 (![0, 1, 2, 3] : Fin 4 → Fin S16x64x4096x2.rank)
  reducesTo_S16x64x4096x2_S16x64x4096_d3 : S16x64x4096x2.ReducesTo [3] S16x64x4096
  h_S_ : 0 < S_.numel
  bcast_S_S16x64x4096 : S_.BroadcastsInDim S16x64x4096 (![] : Fin 0 → Fin S16x64x4096.rank)
  bcast_S16x4096_S16x1x4096_0_2 : S16x4096.BroadcastsInDim S16x1x4096 (![0, 2] : Fin 2 → Fin S16x1x4096.rank)
  bcast_S16x1x4096_S16x64x4096_0_1_2 : S16x1x4096.BroadcastsInDim S16x64x4096 (![0, 1, 2] : Fin 3 → Fin S16x64x4096.rank)
  reducesTo_S16x64x4096_S16x64_d2 : S16x64x4096.ReducesTo [2] S16x64
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x1024_0_1_2 : S16x64x1.BroadcastsInDim S16x64x1024 (![0, 1, 2] : Fin 3 → Fin S16x64x1024.rank)
  dot_S16x64x4096_S16x4096x1024_S16x64x1024_2_1_1_2_0_0_wf : DotDims.WF S16x64x4096 S16x4096x1024 S16x64x1024 [2] [1] [1] [2] [0] [0]

variable [Facts₀]

def dot_S16x64x4096_S16x4096x1024_S16x64x1024_2_1_1_2_0_0 : DotDims S16x64x4096 S16x4096x1024 S16x64x1024 where
  lhsContracting := [2]
  rhsContracting := [1]
  lhsNonContracting := [1]
  rhsNonContracting := [2]
  lhsBatch := [0]
  rhsBatch := [0]
  wf := dot_S16x64x4096_S16x4096x1024_S16x64x1024_2_1_1_2_0_0_wf

class Facts : Prop extends Facts₀ where

variable [Facts]
-- ==== Proof.IndexMap.lean ====
/-
  The values' block index along the positions, as the index map computes it from the tile number and the row's
  length `len`: `min tile (max 0 ⌊(len − 1) / 1024⌋)`, the floored quotient being the truncated one corrected where the
  signs differ and the remainder is not zero. Whatever the length is, the index is at most the tile number; and when the
  tile starts below the length (`1024 · tile < len` in the signed order) then `len − 1 ≥ 1024 · tile ≥ 0`, the quotient is at
  least the tile number, and the index is the tile number itself.
-/
import Idealize.ShloMosaic.PureOps

namespace Cert.Spot.IndexMap

open Idealize.ShloMosaic

/-- The block index from the tile word `arg1` and the length word `v1`, operation by operation. -/
def blockIdx (arg1 v1 : BitVec 32) : BitVec 32 :=
  let v2 : BitVec 32 := Scalar.subi v1 1#32
  let v3 : BitVec 32 := Scalar.divsi v2 1024#32
  let v4 : BitVec 1 := Scalar.cmpi .sgt v2 0#32
  let v5 : BitVec 32 := Scalar.extui v4
  let v6 : BitVec 1 := Scalar.cmpi .slt v2 0#32
  let v7 : BitVec 32 := Scalar.extui v6
  let v8 : BitVec 32 := Scalar.subi v5 v7
  let v9 : BitVec 1 := Scalar.cmpi .sgt 1024#32 0#32
  let v10 : BitVec 32 := Scalar.extui v9
  let v11 : BitVec 1 := Scalar.cmpi .slt 1024#32 0#32
  let v12 : BitVec 32 := Scalar.extui v11
  let v13 : BitVec 32 := Scalar.subi v10 v12
  let v14 : BitVec 1 := Scalar.cmpi .ne v8 v13
  let v15 : BitVec 32 := Scalar.remsi v2 1024#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.maxsi 0#32 v19
  Scalar.minsi arg1 v20

/-- A 32-bit word read signed is its unsigned reading below 2³¹, and that less 2³² from there on. -/
theorem toInt_cases (x : BitVec 32) :
    (x.toNat < 2147483648 ∧ x.toInt = (x.toNat : ℤ)) ∨
      (2147483648 ≤ x.toNat ∧ x.toInt = (x.toNat : ℤ) - 4294967296) := by
  rw [BitVec.toInt_eq_toNat_cond]
  have := x.isLt
  by_cases h : 2 * x.toNat < 2 ^ 32
  · rw [if_pos h]; left; constructor <;> omega
  · rw [if_neg h]; right; constructor <;> omega

/-- The larger of 0 and a word, in the signed order, is not negative. -/
theorem maxsi_zero_nonneg (v : BitVec 32) : 0 ≤ (IntOp.maxsi 0#32 v).toInt := by
  unfold IntOp.maxsi
  by_cases h : v.slt 0#32 = true
  · rw [if_pos h]; decide
  · rw [if_neg h]
    rw [BitVec.slt_iff_toInt_lt] at h
    have h0 : (0#32).toInt = 0 := by decide
    omega

/-- The signed minimum of a word that is at most 3 and a word that is not negative is at most 3. -/
theorem minsi_le (a v : BitVec 32) (ha : a.toNat ≤ 3) (hv : 0 ≤ v.toInt) : (IntOp.minsi a v).toNat ≤ 3 := by
  unfold IntOp.minsi
  by_cases h : a.slt v = true
  · rw [if_pos h]; exact ha
  · rw [if_neg h]
    rw [BitVec.slt_iff_toInt_lt] at h
    rcases toInt_cases a with ⟨_, ea⟩ | ⟨hb, _⟩
    · rcases toInt_cases v with ⟨_, ev⟩ | ⟨_, ev⟩ <;> omega
    · omega

/-- Whatever the length, a tile number's block index is a tile number. -/
theorem blockIdx_le (a1 len : BitVec 32) (h : a1.toNat ≤ 3) : (blockIdx a1 len).toNat ≤ 3 := by
  unfold blockIdx
  exact minsi_le a1 _ h (maxsi_zero_nonneg _)

/-- The floored quotient by 1024 as the chain computes it from the dividend: the truncated quotient, less 1 where the
    signs of dividend and divisor differ and the remainder is not 0. -/
def quo (v2 : BitVec 32) : BitVec 32 :=
  let v3 : BitVec 32 := Scalar.divsi v2 1024#32
  let v4 : BitVec 1 := Scalar.cmpi .sgt v2 0#32
  let v5 : BitVec 32 := Scalar.extui v4
  let v6 : BitVec 1 := Scalar.cmpi .slt v2 0#32
  let v7 : BitVec 32 := Scalar.extui v6
  let v8 : BitVec 32 := Scalar.subi v5 v7
  let v9 : BitVec 1 := Scalar.cmpi .sgt 1024#32 0#32
  let v10 : BitVec 32 := Scalar.extui v9
  let v11 : BitVec 1 := Scalar.cmpi .slt 1024#32 0#32
  let v12 : BitVec 32 := Scalar.extui v11
  let v13 : BitVec 32 := Scalar.subi v10 v12
  let v14 : BitVec 1 := Scalar.cmpi .ne v8 v13
  let v15 : BitVec 32 := Scalar.remsi v2 1024#32
  let v16 : BitVec 1 := Scalar.cmpi .ne v15 0#32
  let v17 : BitVec 1 := Scalar.andi v14 v16
  let v18 : BitVec 32 := Scalar.subi v3 1#32
  Scalar.select v17 v18 v3

/-- The block index is the signed minimum of the tile and the larger of 0 and that quotient of `len − 1`. -/
theorem blockIdx_def (a len : BitVec 32) :
    blockIdx a len = IntOp.minsi a (IntOp.maxsi 0#32 (quo (len - 1#32))) := rfl

/-- On a dividend that is not negative the correction is off: the chain's quotient is the unsigned one. -/
theorem quo_eq (v2 : BitVec 32) (h : v2.toNat < 2147483648) : quo v2 = v2 / 1024#32 := by
  by_cases hz : v2 = 0#32
  · subst hz; decide
  · have hpos : 0 < v2.toNat := by
      rcases Nat.eq_zero_or_pos v2.toNat with h0 | h0
      · exact absurd (BitVec.eq_of_toNat_eq (by rw [h0]; rfl)) hz
      · exact h0
    have hm : v2.msb = false := by rw [BitVec.msb_eq_false_iff_two_mul_lt]; omega
    have hm' : (1024#32).msb = false := by decide
    have hc : ¬ IntOp.SDivCorner v2 1024#32 := by
      rintro (h | ⟨_, h⟩) <;> exact absurd h (by decide)
    have hdiv : Scalar.divsi v2 1024#32 = v2 / 1024#32 := by
      show (if IntOp.SDivCorner v2 1024#32 then _ else v2.sdiv 1024#32) = _
      rw [if_neg hc, BitVec.sdiv_eq, hm, hm']
      rfl
    have h0 : (0#32).toInt = 0 := by decide
    have hgt : Scalar.cmpi .sgt v2 0#32 = 1#1 := by
      show BitVec.ofBool ((0#32).slt v2) = 1#1
      have : (0#32).slt v2 = true := by
        rw [BitVec.slt_iff_toInt_lt]
        rcases toInt_cases v2 with ⟨_, e⟩ | ⟨_, e⟩ <;> omega
      rw [this]; rfl
    have hlt : Scalar.cmpi .slt v2 0#32 = 0#1 := by
      show BitVec.ofBool (v2.slt 0#32) = 0#1
      have : v2.slt 0#32 = false := by
        rw [Bool.eq_false_iff]
        intro hh
        rw [BitVec.slt_iff_toInt_lt] at hh
        rcases toInt_cases v2 with ⟨_, e⟩ | ⟨_, e⟩ <;> omega
      rw [this]; rfl
    have h14 : Scalar.cmpi .ne (Scalar.subi (Scalar.extui 1#1) (Scalar.extui 0#1))
        (Scalar.subi (Scalar.extui (Scalar.cmpi .sgt 1024#32 0#32)) (Scalar.extui (Scalar.cmpi .slt 1024#32 0#32))) = 0#1 := by
      decide
    show Scalar.select (Scalar.andi (Scalar.cmpi .ne (Scalar.subi (Scalar.extui (Scalar.cmpi .sgt v2 0#32)) (Scalar.extui (Scalar.cmpi .slt v2 0#32)))
        (Scalar.subi (Scalar.extui (Scalar.cmpi .sgt 1024#32 0#32)) (Scalar.extui (Scalar.cmpi .slt 1024#32 0#32))))
        (Scalar.cmpi .ne (Scalar.remsi v2 1024#32) 0#32)) (Scalar.subi (Scalar.divsi v2 1024#32) 1#32) (Scalar.divsi v2 1024#32) = _
    rw [hgt, hlt, h14, hdiv]
    show (if (0#1 &&& _) = 1#1 then _ else _) = _
    rw [BitVec.zero_and, if_neg (by decide)]

/-- A small natural number as a word, read unsigned, is itself. -/
theorem toNat_ofNat_small (n : ℕ) (h : n < 4096) : (BitVec.ofNat 32 n).toNat = n := by
  rw [BitVec.toNat_ofNat]; omega

/-- The signed minimum of a tile number and the larger of 0 and a word that is not negative and at least the tile
    number is the tile number. -/
theorem minsi_maxsi_eq (k : ℕ) (hk : k < 4) (q : BitVec 32) (hq : q.toNat < 2147483648) (hkq : k ≤ q.toNat) :
    IntOp.minsi (BitVec.ofNat 32 k) (IntOp.maxsi 0#32 q) = BitVec.ofNat 32 k := by
  have ek := toNat_ofNat_small k (by omega)
  have h0 : (0#32).toInt = 0 := by decide
  have hmax : IntOp.maxsi 0#32 q = q := by
    unfold IntOp.maxsi
    rw [if_neg]
    intro hh
    rw [BitVec.slt_iff_toInt_lt] at hh
    rcases toInt_cases q with ⟨_, e⟩ | ⟨_, e⟩ <;> omega
  rw [hmax]
  unfold IntOp.minsi
  by_cases hh : (BitVec.ofNat 32 k).slt q = true
  · rw [if_pos hh]
  · rw [if_neg hh]
    rw [BitVec.slt_iff_toInt_lt] at hh
    apply BitVec.eq_of_toNat_eq
    rcases toInt_cases q with ⟨_, e⟩ | ⟨_, e⟩
    · rcases toInt_cases (BitVec.ofNat 32 k) with ⟨_, e'⟩ | ⟨_, e'⟩ <;> omega
    · omega

/-- Where the tile starts below the length, the block index is the tile number. -/
theorem blockIdx_eq (k : ℕ) (hk : k < 4) (len : BitVec 32) (h : (BitVec.ofNat 32 (1024 * k)).slt len = true) :
    blockIdx (BitVec.ofNat 32 k) len = BitVec.ofNat 32 k := by
  rw [BitVec.slt_iff_toInt_lt] at h
  have e1 := toNat_ofNat_small (1024 * k) (by omega)
  have hlen : len.toNat < 2147483648 ∧ 1024 * k + 1 ≤ len.toNat := by
    rcases toInt_cases len with ⟨_, el⟩ | ⟨_, el⟩ <;>
      rcases toInt_cases (BitVec.ofNat 32 (1024 * k)) with ⟨_, e⟩ | ⟨_, e⟩ <;> omega
  have hv2 : (len - 1#32).toNat = len.toNat - 1 := by
    rw [BitVec.toNat_sub]
    have : (1#32).toNat = 1 := by decide
    rw [this]; omega
  have hq : (quo (len - 1#32)).toNat = (len.toNat - 1) / 1024 := by
    rw [quo_eq _ (by omega), BitVec.toNat_udiv, hv2]
    have : (1024#32).toNat = 1024 := by decide
    rw [this]
  rw [blockIdx_def]
  exact minsi_maxsi_eq k hk _ (by omega) (by omega)

end Cert.Spot.IndexMap
-- ==== Proof.KernelOk.lean ====
/-
  The values' block index is the smaller of the tile and a clamped word that is never negative, so it is a tile
  number whatever the length table holds: every block the index map picks lies inside the array.
-/
import proofs.«415546_j62010737819899_3_alg».proof.Proof.Gen.KernelIdeal.Frame
import proofs.«415546_j62010737819899_3_alg».proof.Proof.IndexMap

noncomputable section

namespace Cert.KernelIdeal.Val

open Idealize.ShloMosaic Idealize.ShloMosaic.TcCoe Idealize.SL.Sem
open Cert.KernelIdeal Cert.KernelIdeal.Gen

variable {F : FTy → Type} [FloatOps F]

/-- The index map of the values' window, coordinate by coordinate: the row, the block index along the positions as
    the scalar chain computes it from the tile and the row's length word in the table `pf`, and 0. -/
theorem transform1_eq (pf : pre0.Contents (Elt F)) (i : grid0.Coords) :
    cc0_transform_1 Facts₀.k0_off1_inb Facts₀.numel1_S1 pf i =
      ![(BitVec.ofNat 32 (i 0).val).toNat,
        (Cert.Spot.IndexMap.blockIdx (BitVec.ofNat 32 (i 1).val)
          (pf.at 0 (Rect.unit (s := S16) ![(Scalar.indexCast (BitVec.ofNat 32 (i 0).val)).toNat] S1.size (Facts₀.k0_off1_inb i)) Facts₀.numel1_S1)).toNat,
        (0#32).toNat] := rfl

/-- Whatever the table holds, every block of the values' window lies inside the array: the row is below 16, the block
    index along the positions is at most 3, and the last coordinate is 0. -/
theorem ok_pf (pf : pre0.Contents (Elt F)) : ok0 pf := by
  intro i
  have h0 : (i 0).val < 16 := (i 0).isLt
  have h1 : (i 1).val < 4 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨?_, .inl rfl⟩
  intro a
  rw [transform1_eq]
  match a with
  | 0 =>
    show ((BitVec.ofNat 32 (i 0).val).toNat + 1) * 1 ≤ 16
    omega
  | 1 =>
    show ((Cert.Spot.IndexMap.blockIdx (BitVec.ofNat 32 (i 1).val) _).toNat + 1) * 1024 ≤ 4096
    have := Cert.Spot.IndexMap.blockIdx_le (BitVec.ofNat 32 (i 1).val)
      (pf.at 0 (Rect.unit (s := S16) ![(Scalar.indexCast (BitVec.ofNat 32 (i 0).val)).toNat] S1.size (Facts₀.k0_off1_inb i)) Facts₀.numel1_S1) (by omega)
    omega
  | 2 =>
    show ((0#32).toNat + 1) * 1024 ≤ 1024
    decide

theorem ok_any (m : (ℓ : Loc nD τ sig) → Buf (Elt F) ℓ) : Ok m := ok_pf (tbl m)

end Cert.KernelIdeal.Val

end
-- ==== Proof.KernelOkBits.lean ====
/-
  The values' block index is the smaller of the tile and a clamped word that is never negative, so it is a tile
  number whatever the length table holds: every block the index map picks lies inside the array.
-/
import proofs.«415546_j62010737819899_3_alg».proof.Proof.Gen.Kernel.Frame
import proofs.«415546_j62010737819899_3_alg».proof.Proof.IndexMap

noncomputable section

namespace Cert.Kernel.Val

open Idealize.ShloMosaic Idealize.ShloMosaic.TcCoe Idealize.SL.Sem
open Cert.Kernel Cert.Kernel.Gen

variable {F : FTy → Type} [FloatOps F]

/-- The index map of the values' window, coordinate by coordinate: the row, the block index along the positions as
    the scalar chain computes it from the tile and the row's length word in the table `pf`, and 0. -/
theorem transform1_eq (pf : pre0.Contents (Elt F)) (i : grid0.Coords) :
    cc0_transform_1 Facts₀.k0_off1_inb Facts₀.numel1_S1 pf i =
      ![(BitVec.ofNat 32 (i 0).val).toNat,
        (Cert.Spot.IndexMap.blockIdx (BitVec.ofNat 32 (i 1).val)
          (pf.at 0 (Rect.unit (s := S16) ![(Scalar.indexCast (BitVec.ofNat 32 (i 0).val)).toNat] S1.size (Facts₀.k0_off1_inb i)) Facts₀.numel1_S1)).toNat,
        (0#32).toNat] := rfl

/-- Whatever the table holds, every block of the values' window lies inside the array: the row is below 16, the block
    index along the positions is at most 3, and the last coordinate is 0. -/
theorem ok_pf (pf : pre0.Contents (Elt F)) : ok0 pf := by
  intro i
  have h0 : (i 0).val < 16 := (i 0).isLt
  have h1 : (i 1).val < 4 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨?_, .inl rfl⟩
  intro a
  rw [transform1_eq]
  match a with
  | 0 =>
    show ((BitVec.ofNat 32 (i 0).val).toNat + 1) * 1 ≤ 16
    omega
  | 1 =>
    show ((Cert.Spot.IndexMap.blockIdx (BitVec.ofNat 32 (i 1).val) _).toNat + 1) * 1024 ≤ 4096
    have := Cert.Spot.IndexMap.blockIdx_le (BitVec.ofNat 32 (i 1).val)
      (pf.at 0 (Rect.unit (s := S16) ![(Scalar.indexCast (BitVec.ofNat 32 (i 0).val)).toNat] S1.size (Facts₀.k0_off1_inb i)) Facts₀.numel1_S1) (by omega)
    omega
  | 2 =>
    show ((0#32).toNat + 1) * 1024 ≤ 1024
    decide

theorem ok_any (m : (ℓ : Loc nD τ sig) → Buf (Elt F) ℓ) : Ok m := ok_pf (tbl m)

end Cert.Kernel.Val

end
-- ==== Proof.Spec.lean ====
/-
  The spotlight sampler, as mathematics over the extended reals.

  For a batch row `b`, a view `p` and a sequence position `l` the weight is
  `w b p l = exp (-20 · ((cx − x)² + (cy − y)²)) · [l < len b]`, where `(cx, cy)` is the view's centre, `(x, y)` the
  position's coordinates and the bracket is 1 when `l` is below the row's length in the signed order of 32-bit words,
  else 0. The result at `(b, p, d)` is `(∑ₗ w b p l · v b l d) / (∑ₗ w b p l + ε)`, the sums over all 4096 positions.

  The same result is reached four tiles of 1024 positions at a time, adding a tile's partial sums only when the tile
  starts below the row's length: a tile that starts at or past the length has weight 0 at every one of its positions
  (its positions are at or past the tile's start, hence at or past the length), so its partial sums are 0 and leaving
  them out changes nothing. On the extended reals `a · 0 = 0` and `0 · a = 0` for every `a`, infinite ones included,
  and addition is associative, so no finiteness is needed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spot

open Idealize.ShloMosaic Idealize.ShloMosaic.ValueIdx
open scoped BigOperators

abbrev SB : Shape := ⟨1, ![16]⟩
abbrev SXY : Shape := ⟨2, ![16, 4096]⟩
abbrev SC : Shape := ⟨3, ![16, 64, 2]⟩
abbrev SV : Shape := ⟨3, ![16, 4096, 1024]⟩
abbrev SO : Shape := ⟨3, ![16, 64, 1024]⟩

/-- Position `l` of the sequence as a 32-bit word. -/
def pos (l : Fin 4096) : BitVec 32 := BitVec.ofNat 32 l.val

/-- The validity mask: 1 where the position is below the row's length (signed order), else 0. -/
def mask (vlen : IVec SB 32) (b : Fin 16) (l : Fin 4096) : EReal :=
  if (pos l).slt (vlen (ix1 b)) = true then 1 else 0

/-- The exponent's scale, the f32 word of -20. -/
def scale : EReal := Ideal.ofBits .f32 0xC1A00000#32
/-- The denominator's offset, the f32 word nearest 1e-6. -/
def eps : EReal := Ideal.ofBits .f32 0x358637BD#32

/-- The squared distance from view `p`'s centre to position `l`'s coordinates. -/
def dist2 (cen : FVec Ideal SC .f32) (xs ys : FVec Ideal SXY .f32) (b : Fin 16) (p : Fin 64) (l : Fin 4096) : EReal :=
  (cen (ix3 b p (0 : Fin 2)) - xs (ix2 b l)) * (cen (ix3 b p (0 : Fin 2)) - xs (ix2 b l))
    + (cen (ix3 b p (1 : Fin 2)) - ys (ix2 b l)) * (cen (ix3 b p (1 : Fin 2)) - ys (ix2 b l))

/-- The weight of position `l` for view `p`. -/
def wgt (vlen : IVec SB 32) (cen : FVec Ideal SC .f32) (xs ys : FVec Ideal SXY .f32) (b : Fin 16) (p : Fin 64) (l : Fin 4096) : EReal :=
  Ideal.exp (scale * dist2 cen xs ys b p l) * mask vlen b l

/-- The weighted sum of the values over all positions. -/
def num (vp : FVec Ideal SV .f32) (vlen : IVec SB 32) (cen : FVec Ideal SC .f32) (xs ys : FVec Ideal SXY .f32)
    (b : Fin 16) (p : Fin 64) (d : Fin 1024) : EReal :=
  ∑ l : Fin 4096, wgt vlen cen xs ys b p l * vp (ix3 b l d)

/-- The sum of the weights over all positions. -/
def den (vlen : IVec SB 32) (cen : FVec Ideal SC .f32) (xs ys : FVec Ideal SXY .f32) (b : Fin 16) (p : Fin 64) : EReal :=
  ∑ l : Fin 4096, wgt vlen cen xs ys b p l

/-- The result array: the weighted mean with the offset in the denominator. -/
def G (vp : FVec Ideal SV .f32) (vlen : IVec SB 32) (cen : FVec Ideal SC .f32) (xs ys : FVec Ideal SXY .f32) : FVec Ideal SO .f32 :=
  fun i => Ideal.div (num vp vlen cen xs ys (i 0) (i 1) (i 2)) (den vlen cen xs ys (i 0) (i 1) + eps)

/-! ## Tile by tile -/

/-- Position `j` of tile `k`. -/
def tpos (k : Fin 4) (j : Fin 1024) : Fin 4096 := ⟨1024 * k.val + j.val, by omega⟩

/-- Tile `k` starts below the row's length. -/
def tileOn (vlen : IVec SB 32) (b : Fin 16) (k : Fin 4) : Prop :=
  (BitVec.ofNat 32 (1024 * k.val)).slt (vlen (ix1 b)) = true

instance (vlen : IVec SB 32) (b : Fin 16) (k : Fin 4) : Decidable (tileOn vlen b k) := by unfold tileOn; infer_instance

/-- One tile's part of the weighted sum. -/
def tileNum (vp : FVec Ideal SV .f32) (vlen : IVec SB 32) (cen : FVec Ideal SC .f32) (xs ys : FVec Ideal SXY .f32)
    (b : Fin 16) (k : Fin 4) (p : Fin 64) (d : Fin 1024) : EReal :=
  ∑ j : Fin 1024, wgt vlen cen xs ys b p (tpos k j) * vp (ix3 b (tpos k j) d)

/-- One tile's part of the sum of weights. -/
def tileDen (vlen : IVec SB 32) (cen : FVec Ideal SC .f32) (xs ys : FVec Ideal SXY .f32) (b : Fin 16) (k : Fin 4) (p : Fin 64) : EReal :=
  ∑ j : Fin 1024, wgt vlen cen xs ys b p (tpos k j)

/-- The weighted sum accumulated after tile `k`: from 0 at the first tile, a tile's part added only when the tile is on. -/
def accNum (vp : FVec Ideal SV .f32) (vlen : IVec SB 32) (cen : FVec Ideal SC .f32) (xs ys : FVec Ideal SXY .f32)
    (b : Fin 16) (p : Fin 64) (d : Fin 1024) : (k : ℕ) → k < 4 → EReal
  | 0, h => if tileOn vlen b ⟨0, h⟩ then 0 + tileNum vp vlen cen xs ys b ⟨0, h⟩ p d else 0
  | k + 1, h => if tileOn vlen b ⟨k + 1, h⟩ then accNum vp vlen cen xs ys b p d k (Nat.lt_of_succ_lt h) + tileNum vp vlen cen xs ys b ⟨k + 1, h⟩ p d
      else accNum vp vlen cen xs ys b p d k (Nat.lt_of_succ_lt h)

/-- The sum of weights accumulated after tile `k`, likewise. -/
def accDen (vlen : IVec SB 32) (cen : FVec Ideal SC .f32) (xs ys : FVec Ideal SXY .f32)
    (b : Fin 16) (p : Fin 64) : (k : ℕ) → k < 4 → EReal
  | 0, h => if tileOn vlen b ⟨0, h⟩ then 0 + tileDen vlen cen xs ys b ⟨0, h⟩ p else 0
  | k + 1, h => if tileOn vlen b ⟨k + 1, h⟩ then accDen vlen cen xs ys b p k (Nat.lt_of_succ_lt h) + tileDen vlen cen xs ys b ⟨k + 1, h⟩ p
      else accDen vlen cen xs ys b p k (Nat.lt_of_succ_lt h)

/-- A small natural number as a 32-bit word, read signed, is itself. -/
theorem toInt_ofNat_small (n : ℕ) (h : n < 4096) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- In a tile that starts at or past the row's length every position is masked out. -/
theorem mask_off (vlen : IVec SB 32) (b : Fin 16) (k : Fin 4) (hk : ¬tileOn vlen b k) (j : Fin 1024) :
    mask vlen b (tpos k j) = 0 := by
  unfold mask
  rw [if_neg]
  intro hlt
  apply hk
  unfold tileOn
  unfold pos at hlt
  rw [BitVec.slt_iff_toInt_lt] at hlt ⊢
  have e1 := toInt_ofNat_small (1024 * k.val) (by have := k.isLt; omega)
  have e2 := toInt_ofNat_small (tpos k j).val (tpos k j).isLt
  rw [e1]
  rw [e2] at hlt
  have : ((1024 * k.val : ℕ) : ℤ) ≤ ((tpos k j).val : ℤ) := by
    show ((1024 * k.val : ℕ) : ℤ) ≤ ((1024 * k.val + j.val : ℕ) : ℤ)
    exact_mod_cast Nat.le_add_right _ _
  omega

/-- So such a tile's parts of both sums are 0. -/
theorem tileNum_off (vp : FVec Ideal SV .f32) (vlen : IVec SB 32) (cen : FVec Ideal SC .f32) (xs ys : FVec Ideal SXY .f32)
    (b : Fin 16) (k : Fin 4) (p : Fin 64) (d : Fin 1024) (hk : ¬tileOn vlen b k) : tileNum vp vlen cen xs ys b k p d = 0 := by
  unfold tileNum
  apply Finset.sum_eq_zero
  intro j _
  unfold wgt
  rw [mask_off vlen b k hk j, mul_zero, zero_mul]

theorem tileDen_off (vlen : IVec SB 32) (cen : FVec Ideal SC .f32) (xs ys : FVec Ideal SXY .f32)
    (b : Fin 16) (k : Fin 4) (p : Fin 64) (hk : ¬tileOn vlen b k) : tileDen vlen cen xs ys b k p = 0 := by
  unfold tileDen
  apply Finset.sum_eq_zero
  intro j _
  unfold wgt
  rw [mask_off vlen b k hk j, mul_zero]

/-- The positions are the tiles' positions: a sum over all 4096 is the four tiles' sums. -/
theorem sum_tiles (f : Fin 4096 → EReal) :
    ∑ l : Fin 4096, f l = (((∑ j : Fin 1024, f (tpos 0 j)) + ∑ j : Fin 1024, f (tpos 1 j)) + ∑ j : Fin 1024, f (tpos 2 j)) + ∑ j : Fin 1024, f (tpos 3 j) := by
  have e : ∀ x : Fin 4 × Fin 1024, (finProdFinEquiv x : Fin (4 * 1024)) = (tpos x.1 x.2 : Fin 4096) := by
    intro x
    apply Fin.ext
    show x.2.val + 1024 * x.1.val = 1024 * x.1.val + x.2.val
    omega
  calc ∑ l : Fin 4096, f l = ∑ x : Fin 4 × Fin 1024, f (finProdFinEquiv x : Fin (4 * 1024)) :=
        (Equiv.sum_comp (finProdFinEquiv : Fin 4 × Fin 1024 ≃ Fin (4 * 1024)) f).symm
    _ = ∑ x : Fin 4 × Fin 1024, f (tpos x.1 x.2) := Finset.sum_congr rfl fun x _ => by rw [e x]
    _ = ∑ k : Fin 4, ∑ j : Fin 1024, f (tpos k j) := Fintype.sum_prod_type _
    _ = _ := by rw [Fin.sum_univ_four]

/-- The accumulated weighted sum after the last tile is the sum over all positions. -/
theorem accNum_last (vp : FVec Ideal SV .f32) (vlen : IVec SB 32) (cen : FVec Ideal SC .f32) (xs ys : FVec Ideal SXY .f32)
    (b : Fin 16) (p : Fin 64) (d : Fin 1024) :
    accNum vp vlen cen xs ys b p d 3 (by decide) = num vp vlen cen xs ys b p d := by
  have step0 : accNum vp vlen cen xs ys b p d 0 (by decide) = tileNum vp vlen cen xs ys b 0 p d := by
    show (if tileOn vlen b ⟨0, _⟩ then 0 + tileNum vp vlen cen xs ys b ⟨0, _⟩ p d else 0) = _
    by_cases h : tileOn vlen b ⟨0, by decide⟩
    · rw [if_pos h, zero_add]; rfl
    · rw [if_neg h]; exact (tileNum_off vp vlen cen xs ys b _ p d h).symm
  have step : ∀ (k : ℕ) (h : k + 1 < 4), accNum vp vlen cen xs ys b p d (k + 1) h
      = accNum vp vlen cen xs ys b p d k (Nat.lt_of_succ_lt h) + tileNum vp vlen cen xs ys b ⟨k + 1, h⟩ p d := by
    intro k h
    show (if tileOn vlen b ⟨k + 1, h⟩ then _ else _) = _
    by_cases hk : tileOn vlen b ⟨k + 1, h⟩
    · rw [if_pos hk]
    · rw [if_neg hk, tileNum_off vp vlen cen xs ys b _ p d hk, add_zero]
  rw [step 2, step 1, step 0, step0]
  unfold num
  rw [sum_tiles]
  rfl

/-- The accumulated sum of weights after the last tile is the sum over all positions. -/
theorem accDen_last (vlen : IVec SB 32) (cen : FVec Ideal SC .f32) (xs ys : FVec Ideal SXY .f32) (b : Fin 16) (p : Fin 64) :
    accDen vlen cen xs ys b p 3 (by decide) = den vlen cen xs ys b p := by
  have step0 : accDen vlen cen xs ys b p 0 (by decide) = tileDen vlen cen xs ys b 0 p := by
    show (if tileOn vlen b ⟨0, _⟩ then 0 + tileDen vlen cen xs ys b ⟨0, _⟩ p else 0) = _
    by_cases h : tileOn vlen b ⟨0, by decide⟩
    · rw [if_pos h, zero_add]; rfl
    · rw [if_neg h]; exact (tileDen_off vlen cen xs ys b _ p h).symm
  have step : ∀ (k : ℕ) (h : k + 1 < 4), accDen vlen cen xs ys b p (k + 1) h
      = accDen vlen cen xs ys b p k (Nat.lt_of_succ_lt h) + tileDen vlen cen xs ys b ⟨k + 1, h⟩ p := by
    intro k h
    show (if tileOn vlen b ⟨k + 1, h⟩ then _ else _) = _
    by_cases hk : tileOn vlen b ⟨k + 1, h⟩
    · rw [if_pos hk]
    · rw [if_neg hk, tileDen_off vlen cen xs ys b _ p hk, add_zero]
  rw [step 2, step 1, step 0, step0]
  unfold den
  rw [sum_tiles]
  rfl

end Cert.Spot

end
-- ==== Proof.KernelDefs.lean ====
/-
  Names for what one grid point of the kernel reads and leaves. A point is a row `b` and a tile `k` (point `4 b + k`).
  Its staged blocks are the two coordinate rows of the tile's 1024 positions, the row's values at those positions, and
  the row's view centres; from its table it reads the row's length. When the tile starts below the length the body
  adds to the first scratch the product of the tile's weights with the tile's values and to the second the weights'
  row sums; at the last tile it stores the quotient of the first scratch by the second plus the offset.
-/
import proofs.«415546_j62010737819899_3_alg».proof.Proof.Gen.KernelIdeal.Frame
import proofs.«415546_j62010737819899_3_alg».proof.Proof.Spec

noncomputable section

namespace Cert.KernelIdeal.Val

open Idealize.ShloMosaic Idealize.ShloMosaic.TcCoe Idealize.ShloMosaic.ValueIdx Idealize.SL.Sem
open Cert.KernelIdeal Cert.KernelIdeal.Gen

variable {F : FTy → Type} [FloatOps F]

/-- Row `r` (0: the x coordinates, 1: the y coordinates) of a staged coordinate block. -/
def crow (r : Fin 2) (x0 : Vec F S1x2x1024 .f32) : Vec F S1x1x1024 .f32 :=
  fun y => x0 (ix3 (0 : Fin 1) r (y 2))

/-- The length word the body reads from its table at a point: the entry of the point's row. -/
abbrev lenWord (c : Dev nD) (i : grid0.Coords) (xt0 : TbBuf0 (F := F) c tbM0_0) : BitVec 32 :=
  tbM0_0.view.readAt (Elt F) (Rect.unit (s := S16) (k0_off1 i) S1.size (k0_off1_inb i)).toLoadRect xt0 (Shape.Idx.first (numel1_S1.symm ▸ Nat.one_pos))

/-- The point's tile coordinate as a word. -/
abbrev tileWord (i : grid0.Coords) : BitVec 32 := BitVec.ofNat 32 (i 1).val

/-- What an executed tile leaves in the first scratch when it held `acc`: `acc` plus the weights times the values. -/
abbrev numStep (c : Dev nD) (i : grid0.Coords) (x0 : Vec F S1x2x1024 .f32) (x1 : Vec F S1x1024x1024 .f32) (x2 : Vec F S1x64x2 .f32)
    (xt0 : TbBuf0 (F := F) c tbM0_0) (acc : Vec F S64x1024 .f32) : Vec F S64x1024 .f32 :=
  k0_pay3 (k0_pay7 (tileWord i) (lenWord c i xt0) (crow 0 x0) (crow 1 x0) x2) (k0_pay8 x1) acc

/-- What an executed tile leaves in the second scratch when it held `acc`: `acc` plus the weights' row sums. -/
abbrev denStep (c : Dev nD) (i : grid0.Coords) (x0 : Vec F S1x2x1024 .f32) (x2 : Vec F S1x64x2 .f32)
    (xt0 : TbBuf0 (F := F) c tbM0_0) (acc : Vec F S64x1 .f32) : Vec F S64x1 .f32 :=
  k0_pay6 (tileWord i) (lenWord c i xt0) (crow 0 x0) (crow 1 x0) x2 acc

/-- The row of grid point `t`. -/
def rowOf (t : ℕ) (h : t < 64) : Fin 16 := ⟨t / 4, by omega⟩
/-- The tile of grid point `t`. -/
def tileOf (t : ℕ) : Fin 4 := ⟨t % 4, Nat.mod_lt _ (by decide)⟩

end Cert.KernelIdeal.Val

end
-- ==== Proof.KernelPieces.lean ====
/-
  What each control case of the body leaves in the two scratch buffers and in the output block, as the body's
  arithmetic of what the case found there: a first tile resets the scratch to zero before it adds, a later tile adds to
  what the tile before left, a tile past the row's length leaves the scratch as it was, and the last tile stores the quotient.

  Every store of the body covers its whole buffer, so a buffer ends with the payload of its last store; a load of a
  buffer the same case has already stored reads that store's payload, and a load of a staged block reads the block
  (for the coordinate block, one of its two rows).
-/
import proofs.«415546_j62010737819899_3_alg».proof.Proof.KernelDefs
import Idealize.ShloMosaic.Lib.Pipeline.Value
import Idealize.ShloMosaic.Lib.Tactic
import Idealize.ShloMosaic.Lib.WholeRead

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable {F : FTy → Type} [FloatOps F]
variable (c : Dev nD) (i : grid0.Coords) (arg3 : Memref sig .tc .vmem S1x2x1024 .f32) (harg3 : arg3.IsWhole) (arg4 : Memref sig .tc .vmem S1x1024x1024 .f32) (harg4 : arg4.IsWhole) (arg5 : Memref sig .tc .vmem S1x64x2 .f32) (harg5 : arg5.IsWhole) (arg6 : Memref sig .tc .vmem S1x64x1024 .f32) (harg6 : arg6.IsWhole) (arg7 : Memref sig .tc .vmem S64x1024 .f32) (harg7 : arg7.IsWhole) (arg8 : Memref sig .tc .vmem S64x1 .f32) (harg8 : arg8.IsWhole)
  (x0 : Vec F S1x2x1024 .f32) (x1 : Vec F S1x1024x1024 .f32) (x2 : Vec F S1x64x2 .f32) (xt0 : TbBuf0 (F := F) c tbM0_0)
  (xs0 : Vec F S64x1024 .f32) (xs1 : Vec F S64x1 .f32)

/-! ## What the body's loads read -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- The load of the coordinate block at offsets (0, 0, 0), one row long, reads the row of x coordinates: local index
    (0, 0, j) sits at (0, 0, j) of the block. -/
private theorem read_crow0 :
    View.readAt (Elt F) arg3.view (Rect.unit (s := S1x2x1024) ![0, 0, 0] S1x1x1024.size inb_S1x2x1024_S1x1x1024_0_0_0).toLoadRect (harg3.unread x0)
      = crow 0 x0 := by
  funext y
  rw [Memref.IsWhole.readAt_unread harg3]
  unfold crow
  congr 1
  funext a
  fin_cases a
  · apply Fin.ext
    have h : (y 0).val < 1 := (y 0).isLt
    show 0 + 1 * (y 0).val = 0
    omega
  · apply Fin.ext
    have h : (y 1).val < 1 := (y 1).isLt
    show 0 + 1 * (y 1).val = 0
    omega
  · apply Fin.ext
    show 0 + 1 * (y 2).val = (y 2).val
    omega

/-- The load at offsets (0, 1, 0) reads the row of y coordinates: local index (0, 0, j) sits at (0, 1, j). -/
private theorem read_crow1 :
    View.readAt (Elt F) arg3.view (Rect.unit (s := S1x2x1024) ![0, 1, 0] S1x1x1024.size inb_S1x2x1024_S1x1x1024_0_1_0).toLoadRect (harg3.unread x0)
      = crow 1 x0 := by
  funext y
  rw [Memref.IsWhole.readAt_unread harg3]
  unfold crow
  congr 1
  funext a
  fin_cases a
  · apply Fin.ext
    have h : (y 0).val < 1 := (y 0).isLt
    show 0 + 1 * (y 0).val = 0
    omega
  · apply Fin.ext
    have h : (y 1).val < 1 := (y 1).isLt
    show 1 + 1 * (y 1).val = 1
    omega
  · apply Fin.ext
    show 0 + 1 * (y 2).val = (y 2).val
    omega

/-- The load of the whole block of values reads the block. -/
private theorem read_vals :
    View.readAt (Elt F) arg4.view (Rect.unit (s := S1x1024x1024) ![0, 0, 0] S1x1024x1024.size inb_S1x1024x1024_S1x1024x1024_0_0_0).toLoadRect (harg4.unread x1)
      = x1 := by
  rw [View.readAt_eq_ld, harg4.read_unread, View.ld_unit_zero (S := S1x1024x1024) hz3]

/-- The load of the whole block of view centres reads the block. -/
private theorem read_ctr :
    View.readAt (Elt F) arg5.view (Rect.unit (s := S1x64x2) ![0, 0, 0] S1x64x2.size inb_S1x64x2_S1x64x2_0_0_0).toLoadRect (harg5.unread x2)
      = x2 := by
  rw [View.readAt_eq_ld, harg5.read_unread, View.ld_unit_zero (S := S1x64x2) hz3]

/-- The load of the whole first scratch, not yet stored by the case, reads what the point before left. -/
private theorem read_acc0 :
    View.readAt (Elt F) arg7.view (Rect.unit (s := S64x1024) ![0, 0] S64x1024.size inb_S64x1024_S64x1024_0_0).toLoadRect (harg7.unread xs0)
      = xs0 := by
  rw [View.readAt_eq_ld, harg7.read_unread, View.ld_unit_zero (S := S64x1024) hz2]

/-- The load of the whole second scratch, not yet stored by the case, reads what the point before left. -/
private theorem read_acc1 :
    View.readAt (Elt F) arg8.view (Rect.unit (s := S64x1) ![0, 0] S64x1.size inb_S64x1_S64x1_0_0).toLoadRect (harg8.unread xs1)
      = xs1 := by
  rw [View.readAt_eq_ld, harg8.read_unread, View.ld_unit_zero (S := S64x1) hz2]

/-! ## First tile -/

/-- Executed first tile, first scratch: the reset stores zero, the update reads it back and stores zero plus the product. -/
theorem sout_A_0 (hc0 : cond0_0 i) (hc2 : ¬cond0_2 i) (hc1 : cond0_1 i (lenWord c i xt0)) :
    sout0_A_0 c i arg3 harg3 arg4 harg4 arg5 harg5 arg6 harg6 arg7 harg7 arg8 harg8 hc0 hc2 x0 x1 x2 xt0 hc1 = numStep c i x0 x1 x2 xt0 (k0_pay1 (F := F)) := by
  unfold sout0_A_0
  rw [View.read_writes_eq_canon _ _ _ (scover0_A_0 c i arg3 harg3 arg4 harg4 arg5 harg5 arg6 harg6 arg7 harg7 arg8 harg8 hc0 hc2 x0 x1 x2 xt0 hc1)]
  unfold kernelRun0_A
  dsimp only
  sl_unfold_run_names
  rw [View.canon_cons_unit_zero (S := S64x1024) hz2, View.readCov_unit_zero (S := S64x1024) _ hz2]
  rw [read_crow0, read_crow1, read_ctr, read_vals]

/-- Executed first tile, second scratch: zero plus the weights' row sums. -/
theorem sout_A_1 (hc0 : cond0_0 i) (hc2 : ¬cond0_2 i) (hc1 : cond0_1 i (lenWord c i xt0)) :
    sout0_A_1 c i arg3 harg3 arg4 harg4 arg5 harg5 arg6 harg6 arg7 harg7 arg8 harg8 hc0 hc2 x0 x1 x2 xt0 hc1 = denStep c i x0 x2 xt0 (k0_pay2 (F := F)) := by
  unfold sout0_A_1
  rw [View.read_writes_eq_canon _ _ _ (scover0_A_1 c i arg3 harg3 arg4 harg4 arg5 harg5 arg6 harg6 arg7 harg7 arg8 harg8 hc0 hc2 x0 x1 x2 xt0 hc1)]
  unfold kernelRun0_A
  dsimp only
  sl_unfold_run_names
  rw [View.canon_cons_unit_zero (S := S64x1) hz2, View.readCov_unit_zero (S := S64x1) _ hz2]
  rw [read_crow0, read_crow1, read_ctr]

/-- Skipped first tile, first scratch: the reset alone. -/
theorem sout_B_0 (hc0 : cond0_0 i) (hc2 : ¬cond0_2 i) (hc1 : ¬cond0_1 i (lenWord c i xt0)) :
    sout0_B_0 c i arg3 harg3 arg4 harg4 arg5 harg5 arg6 harg6 arg7 harg7 arg8 harg8 hc0 hc2 x0 x1 x2 xt0 hc1 = k0_pay1 (F := F) := by
  unfold sout0_B_0
  rw [View.read_writes_eq_canon _ _ _ (scover0_B_0 c i arg3 harg3 arg4 harg4 arg5 harg5 arg6 harg6 arg7 harg7 arg8 harg8 hc0 hc2 x0 x1 x2 xt0 hc1)]
  unfold kernelRun0_B
  dsimp only
  sl_unfold_run_names
  rw [View.canon_unit_zero (S := S64x1024) hz2]

/-- Skipped first tile, second scratch: the reset alone. -/
theorem sout_B_1 (hc0 : cond0_0 i) (hc2 : ¬cond0_2 i) (hc1 : ¬cond0_1 i (lenWord c i xt0)) :
    sout0_B_1 c i arg3 harg3 arg4 harg4 arg5 harg5 arg6 harg6 arg7 harg7 arg8 harg8 hc0 hc2 x0 x1 x2 xt0 hc1 = k0_pay2 (F := F) := by
  unfold sout0_B_1
  rw [View.read_writes_eq_canon _ _ _ (scover0_B_1 c i arg3 harg3 arg4 harg4 arg5 harg5 arg6 harg6 arg7 harg7 arg8 harg8 hc0 hc2 x0 x1 x2 xt0 hc1)]
  unfold kernelRun0_B
  dsimp only
  sl_unfold_run_names
  rw [View.canon_unit_zero (S := S64x1) hz2]

/-! ## Middle tile -/

/-- Executed middle tile, first scratch: what the tile before left plus the product. -/
theorem sout_C_0 (hc0 : ¬cond0_0 i) (hc2 : ¬cond0_2 i) (hc1 : cond0_1 i (lenWord c i xt0)) :
    sout0_C_0 c i arg3 harg3 arg4 harg4 arg5 harg5 arg6 harg6 arg7 harg7 arg8 harg8 hc0 hc2 x0 x1 x2 xt0 xs0 xs1 hc1 = numStep c i x0 x1 x2 xt0 xs0 := by
  unfold sout0_C_0
  rw [View.read_writes_eq_canon _ _ _ (scover0_C_0 c i arg3 harg3 arg4 harg4 arg5 harg5 arg6 harg6 arg7 harg7 arg8 harg8 hc0 hc2 x0 x1 x2 xt0 xs0 xs1 hc1)]
  unfold kernelRun0_C
  dsimp only
  sl_unfold_run_names
  rw [View.canon_unit_zero (S := S64x1024) hz2]
  rw [read_crow0, read_crow1, read_ctr, read_vals, read_acc0]

/-- Executed middle tile, second scratch: what the tile before left plus the weights' row sums. -/
theorem sout_C_1 (hc0 : ¬cond0_0 i) (hc2 : ¬cond0_2 i) (hc1 : cond0_1 i (lenWord c i xt0)) :
    sout0_C_1 c i arg3 harg3 arg4 harg4 arg5 harg5 arg6 harg6 arg7 harg7 arg8 harg8 hc0 hc2 x0 x1 x2 xt0 xs0 xs1 hc1 = denStep c i x0 x2 xt0 xs1 := by
  unfold sout0_C_1
  rw [View.read_writes_eq_canon _ _ _ (scover0_C_1 c i arg3 harg3 arg4 harg4 arg5 harg5 arg6 harg6 arg7 harg7 arg8 harg8 hc0 hc2 x0 x1 x2 xt0 xs0 xs1 hc1)]
  unfold kernelRun0_C
  dsimp only
  sl_unfold_run_names
  rw [View.canon_unit_zero (S := S64x1) hz2]
  rw [read_crow0, read_crow1, read_ctr, read_acc1]

/-! ## Last tile -/

/-- Executed last tile, first scratch: as in a middle tile. -/
theorem sout_E_0 (hc0 : ¬cond0_0 i) (hc2 : cond0_2 i) (hc1 : cond0_1 i (lenWord c i xt0)) :
    sout0_E_0 c i arg3 harg3 arg4 harg4 arg5 harg5 arg6 harg6 arg7 harg7 arg8 harg8 hc0 hc2 x0 x1 x2 xt0 xs0 xs1 hc1 = numStep c i x0 x1 x2 xt0 xs0 := by
  unfold sout0_E_0
  rw [View.read_writes_eq_canon _ _ _ (scover0_E_0 c i arg3 harg3 arg4 harg4 arg5 harg5 arg6 harg6 arg7 harg7 arg8 harg8 hc0 hc2 x0 x1 x2 xt0 xs0 xs1 hc1)]
  unfold kernelRun0_E
  dsimp only
  sl_unfold_run_names
  rw [View.canon_unit_zero (S := S64x1024) hz2]
  rw [read_crow0, read_crow1, read_ctr, read_vals, read_acc0]

/-- Executed last tile, second scratch: as in a middle tile. -/
theorem sout_E_1 (hc0 : ¬cond0_0 i) (hc2 : cond0_2 i) (hc1 : cond0_1 i (lenWord c i xt0)) :
    sout0_E_1 c i arg3 harg3 arg4 harg4 arg5 harg5 arg6 harg6 arg7 harg7 arg8 harg8 hc0 hc2 x0 x1 x2 xt0 xs0 xs1 hc1 = denStep c i x0 x2 xt0 xs1 := by
  unfold sout0_E_1
  rw [View.read_writes_eq_canon _ _ _ (scover0_E_1 c i arg3 harg3 arg4 harg4 arg5 harg5 arg6 harg6 arg7 harg7 arg8 harg8 hc0 hc2 x0 x1 x2 xt0 xs0 xs1 hc1)]
  unfold kernelRun0_E
  dsimp only
  sl_unfold_run_names
  rw [View.canon_unit_zero (S := S64x1) hz2]
  rw [read_crow0, read_crow1, read_ctr, read_acc1]

/-- Executed last tile, output block: the quotient's two loads come after the tile's own stores, so they read the
    updated scratch. -/
theorem out_E_3 (hc0 : ¬cond0_0 i) (hc2 : cond0_2 i) (hc1 : cond0_1 i (lenWord c i xt0)) :
    out0_E_3 c i arg3 harg3 arg4 harg4 arg5 harg5 arg6 harg6 arg7 harg7 arg8 harg8 hc0 hc2 x0 x1 x2 xt0 xs0 xs1 hc1 = k0_pay4 (numStep c i x0 x1 x2 xt0 xs0) (denStep c i x0 x2 xt0 xs1) := by
  unfold out0_E_3
  rw [View.read_writes_eq_canon _ _ _ (cover0_E_3 c i arg3 harg3 arg4 harg4 arg5 harg5 arg6 harg6 arg7 harg7 arg8 harg8 hc0 hc2 x0 x1 x2 xt0 xs0 xs1 hc1)]
  unfold kernelRun0_E
  dsimp only
  sl_unfold_run_names
  rw [View.canon_unit_zero (S := S1x64x1024) hz3, View.readCov_unit_zero (S := S64x1024) _ hz2,
    View.readCov_unit_zero (S := S64x1) _ hz2]
  rw [read_crow0, read_crow1, read_ctr, read_vals, read_acc0, read_acc1]

/-- Skipped last tile, output block: the quotient of what the tile before left. -/
theorem out_F_3 (hc0 : ¬cond0_0 i) (hc2 : cond0_2 i) (hc1 : ¬cond0_1 i (lenWord c i xt0)) :
    out0_F_3 c i arg3 harg3 arg4 harg4 arg5 harg5 arg6 harg6 arg7 harg7 arg8 harg8 hc0 hc2 x0 x1 x2 xt0 xs0 xs1 hc1 = k0_pay4 xs0 xs1 := by
  unfold out0_F_3
  rw [View.read_writes_eq_canon _ _ _ (cover0_F_3 c i arg3 harg3 arg4 harg4 arg5 harg5 arg6 harg6 arg7 harg7 arg8 harg8 hc0 hc2 x0 x1 x2 xt0 xs0 xs1 hc1)]
  unfold kernelRun0_F
  dsimp only
  sl_unfold_run_names
  rw [View.canon_unit_zero (S := S1x64x1024) hz3]
  rw [read_acc0, read_acc1]

end Cert.KernelIdeal.Val

end
-- ==== Proof.KernelPayload.lean ====
/-
  The body's arithmetic read at an index over the extended reals: the weight of a position for a view, the product of
  the weights with the values as a sum over the tile's positions, the weights' row sum, and the final quotient.

  Over the extended reals every elementwise operation of the body reads through at an index (a product is the product of
  the elements, the exponential the exponential of the element, a change of format the identity), so a block of the body
  at `(p, j)` is the body's formula over the elements its layout operations pick: a view's centre, cut from the
  centres' two columns and spread along the lanes, is the centre's coordinate at row `p`; a coordinate row of the tile,
  spread over the views, is the row at position `j`; the mask, a one-bit comparison widened to a word and read as a
  signed integer, is 1 or 0. A sum along the lanes at view `p` is the sum over `j` of the block at `(p, j)`, and a block
  product into a zero accumulator at `(p, d)` is the sum over the one contracted coordinate `j` of the left block at
  `(p, j)` times the right block at `(j, d)`. The casts between a shape and the same shape with one more unit axis keep
  the other coordinates.
-/
import proofs.«415546_j62010737819899_3_alg».proof.Proof.KernelDefs
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

/-! ## The layout operations the body uses, read at an index -/

section Layout
variable {α : Type}

/-- A `[a, 1]` column spread along `b` lanes reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The weight -/

/-- The exponential of a block at an index is the exponential of the element. -/
theorem exp_apply {s : Shape} {φ : FTy} (a : FVec Ideal s φ) (i : s.Idx) : exp a i = Ideal.exp (a i) := rfl

/-- The word of -20 the body spreads over the block is the scale of the exponent. -/
theorem scale_eq : Scalar.ofBits (F := Ideal) .f32 0xC1A00000#32 = Cert.Spot.scale := rfl

/-- A view's centre coordinate `e` (0: x, 1: y), cut from the centres and spread along the lanes. -/
theorem cen_apply (x2 : Vec Ideal S1x64x2 .f32) (o : ℕ) (e : Fin 2) (he : e.val = o) (h1 : S1x64x2.ShapeCasts S64x2)
    (h2 : S64x2.Slices ![0, o] S64x1) (h3 : S64x1.Broadcasts S64x1024) (p : Fin 64) (j : Fin 1024) :
    broadcastTo S64x1024 (extractStridedSlice S64x1 ![0, o] (shapeCast S64x2 x2 h1) h2) h3 (ix2 p j)
      = x2 (ix3 (0 : Fin 1) p e) :=
  (broadcastTo_a1_ab_apply _ h3 p j).trans
    ((slice2_axis1_apply o _ h2 p (0 : Fin 1) e (by rw [he]; rfl)).trans (shapeCast_1ab_ab_apply x2 h1 p e))

/-- A coordinate row of the tile, spread over the views. -/
theorem row_apply (r : Vec Ideal S1x1x1024 .f32) (h1 : S1x1x1024.ShapeCasts S1x1024) (h2 : S1x1024.Broadcasts S64x1024)
    (p : Fin 64) (j : Fin 1024) :
    broadcastTo S64x1024 (shapeCast S1x1024 r h1) h2 (ix2 p j) = r (ix3 (0 : Fin 1) (0 : Fin 1) j) :=
  (broadcastTo_1b_ab_apply _ h2 p j).trans (shapeCast_1ab_ab_apply r h1 0 j)

/-- A one-bit word widened to 32 bits and read as a signed integer is 1 or 0. -/
theorem bit_real (b : Bool) : ((((BitVec.ofBool b).setWidth 32).toInt : ℝ) : EReal) = if b = true then 1 else 0 := by
  cases b
  · have h : ((BitVec.ofBool false).setWidth 32).toInt = 0 := by decide
    rw [h]; simp
  · have h : ((BitVec.ofBool true).setWidth 32).toInt = 1 := by decide
    rw [h]; simp

/-- The tile's mask: position `j` of the tile counts when its word is below the length in the signed order. -/
theorem mask_apply (a1 w : BitVec 32) (h1 : S1x1024.Iotas .tc 32 [1]) (h2 : 1 < 32) (h3 : S1x1024.Broadcasts S64x1024)
    (p : Fin 64) (j : Fin 1024) :
    broadcastTo S64x1024 (sitofp (F := Ideal) .f32 (extui 32 (cmpi .slt (addi (broadcast S1x1024 (Scalar.muli a1 1024#32)) (iota .tc S1x1024 32 [1] h1))
        (broadcast S1x1024 w)) h2)) h3 (ix2 p j)
      = if (a1 * 1024#32 + BitVec.ofNat 32 j.val).slt w = true then 1 else 0 := by
  refine (broadcastTo_1b_ab_apply _ h3 p j).trans ?_
  have hi : iota .tc S1x1024 32 [1] h1 (ix2 (0 : Fin 1) j) = BitVec.ofNat 32 j.val :=
    iota_single_apply .tc S1x1024 32 1 h1 (ix2 (0 : Fin 1) j)
  show ((((BitVec.ofBool ((a1 * 1024#32 + iota .tc S1x1024 32 [1] h1 (ix2 (0 : Fin 1) j)).slt w)).setWidth 32).toInt : ℝ) : EReal) = _
  rw [hi]
  exact bit_real _

/-- the weight of position j of the tile for view p, over the loaded rows -/
theorem pay5_apply (a1 w : BitVec 32) (r0 r1 : Vec Ideal S1x1x1024 .f32) (x2 : Vec Ideal S1x64x2 .f32) (p : Fin 64) (j : Fin 1024) :
    k0_pay5 (F := Ideal) a1 w r0 r1 x2 (ix2 p j)
      = Ideal.exp (Cert.Spot.scale * ((x2 (ix3 (0 : Fin 1) p (0 : Fin 2)) - r0 (ix3 (0 : Fin 1) (0 : Fin 1) j)) * (x2 (ix3 (0 : Fin 1) p (0 : Fin 2)) - r0 (ix3 (0 : Fin 1) (0 : Fin 1) j))
          + (x2 (ix3 (0 : Fin 1) p (1 : Fin 2)) - r1 (ix3 (0 : Fin 1) (0 : Fin 1) j)) * (x2 (ix3 (0 : Fin 1) p (1 : Fin 2)) - r1 (ix3 (0 : Fin 1) (0 : Fin 1) j))))
        * (if (a1 * 1024#32 + BitVec.ofNat 32 j.val).slt w = true then 1 else 0) := by
  unfold k0_pay5
  simp only [mulf_apply, addf_apply, subf_apply, exp_apply, broadcast_apply]
  rw [cen_apply x2 0 0 rfl, cen_apply x2 1 1 rfl, row_apply r0, row_apply r1, mask_apply]
  rfl

/-! ## The product of the weights with the values -/

/-- On the left operand's row axis the product's index is the result's row. -/
theorem lhs_dot_0 (j : S64x1024.Idx) (k : dot_S64x1024_S1024x1024_S64x1024_1_0_0_1_n_n.contr.Idx) :
    (dot_S64x1024_S1024x1024_S64x1024_1_0_0_1_n_n.lhsIdx j k 0).val = (j 0).val := by
  unfold DotDims.lhsIdx
  rw [dif_neg (show ¬(0 : Fin S64x1024.rank) ∈ dot_S64x1024_S1024x1024_S64x1024_1_0_0_1_n_n.lhsBatch by decide),
    dif_pos (show (0 : Fin S64x1024.rank) ∈ dot_S64x1024_S1024x1024_S64x1024_1_0_0_1_n_n.lhsNonContracting by decide)]
  rfl

/-- On the left operand's column axis it is the contraction's position. -/
theorem lhs_dot_1 (j : S64x1024.Idx) (k : dot_S64x1024_S1024x1024_S64x1024_1_0_0_1_n_n.contr.Idx) :
    (dot_S64x1024_S1024x1024_S64x1024_1_0_0_1_n_n.lhsIdx j k 1).val = (k ⟨0, by decide⟩).val :=
  DotDims.lhsIdx_val_of_single dot_S64x1024_S1024x1024_S64x1024_1_0_0_1_n_n rfl j k

/-- On the right operand's row axis it is the contraction's position. -/
theorem rhs_dot_0 (j : S64x1024.Idx) (k : dot_S64x1024_S1024x1024_S64x1024_1_0_0_1_n_n.contr.Idx) :
    (dot_S64x1024_S1024x1024_S64x1024_1_0_0_1_n_n.rhsIdx j k 0).val = (k ⟨0, by decide⟩).val :=
  DotDims.rhsIdx_val_of_single dot_S64x1024_S1024x1024_S64x1024_1_0_0_1_n_n rfl j k

/-- On the right operand's column axis it is the result's column. -/
theorem rhs_dot_1 (j : S64x1024.Idx) (k : dot_S64x1024_S1024x1024_S64x1024_1_0_0_1_n_n.contr.Idx) :
    (dot_S64x1024_S1024x1024_S64x1024_1_0_0_1_n_n.rhsIdx j k 1).val = (j 1).val := by
  unfold DotDims.rhsIdx
  rw [dif_neg (show ¬(1 : Fin S1024x1024.rank) ∈ dot_S64x1024_S1024x1024_S64x1024_1_0_0_1_n_n.rhsBatch by decide),
    dif_pos (show (1 : Fin S1024x1024.rank) ∈ dot_S64x1024_S1024x1024_S64x1024_1_0_0_1_n_n.rhsNonContracting by decide)]
  rfl

/-- The block product into a zero accumulator, at `(p, d)`: the sum over the tile's positions of the products. -/
theorem dot_apply (A : FVec Ideal S64x1024 .bf16) (B : FVec Ideal S1024x1024 .bf16) (p : Fin 64) (d : Fin 1024) :
    matmul dot_S64x1024_S1024x1024_S64x1024_1_0_0_1_n_n none A B (constant (F := Ideal) S64x1024 .f32 0x00000000#32) (ix2 p d)
      = ∑ j : Fin 1024, A (ix2 p j) * B (ix2 j d) := by
  refine (Ideal.matmul_constant_zero_apply dot_S64x1024_S1024x1024_S64x1024_1_0_0_1_n_n none A B (ix2 p d)).trans ?_
  rw [← Equiv.sum_comp (contrEquiv1 dot_S64x1024_S1024x1024_S64x1024_1_0_0_1_n_n 1024 rfl rfl).symm]
  refine Finset.sum_congr rfl fun j _ => ?_
  have hk : (((contrEquiv1 dot_S64x1024_S1024x1024_S64x1024_1_0_0_1_n_n 1024 rfl rfl).symm j) ⟨0, by decide⟩ : ℕ) = j.val :=
    contrEquiv1_symm_val dot_S64x1024_S1024x1024_S64x1024_1_0_0_1_n_n 1024 rfl rfl j
  have hl : dot_S64x1024_S1024x1024_S64x1024_1_0_0_1_n_n.lhsIdx (ix2 p d) ((contrEquiv1 dot_S64x1024_S1024x1024_S64x1024_1_0_0_1_n_n 1024 rfl rfl).symm j) = ix2 p j := by
    funext a
    refine Fin.ext ?_
    match a with
    | ⟨0, _⟩ => exact lhs_dot_0 _ _
    | ⟨1, _⟩ => exact (lhs_dot_1 _ _).trans hk
  have hr : dot_S64x1024_S1024x1024_S64x1024_1_0_0_1_n_n.rhsIdx (ix2 p d) ((contrEquiv1 dot_S64x1024_S1024x1024_S64x1024_1_0_0_1_n_n 1024 rfl rfl).symm j) = ix2 j d := by
    funext a
    refine Fin.ext ?_
    match a with
    | ⟨0, _⟩ => exact (rhs_dot_0 _ _).trans hk
    | ⟨1, _⟩ => exact rhs_dot_1 _ _
  rw [hl, hr]

/-- the first scratch after an executed tile: what it held plus, at `(p, d)`, the sum over the tile's positions of weight times value -/
theorem pay3_apply (a1 w : BitVec 32) (r0 r1 : Vec Ideal S1x1x1024 .f32) (x2 : Vec Ideal S1x64x2 .f32) (x1 : Vec Ideal S1x1024x1024 .f32)
    (acc : Vec Ideal S64x1024 .f32) (p : Fin 64) (d : Fin 1024) :
    k0_pay3 (F := Ideal) (k0_pay7 a1 w r0 r1 x2) (k0_pay8 x1) acc (ix2 p d)
      = acc (ix2 p d) + ∑ j : Fin 1024, k0_pay5 (F := Ideal) a1 w r0 r1 x2 (ix2 p j) * x1 (ix3 (0 : Fin 1) j d) := by
  unfold k0_pay3
  rw [shapeCast_self, addf_apply]
  refine congrArg (acc (ix2 p d) + ·) ?_
  refine (dot_apply _ _ p d).trans ?_
  refine Finset.sum_congr rfl fun j _ => ?_
  unfold k0_pay7 k0_pay8
  rw [truncf_apply, truncf_apply, shapeCast_1ab_ab_apply]

/-! ## The lane sum -/

/-- The sum along the lanes of a `[64, 1024]` block reads, at view `p`, the sum over the tile's positions. -/
theorem laneSum_apply (src : FVec Ideal S64x1024 .f32) (h : S64x1024.Reduces [1] S64) (hφ : FKind.Formats .f32)
    (hacc : (0x00000000#32 : BitVec 32) = FKind.add.neutral .f32 hφ) (p : Fin 64) :
    multiReduction (F := Ideal) .add [1] S64 src 0x00000000#32 h hφ hacc (ix1 p) = ∑ j : Fin 1024, src (ix2 p j) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

/-- the second scratch after an executed tile: what it held plus, at view `p`, the sum of the tile's weights -/
theorem pay6_apply (a1 w : BitVec 32) (r0 r1 : Vec Ideal S1x1x1024 .f32) (x2 : Vec Ideal S1x64x2 .f32)
    (acc : Vec Ideal S64x1 .f32) (p : Fin 64) :
    k0_pay6 (F := Ideal) a1 w r0 r1 x2 acc (ix2 p (0 : Fin 1))
      = acc (ix2 p (0 : Fin 1)) + ∑ j : Fin 1024, k0_pay5 (F := Ideal) a1 w r0 r1 x2 (ix2 p j) := by
  unfold k0_pay6
  rw [shapeCast_self, addf_apply]
  refine congrArg (acc (ix2 p (0 : Fin 1)) + ·) ?_
  refine (shapeCast_a_a1_apply _ _ p 0).trans ?_
  exact laneSum_apply _ _ _ _ p

/-! ## The quotient and the zero blocks -/

/-- the stored block: the first scratch over the second plus the offset, the second spread along the lanes -/
theorem pay4_apply (v12 : Vec Ideal S64x1024 .f32) (v13 : Vec Ideal S64x1 .f32) (p : Fin 64) (d : Fin 1024) :
    k0_pay4 (F := Ideal) v12 v13 (ix3 (0 : Fin 1) p d) = Ideal.div (v12 (ix2 p d)) (v13 (ix2 p (0 : Fin 1)) + Cert.Spot.eps) := by
  unfold k0_pay4
  refine (shapeCast_ab_1ab_apply _ _ 0 p d).trans ?_
  rw [divf_apply, broadcastTo_a1_ab_apply]
  rfl

/-- the block the first tile clears the first scratch with is zero everywhere -/
theorem pay1_apply (p : Fin 64) (d : Fin 1024) : k0_pay1 (F := Ideal) (ix2 p d) = 0 := by
  unfold k0_pay1
  rw [shapeCast_self]
  exact Ideal.ofBits_zero_f32

/-- and so is the one it clears the second scratch with -/
theorem pay2_apply (p : Fin 64) : k0_pay2 (F := Ideal) (ix2 p (0 : Fin 1)) = 0 := by
  unfold k0_pay2
  rw [shapeCast_self]
  exact Ideal.ofBits_zero_f32

end Cert.KernelIdeal.Val

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.KernelBlocks.lean ====
/-
  What a grid point's staged blocks and table word are, in terms of the arrays the region finds.

  Point `t` of the 16 × 4 grid is row `b = t / 4` and tile `k = t % 4`. Every block's entry `y` is the array's entry
  `index × size + y` on each axis, so with the three index maps read at `t`:
    the coordinate block (index `(b, 0, k)`, size `[1, 2, 1024]`) holds rows `r = 0, 1` of the coordinate array at row `b`
      and positions `1024 k + j`; that array is the x coordinates and the y coordinates, each given a middle axis of
      extent one, laid one after the other along it, so row 0 is the x coordinates and row 1 the y coordinates;
    the centres' block (index `(b, 0, 0)`, size `[1, 64, 2]`) is row `b` of the view centres;
    the values' block (index `(b, q, 0)`, size `[1, 1024, 1024]`) has its middle index `q` computed from the row's length
      `len` as `min k (max 0 ⌊(len − 1) / 1024⌋)`, which is `k` itself whenever the tile starts below the length
      (`1024 k < len` in the signed order): the block then holds the row's values at positions `1024 k + l`.
  The table word the body reads is the length input at row `b`; the body's tile-on test, a comparison bit widened and
  tested against zero, is `1024 k < len`; and `k · 1024 + j` as 32-bit words is position `1024 k + j`, nothing wrapping
  below 4096.

  The structural facts about a block are stated at ANY admissible contents of the length table and used at the
  contents the region reads, so that nothing here depends on what the table holds.
-/
import proofs.«415546_j62010737819899_3_alg».proof.Proof.KernelDefs
import proofs.«415546_j62010737819899_3_alg».proof.Proof.IndexMap
import proofs.«415546_j62010737819899_3_alg».proof.Proof.LibSsa
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable {F : FTy → Type} [FloatOps F]

/-! ## The grid's coordinates and the index maps, decided once over the 64 points -/

/-- Point `t` is row `t / 4`, tile `t % 4`. -/
theorem coords_facts : ∀ t : Fin grid0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The coordinate rows' block index at point `t` is `(t / 4, 0, t % 4)`. -/
theorem tr0_facts : ∀ t : Fin grid0.N, cc0_transform_0 (grid0.coords t) 0 = t.val / 4 ∧ cc0_transform_0 (grid0.coords t) 1 = 0
    ∧ cc0_transform_0 (grid0.coords t) 2 = t.val % 4 :=
  (by decide +kernel : ∀ t : Fin grid0.N, cc0_transform_0 (grid0.coords t) 0 = t.val / 4 ∧ cc0_transform_0 (grid0.coords t) 1 = 0
    ∧ cc0_transform_0 (grid0.coords t) 2 = t.val % 4)

/-- The view centres' block index at point `t` is `(t / 4, 0, 0)`. -/
theorem tr2_facts : ∀ t : Fin grid0.N, cc0_transform_2 (grid0.coords t) 0 = t.val / 4 ∧ cc0_transform_2 (grid0.coords t) 1 = 0
    ∧ cc0_transform_2 (grid0.coords t) 2 = 0 :=
  (by decide +kernel : ∀ t : Fin grid0.N, cc0_transform_2 (grid0.coords t) 0 = t.val / 4 ∧ cc0_transform_2 (grid0.coords t) 1 = 0
    ∧ cc0_transform_2 (grid0.coords t) 2 = 0)

/-- The row coordinate as a word, read back as a number, is the row. -/
theorem row_word : ∀ t : Fin grid0.N, (BitVec.ofNat 32 (grid0.coords t 0).val).toNat = t.val / 4 :=
  (by decide +kernel : ∀ t : Fin grid0.N, (BitVec.ofNat 32 (grid0.coords t 0).val).toNat = t.val / 4)

/-! ## Words -/

/-- A one-bit comparison result, widened and tested against zero, holds exactly when the comparison does. -/
theorem bit_iff (β : Bool) : Scalar.cmpi .ne (Scalar.extui (BitVec.ofBool β)) 0#32 = 1#1 ↔ β = true := by
  cases β <;> decide

/-- A tile number times 1024, as words: no overflow below 4096. -/
theorem mul_tile (k : ℕ) (hk : k < 4) : Scalar.muli (BitVec.ofNat 32 k) 1024#32 = BitVec.ofNat 32 (1024 * k) := by
  interval_cases k <;> decide

/-! ## A block read where its rectangle says, at any admissible contents of the table -/

/-- The coordinate rows' block at point `t`: entry `(0, r, j)` is the array's entry `(t / 4, r, 1024 (t % 4) + j)`. -/
theorem blk0_read (a : (pcfg0 (F := F)).Adm) (t : Fin (cfg0 a).N) (f : (((cfg0 a).win 0).blk t).view.ty.Contents (Elt F))
    (r : Fin 2) (j : Fin 1024) (ht : t.val < 64) :
    (((cfg0 a).win 0).blk t).view.read (Elt F) f (ix3 (0 : Fin 1) r j)
      = (f : FVec F S16x2x4096 .f32) (ix3 (rowOf t.val ht) r (Cert.Spot.tpos (tileOf t.val) j)) := by
  show (f : FVec F S16x2x4096 .f32) ((((cfg0 a).win 0).blk t).view.emb (ix3 (0 : Fin 1) r j)) = _
  refine congrArg (f : FVec F S16x2x4096 .f32) ?_
  have hi := tr0_facts t
  funext d
  apply Fin.ext
  match d with
  | ⟨0, _⟩ => show cc0_transform_0 (grid0.coords t) 0 * 1 + 1 * 0 = t.val / 4; rw [hi.1]; omega
  | ⟨1, _⟩ => show cc0_transform_0 (grid0.coords t) 1 * 2 + 1 * r.val = r.val; rw [hi.2.1]; omega
  | ⟨2, _⟩ => show cc0_transform_0 (grid0.coords t) 2 * 1024 + 1 * j.val = 1024 * (t.val % 4) + j.val; rw [hi.2.2]; omega

/-- The view centres' block at point `t`: entry `(0, p, e)` is the array's entry `(t / 4, p, e)`. -/
theorem blk2_read (a : (pcfg0 (F := F)).Adm) (t : Fin (cfg0 a).N) (f : (((cfg0 a).win 2).blk t).view.ty.Contents (Elt F))
    (p : Fin 64) (e : Fin 2) (ht : t.val < 64) :
    (((cfg0 a).win 2).blk t).view.read (Elt F) f (ix3 (0 : Fin 1) p e) = (f : FVec F S16x64x2 .f32) (ix3 (rowOf t.val ht) p e) := by
  show (f : FVec F S16x64x2 .f32) ((((cfg0 a).win 2).blk t).view.emb (ix3 (0 : Fin 1) p e)) = _
  refine congrArg (f : FVec F S16x64x2 .f32) ?_
  have hi := tr2_facts t
  funext d
  apply Fin.ext
  match d with
  | ⟨0, _⟩ => show cc0_transform_2 (grid0.coords t) 0 * 1 + 1 * 0 = t.val / 4; rw [hi.1]; omega
  | ⟨1, _⟩ => show cc0_transform_2 (grid0.coords t) 1 * 64 + 1 * p.val = p.val; rw [hi.2.1]; omega
  | ⟨2, _⟩ => show cc0_transform_2 (grid0.coords t) 2 * 2 + 1 * e.val = e.val; rw [hi.2.2]; omega

/-- The values' block at point `t`, when the index map's clamped block number is the tile's own: entry `(0, l, d)` is the
    array's entry `(t / 4, 1024 (t % 4) + l, d)`. -/
theorem blk1_read (a : (pcfg0 (F := F)).Adm) (t : Fin (cfg0 a).N) (f : (((cfg0 a).win 1).blk t).view.ty.Contents (Elt F))
    (l d : Fin 1024) (ht : t.val < 64)
    (hb : Cert.Spot.IndexMap.blockIdx (BitVec.ofNat 32 (grid0.coords t 1).val)
        (a.1.at 0 (Rect.unit (s := S16) ![(Scalar.indexCast (BitVec.ofNat 32 (grid0.coords t 0).val)).toNat] S1.size (k0_off1_inb (grid0.coords t))) numel1_S1)
      = BitVec.ofNat 32 (t.val % 4)) :
    (((cfg0 a).win 1).blk t).view.read (Elt F) f (ix3 (0 : Fin 1) l d)
      = (f : FVec F S16x4096x1024 .f32) (ix3 (rowOf t.val ht) (Cert.Spot.tpos (tileOf t.val) l) d) := by
  show (f : FVec F S16x4096x1024 .f32) ((((cfg0 a).win 1).blk t).view.emb (ix3 (0 : Fin 1) l d)) = _
  refine congrArg (f : FVec F S16x4096x1024 .f32) ?_
  have h0 := row_word t
  funext x
  apply Fin.ext
  match x with
  | ⟨0, _⟩ => show (BitVec.ofNat 32 (grid0.coords t 0).val).toNat * 1 + 1 * 0 = t.val / 4; rw [h0]; omega
  | ⟨1, _⟩ =>
    show (Cert.Spot.IndexMap.blockIdx (BitVec.ofNat 32 (grid0.coords t 1).val)
        (a.1.at 0 (Rect.unit (s := S16) ![(Scalar.indexCast (BitVec.ofNat 32 (grid0.coords t 0).val)).toNat] S1.size (k0_off1_inb (grid0.coords t))) numel1_S1)).toNat * 1024
      + 1 * l.val = 1024 * (t.val % 4) + l.val
    rw [hb, BitVec.toNat_ofNat]; omega
  | ⟨2, _⟩ => show 0 * 1024 + 1 * d.val = d.val; omega

/-! ## The coordinate array: the last host operations -/

section Host

variable (m : (ℓ : Loc nD τ sig) → Buf (Elt F) ℓ) (c : Dev nD)

/-- What the TensorCore's buffers hold before the last stretch of host operations. -/
abbrev Vpre : Valuation τ sig (Elt F) :=
  StableHlo.after (List.flatten [hostOps0, hostOps0_1, hostOps0_2, hostOps0_3, hostOps0_4, hostOps0_5]) (fun b => m (c, b))

/-- The fold over a list of stretches with one more stretch at its end is that stretch's fold from where the others end. -/
theorem after_flatten_snoc {Val : EltTy → Type} (L : List (List (HloOp τ sig Val))) (l : List (HloOp τ sig Val)) (F0 : Valuation τ sig Val) :
    StableHlo.after (List.flatten (L ++ [l])) F0 = StableHlo.after l (StableHlo.after (List.flatten L) F0) := by
  rw [List.flatten_append, List.flatten_cons, List.flatten_nil, List.append_nil, StableHlo.after_append]

/-- What the region finds is the last stretch's fold from there. -/
theorem V_split (b : Ref sig .tc) : V m c b = StableHlo.after hostOps0_6 (Vpre m c) (Proc.devRef .tc b) :=
  congrFun (after_flatten_snoc [hostOps0, hostOps0_1, hostOps0_2, hostOps0_3, hostOps0_4, hostOps0_5] hostOps0_6 (fun b => m (c, b))) (Proc.devRef .tc b)

/-- The last stretch writes seven buffers, one each. -/
theorem writes6 : StableHlo.WritesAre (hostOps0_6 : List (HloOp τ sig (Elt F))) [main_v30, main_v31, main_v32, main_v33, main_v34, main_v35, main_v36] :=
  .cons rfl (.cons rfl (.cons rfl (.cons rfl (.cons rfl (.cons rfl (.cons rfl .nil))))))

/-- The coordinate array is the two coordinate arrays, each given a middle axis of one row, laid one after the other along it. -/
theorem V_v36 : (V m c main_v36 : FVec F S16x2x4096 .f32)
    = concatenate S16x2x4096 1 [⟨S16x1x4096, broadcastInDim S16x1x4096 ![0, 2] bcast_S16x4096_S16x1x4096_0_2 (V m c main_v28 : FVec F S16x4096 .f32)⟩,
        ⟨S16x1x4096, broadcastInDim S16x1x4096 ![0, 2] bcast_S16x4096_S16x1x4096_0_2 (V m c main_v33 : FVec F S16x4096 .f32)⟩]
        concatenates_S16x1x4096_S16x1x4096_S16x2x4096_d1 := by
  have e36 := StableHlo.ssa_binary (writes6 (F := F)) (Vpre m c) 6 rfl (by decide) (by decide) (by decide)
  have e34 := StableHlo.ssa_unary (writes6 (F := F)) (Vpre m c) 4 rfl (by decide) (by decide)
  have e35 := StableHlo.ssa_unary (writes6 (F := F)) (Vpre m c) 5 rfl (by decide) (by decide)
  rw [V_split m c main_v36, V_split m c main_v28, V_split m c main_v33, e36, e34, e35]

end Host

/-! ## What grid point `t` reads -/

variable (m : (ℓ : Loc nD τ sig) → Buf (Elt F) ℓ) (hO : Ok m) (c : Dev nD) (t : Fin (cfgM m hO).N)

/-- The grid has 64 points. -/
theorem t_lt : t.val < 64 := lt_of_lt_of_eq t.isLt N_0

/-- The table word the body reads at point `t` is the length input at row `t / 4`: the table is the length input as
    launched (no operation before the region writes it), read at the offset the row coordinate gives. -/
theorem lenWord_tbl : lenWord c (grid0.coords t) (tbl m 0)
    = (m ((c.tc : Thread nD τ).loc main_arg1) : IVec S16 32) (ix1 (rowOf t.val (t_lt m hO t))) := by
  obtain rfl : c = 0 := Subsingleton.elim _ _
  show (V m (0 : Dev nD) main_arg1 : IVec S16 32) _ = _
  rw [V_main_arg1]
  refine congrArg (m (((0 : Dev nD).tc : Thread nD τ).loc main_arg1) : IVec S16 32) ?_
  funext d
  apply Fin.ext
  match d with
  | ⟨0, _⟩ =>
    show k0_off1 (grid0.coords t) 0 + 1 * 0 = t.val / 4
    rw [k0_off1_eq]
    show (grid0.coords t 0).val + 1 * 0 = t.val / 4
    rw [(coords_facts t).1]; omega

/-- The tile-on test at point `t` against a length word `w`: tile `t % 4` starts below `w` in the signed order. -/
theorem cond1_iff (w : BitVec 32) : cond0_1 (grid0.coords t) w ↔ (BitVec.ofNat 32 (1024 * (tileOf t.val).val)).slt w = true := by
  have h1 : (grid0.coords t 1).val = t.val % 4 := (coords_facts t).2
  show Scalar.cmpi .ne (Scalar.extui (BitVec.ofBool ((Scalar.muli (BitVec.ofNat 32 (grid0.coords t 1).val) 1024#32).slt w))) 0#32 = 1#1 ↔ _
  rw [bit_iff, h1, mul_tile _ (Nat.mod_lt _ (by decide))]
  rfl

/-- Tile `t % 4` times 1024 plus `j`, as words, is position `1024 (t % 4) + j` as a word. -/
theorem pos_word (j : Fin 1024) : tileWord (grid0.coords t) * 1024#32 + BitVec.ofNat 32 j.val = Cert.Spot.pos (Cert.Spot.tpos (tileOf t.val) j) := by
  have h1 : (grid0.coords t 1).val = t.val % 4 := (coords_facts t).2
  show BitVec.ofNat 32 (grid0.coords t 1).val * BitVec.ofNat 32 1024 + BitVec.ofNat 32 j.val = BitVec.ofNat 32 (1024 * (t.val % 4) + j.val)
  rw [h1, ← BitVec.ofNat_mul, ← BitVec.ofNat_add, Nat.mul_comm]

/-- Row 0 of the coordinate block at point `t` is the x coordinates of row `t / 4` at the tile's positions: the block
    read where its rectangle says, then the first piece of the concatenation, then the added middle axis dropped. -/
theorem crow0_iblk (j : Fin 1024) : crow 0 (iblk m hO c 0 t) (ix3 (0 : Fin 1) (0 : Fin 1) j)
    = (V m c main_v28 : FVec F S16x4096 .f32) (ix2 (rowOf t.val (t_lt m hO t)) (Cert.Spot.tpos (tileOf t.val) j)) := by
  unfold crow iblk
  refine (blk0_read (adm m hO) t (V m c main_v36) 0 j (t_lt m hO t)).trans ?_
  rw [V_v36]
  refine (concatenate_pair_apply_left (t := S16x2x4096) (s₁ := S16x1x4096) (s₂ := S16x1x4096) (1 : Fin 3) _ _ concatenates_S16x1x4096_S16x1x4096_S16x2x4096_d1
    (ix3 (rowOf t.val (t_lt m hO t)) (0 : Fin 2) (Cert.Spot.tpos (tileOf t.val) j)) rfl
    (ix3 (rowOf t.val (t_lt m hO t)) (0 : Fin 1) (Cert.Spot.tpos (tileOf t.val) j)) ?_).trans ?_
  · intro x
    match x with
    | ⟨0, _⟩ => rfl
    | ⟨1, _⟩ => rfl
    | ⟨2, _⟩ => rfl
  · exact broadcastInDim_apply ![0, 2] _ _ (ix3 (rowOf t.val (t_lt m hO t)) (0 : Fin 1) (Cert.Spot.tpos (tileOf t.val) j))
      (ix2 (rowOf t.val (t_lt m hO t)) (Cert.Spot.tpos (tileOf t.val) j)) (fun a => match a with | ⟨0, _⟩ => rfl | ⟨1, _⟩ => rfl)

/-- Row 1 of the coordinate block at point `t` is the y coordinates of row `t / 4` at the tile's positions: likewise,
    through the second piece of the concatenation (middle coordinate 1, the first piece's extent 1 less). -/
theorem crow1_iblk (j : Fin 1024) : crow 1 (iblk m hO c 0 t) (ix3 (0 : Fin 1) (0 : Fin 1) j)
    = (V m c main_v33 : FVec F S16x4096 .f32) (ix2 (rowOf t.val (t_lt m hO t)) (Cert.Spot.tpos (tileOf t.val) j)) := by
  unfold crow iblk
  refine (blk0_read (adm m hO) t (V m c main_v36) 1 j (t_lt m hO t)).trans ?_
  rw [V_v36]
  refine (concatenate_pair_apply_right (t := S16x2x4096) (s₁ := S16x1x4096) (s₂ := S16x1x4096) (1 : Fin 3) _ _ concatenates_S16x1x4096_S16x1x4096_S16x2x4096_d1
    (ix3 (rowOf t.val (t_lt m hO t)) (1 : Fin 2) (Cert.Spot.tpos (tileOf t.val) j)) rfl rfl
    (ix3 (rowOf t.val (t_lt m hO t)) (0 : Fin 1) (Cert.Spot.tpos (tileOf t.val) j)) ?_ ?_).trans ?_
  · intro x hx
    match x with
    | ⟨0, _⟩ => rfl
    | ⟨1, _⟩ => exact absurd rfl hx
    | ⟨2, _⟩ => rfl
  · rfl
  · exact broadcastInDim_apply ![0, 2] _ _ (ix3 (rowOf t.val (t_lt m hO t)) (0 : Fin 1) (Cert.Spot.tpos (tileOf t.val) j))
      (ix2 (rowOf t.val (t_lt m hO t)) (Cert.Spot.tpos (tileOf t.val) j)) (fun a => match a with | ⟨0, _⟩ => rfl | ⟨1, _⟩ => rfl)

/-- The centres' block at point `t` is row `t / 4` of the view centres, which no operation before the region writes. -/
theorem iblk2_eq (p : Fin 64) (e : Fin 2) : (iblk m hO c 2 t : Vec F S1x64x2 .f32) (ix3 (0 : Fin 1) p e)
    = (m ((c.tc : Thread nD τ).loc main_arg3) : FVec F S16x64x2 .f32) (ix3 (rowOf t.val (t_lt m hO t)) p e) := by
  unfold iblk
  refine (blk2_read (adm m hO) t (V m c main_arg3) p e (t_lt m hO t)).trans ?_
  rw [V_main_arg3]

/-- When tile `t % 4` starts below the row's length, the values' block at point `t` is the row's values at the tile's
    positions: the tile-on test in closed form, at the table word as the length input's entry, makes the index map's
    clamped block number the tile number. -/
theorem iblk1_eq (h1 : cond0_1 (grid0.coords t) (lenWord c (grid0.coords t) (tbl m 0))) (l d : Fin 1024) :
    (iblk m hO c 1 t : Vec F S1x1024x1024 .f32) (ix3 (0 : Fin 1) l d)
    = (m ((c.tc : Thread nD τ).loc main_arg0) : FVec F S16x4096x1024 .f32) (ix3 (rowOf t.val (t_lt m hO t)) (Cert.Spot.tpos (tileOf t.val) l) d) := by
  have hon : (BitVec.ofNat 32 (1024 * (t.val % 4))).slt (lenWord c (grid0.coords t) (tbl m 0)) = true := (cond1_iff m hO t _).mp h1
  have hb := Cert.Spot.IndexMap.blockIdx_eq (t.val % 4) (Nat.mod_lt _ (by decide)) _ hon
  unfold iblk
  refine (blk1_read (adm m hO) t (V m c main_arg0) l d (t_lt m hO t) ?_).trans ?_
  · obtain rfl : c = 0 := Subsingleton.elim _ _
    rw [(coords_facts t).2]
    exact hb
  · rw [V_main_arg0]

end Cert.KernelIdeal.Val

end
-- ==== Proof.KernelInvariant.lean ====
/-
  The invariant of a row's four tiles. After tile `k` of row `b` the first scratch holds, at (view p, lane d), the
  weighted sum accumulated so far and the second, at (p, 0), the accumulated sum of weights — `Spot.accNum` and
  `Spot.accDen` at `k`: the first tile starts from zero, an executed tile adds its part, a skipped tile (one that starts
  at or past the row's length) leaves both as they were. At the last tile the output block is the quotient of the first
  by the second plus the offset, and by `Spot.accNum_last` / `Spot.accDen_last` that is the weighted mean `Spot.G`.
-/
import proofs.«415546_j62010737819899_3_alg».proof.Proof.KernelPieces
import proofs.«415546_j62010737819899_3_alg».proof.Proof.KernelPayload
import proofs.«415546_j62010737819899_3_alg».proof.Proof.KernelBlocks

noncomputable section

namespace Cert.KernelIdeal.Val

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (hO : Ok m) (c : Dev nD)

/-- The values, the lengths, the centres and the two coordinate arrays, as the region finds them. -/
abbrev vpK : FVec Ideal S16x4096x1024 .f32 := m ((c.tc : Thread nD τ).loc main_arg0)
abbrev vlenK : IVec S16 32 := m ((c.tc : Thread nD τ).loc main_arg1)
abbrev cenK : FVec Ideal S16x64x2 .f32 := m ((c.tc : Thread nD τ).loc main_arg3)
abbrev xsK : FVec Ideal S16x4096 .f32 := V m c main_v28
abbrev ysK : FVec Ideal S16x4096 .f32 := V m c main_v33

/-- The weighted mean over those arrays. -/
abbrev Gk : FVec Ideal S16x64x1024 .f32 :=
  Cert.Spot.G (m ((c.tc : Thread nD τ).loc main_arg0)) (m ((c.tc : Thread nD τ).loc main_arg1)) (m ((c.tc : Thread nD τ).loc main_arg3))
    (V m c main_v28) (V m c main_v33)

/-! ## The accumulators' recursion, one step at a time -/

theorem accNum_zero (vp : FVec Ideal Cert.Spot.SV .f32) (vlen : IVec Cert.Spot.SB 32) (cen : FVec Ideal Cert.Spot.SC .f32)
    (xs ys : FVec Ideal Cert.Spot.SXY .f32) (b : Fin 16) (p : Fin 64) (d : Fin 1024) (h : 0 < 4) :
    Cert.Spot.accNum vp vlen cen xs ys b p d 0 h
      = if Cert.Spot.tileOn vlen b ⟨0, h⟩ then 0 + Cert.Spot.tileNum vp vlen cen xs ys b ⟨0, h⟩ p d else 0 := rfl

theorem accNum_succ (vp : FVec Ideal Cert.Spot.SV .f32) (vlen : IVec Cert.Spot.SB 32) (cen : FVec Ideal Cert.Spot.SC .f32)
    (xs ys : FVec Ideal Cert.Spot.SXY .f32) (b : Fin 16) (p : Fin 64) (d : Fin 1024) (k : ℕ) (h : k + 1 < 4) :
    Cert.Spot.accNum vp vlen cen xs ys b p d (k + 1) h
      = if Cert.Spot.tileOn vlen b ⟨k + 1, h⟩ then Cert.Spot.accNum vp vlen cen xs ys b p d k (Nat.lt_of_succ_lt h) + Cert.Spot.tileNum vp vlen cen xs ys b ⟨k + 1, h⟩ p d
        else Cert.Spot.accNum vp vlen cen xs ys b p d k (Nat.lt_of_succ_lt h) := rfl

theorem accDen_zero (vlen : IVec Cert.Spot.SB 32) (cen : FVec Ideal Cert.Spot.SC .f32)
    (xs ys : FVec Ideal Cert.Spot.SXY .f32) (b : Fin 16) (p : Fin 64) (h : 0 < 4) :
    Cert.Spot.accDen vlen cen xs ys b p 0 h
      = if Cert.Spot.tileOn vlen b ⟨0, h⟩ then 0 + Cert.Spot.tileDen vlen cen xs ys b ⟨0, h⟩ p else 0 := rfl

theorem accDen_succ (vlen : IVec Cert.Spot.SB 32) (cen : FVec Ideal Cert.Spot.SC .f32)
    (xs ys : FVec Ideal Cert.Spot.SXY .f32) (b : Fin 16) (p : Fin 64) (k : ℕ) (h : k + 1 < 4) :
    Cert.Spot.accDen vlen cen xs ys b p (k + 1) h
      = if Cert.Spot.tileOn vlen b ⟨k + 1, h⟩ then Cert.Spot.accDen vlen cen xs ys b p k (Nat.lt_of_succ_lt h) + Cert.Spot.tileDen vlen cen xs ys b ⟨k + 1, h⟩ p
        else Cert.Spot.accDen vlen cen xs ys b p k (Nat.lt_of_succ_lt h) := rfl

/-! ## One tile's contribution, read at an index -/

/-- The weight the body computes for position `j` of the point's tile is the specification's weight at that position. -/
theorem wgt_eq (t : Fin (cfgM m hO).N) (p : Fin 64) (j : Fin 1024) :
    k0_pay5 (F := Ideal) (tileWord (grid0.coords t)) (lenWord c (grid0.coords t) (tbl m 0))
        (crow 0 (iblk m hO c 0 t)) (crow 1 (iblk m hO c 0 t)) (iblk m hO c 2 t : Vec Ideal S1x64x2 .f32) (ix2 p j)
      = Cert.Spot.wgt (vlenK m c) (cenK m c) (xsK m c) (ysK m c) (rowOf t.val (t_lt m hO t)) p (Cert.Spot.tpos (tileOf t.val) j) := by
  refine (pay5_apply (tileWord (grid0.coords t)) (lenWord c (grid0.coords t) (tbl m 0))
    (crow 0 (iblk m hO c 0 t)) (crow 1 (iblk m hO c 0 t)) (iblk m hO c 2 t : Vec Ideal S1x64x2 .f32) p j).trans ?_
  rw [iblk2_eq m hO c t p 0, iblk2_eq m hO c t p 1, crow0_iblk m hO c t j, crow1_iblk m hO c t j, pos_word m hO t j,
    lenWord_tbl m hO c t]
  rfl

/-- The frame's condition on the length word is the specification's "the tile starts below the row's length". -/
theorem tileOn_iff (t : Fin (cfgM m hO).N) :
    cond0_1 (grid0.coords t) (lenWord c (grid0.coords t) (tbl m 0))
      ↔ Cert.Spot.tileOn (vlenK m c) (rowOf t.val (t_lt m hO t)) (tileOf t.val) := by
  rw [cond1_iff m hO t, lenWord_tbl m hO c t]
  rfl

/-- An executed tile adds the tile's part of the weighted sum to the first scratch. -/
theorem num_exec (t : Fin (cfgM m hO).N) (h1 : cond0_1 (grid0.coords t) (lenWord c (grid0.coords t) (tbl m 0)))
    (acc : Vec Ideal S64x1024 .f32) (p : Fin 64) (d : Fin 1024) :
    numStep c (grid0.coords t) (iblk m hO c 0 t) (iblk m hO c 1 t : Vec Ideal S1x1024x1024 .f32) (iblk m hO c 2 t : Vec Ideal S1x64x2 .f32) (tbl m 0) acc (ix2 p d)
      = acc (ix2 p d) + Cert.Spot.tileNum (vpK m c) (vlenK m c) (cenK m c) (xsK m c) (ysK m c) (rowOf t.val (t_lt m hO t)) (tileOf t.val) p d := by
  refine (pay3_apply (tileWord (grid0.coords t)) (lenWord c (grid0.coords t) (tbl m 0))
    (crow 0 (iblk m hO c 0 t)) (crow 1 (iblk m hO c 0 t)) (iblk m hO c 2 t : Vec Ideal S1x64x2 .f32)
    (iblk m hO c 1 t : Vec Ideal S1x1024x1024 .f32) acc p d).trans ?_
  refine congrArg (acc (ix2 p d) + ·) ?_
  unfold Cert.Spot.tileNum
  refine Finset.sum_congr rfl fun j _ => ?_
  rw [wgt_eq m hO c t p j, iblk1_eq m hO c t h1 j d]

/-- An executed tile adds the tile's part of the sum of weights to the second scratch. -/
theorem den_exec (t : Fin (cfgM m hO).N) (acc : Vec Ideal S64x1 .f32) (p : Fin 64) :
    denStep c (grid0.coords t) (iblk m hO c 0 t) (iblk m hO c 2 t : Vec Ideal S1x64x2 .f32) (tbl m 0) acc (ix2 p (0 : Fin 1))
      = acc (ix2 p (0 : Fin 1)) + Cert.Spot.tileDen (vlenK m c) (cenK m c) (xsK m c) (ysK m c) (rowOf t.val (t_lt m hO t)) (tileOf t.val) p := by
  refine (pay6_apply (tileWord (grid0.coords t)) (lenWord c (grid0.coords t) (tbl m 0))
    (crow 0 (iblk m hO c 0 t)) (crow 1 (iblk m hO c 0 t)) (iblk m hO c 2 t : Vec Ideal S1x64x2 .f32) acc p).trans ?_
  refine congrArg (acc (ix2 p (0 : Fin 1)) + ·) ?_
  unfold Cert.Spot.tileDen
  exact Finset.sum_congr rfl fun j _ => wgt_eq m hO c t p j

/-! ## The induction over the points -/

/-- The contents the frame names after a point depend on the point's number only. -/
theorem outsAt0_congr {n n' : ℕ} (e : n = n') (h : n < (cfgM m hO).N) (h' : n' < (cfgM m hO).N) :
    outsAt0 m hO c n h = outsAt0 m hO c n' h' := by
  subst e; rfl

/-- A row's first tile: the scratch buffers are reset, and an executed tile then adds its part. -/
theorem first_tile (t : Fin (cfgM m hO).N) (b : ℕ) (hb : b < 16) (e : t.val = 4 * b + 0) :
    (∀ (p : Fin 64) (d : Fin 1024), (outsAt0 m hO c t.val t.isLt).2.1 (ix2 p d) = Cert.Spot.accNum (vpK m c) (vlenK m c) (cenK m c) (xsK m c) (ysK m c) ⟨b, hb⟩ p d 0 (by decide))
    ∧ (∀ p : Fin 64, (outsAt0 m hO c t.val t.isLt).2.2 (ix2 p (0 : Fin 1)) = Cert.Spot.accDen (vlenK m c) (cenK m c) (xsK m c) (ysK m c) ⟨b, hb⟩ p 0 (by decide)) := by
  have h0 : t.val % 4 = 0 := by omega
  have h2 : ¬t.val % 4 = 3 := by omega
  have hr : rowOf t.val (t_lt m hO t) = ⟨b, hb⟩ := Fin.ext (by show t.val / 4 = b; omega)
  have hk : tileOf t.val = ⟨0, by decide⟩ := Fin.ext (by show t.val % 4 = 0; omega)
  by_cases h1 : cond0_1 (grid0.coords t) (lenWord c (grid0.coords t) (tbl m 0))
  · have hon : Cert.Spot.tileOn (vlenK m c) ⟨b, hb⟩ ⟨0, by decide⟩ := by
      have := (tileOn_iff m hO c t).mp h1
      rwa [hr, hk] at this
    rw [outsAt0_A m hO c t h0 h1 h2]
    dsimp only
    refine ⟨fun p d => ?_, fun p => ?_⟩
    · rw [accNum_zero, if_pos hon]
      refine (congrFun (sout_A_0 (F := Ideal) c (grid0.coords t) _ _ _ _ _ _ _ _ _ _ _ _ (iblk m hO c 0 t) (iblk m hO c 1 t) (iblk m hO c 2 t) (tbl m 0) _ _ h1) (ix2 p d)).trans ?_
      refine (num_exec m hO c t h1 _ p d).trans ?_
      rw [pay1_apply, hr, hk]
    · rw [accDen_zero, if_pos hon]
      refine (congrFun (sout_A_1 (F := Ideal) c (grid0.coords t) _ _ _ _ _ _ _ _ _ _ _ _ (iblk m hO c 0 t) (iblk m hO c 1 t) (iblk m hO c 2 t) (tbl m 0) _ _ h1) (ix2 p (0 : Fin 1))).trans ?_
      refine (den_exec m hO c t _ p).trans ?_
      rw [pay2_apply, hr, hk]
  · have hoff : ¬Cert.Spot.tileOn (vlenK m c) ⟨b, hb⟩ ⟨0, by decide⟩ := by
      intro h
      apply h1
      apply (tileOn_iff m hO c t).mpr
      rwa [hr, hk]
    rw [outsAt0_B m hO c t h0 h1 h2]
    dsimp only
    refine ⟨fun p d => ?_, fun p => ?_⟩
    · rw [accNum_zero, if_neg hoff]
      exact (congrFun (sout_B_0 (F := Ideal) c (grid0.coords t) _ _ _ _ _ _ _ _ _ _ _ _ (iblk m hO c 0 t) (iblk m hO c 1 t) (iblk m hO c 2 t) (tbl m 0) _ _ h1) (ix2 p d)).trans (pay1_apply p d)
    · rw [accDen_zero, if_neg hoff]
      exact (congrFun (sout_B_1 (F := Ideal) c (grid0.coords t) _ _ _ _ _ _ _ _ _ _ _ _ (iblk m hO c 0 t) (iblk m hO c 1 t) (iblk m hO c 2 t) (tbl m 0) _ _ h1) (ix2 p (0 : Fin 1))).trans (pay2_apply p)

/-- A later tile: an executed tile adds its part to what the tile before left, a skipped tile leaves it. -/
theorem later_tile (t : Fin (cfgM m hO).N) (b : ℕ) (hb : b < 16) (k : ℕ) (hk : k + 1 < 4) (e : t.val = 4 * b + (k + 1))
    (n' : ℕ) (hn' : n' < (cfgM m hO).N) (en : t.val - 1 = n')
    (ih : (∀ (p : Fin 64) (d : Fin 1024), (outsAt0 m hO c n' hn').2.1 (ix2 p d) = Cert.Spot.accNum (vpK m c) (vlenK m c) (cenK m c) (xsK m c) (ysK m c) ⟨b, hb⟩ p d k (Nat.lt_of_succ_lt hk))
      ∧ (∀ p : Fin 64, (outsAt0 m hO c n' hn').2.2 (ix2 p (0 : Fin 1)) = Cert.Spot.accDen (vlenK m c) (cenK m c) (xsK m c) (ysK m c) ⟨b, hb⟩ p k (Nat.lt_of_succ_lt hk))) :
    (∀ (p : Fin 64) (d : Fin 1024), (outsAt0 m hO c t.val t.isLt).2.1 (ix2 p d) = Cert.Spot.accNum (vpK m c) (vlenK m c) (cenK m c) (xsK m c) (ysK m c) ⟨b, hb⟩ p d (k + 1) hk)
    ∧ (∀ p : Fin 64, (outsAt0 m hO c t.val t.isLt).2.2 (ix2 p (0 : Fin 1)) = Cert.Spot.accDen (vlenK m c) (cenK m c) (xsK m c) (ysK m c) ⟨b, hb⟩ p (k + 1) hk) := by
  have h0 : ¬t.val % 4 = 0 := by omega
  have hr : rowOf t.val (t_lt m hO t) = ⟨b, hb⟩ := Fin.ext (by show t.val / 4 = b; omega)
  have hkk : tileOf t.val = ⟨k + 1, hk⟩ := Fin.ext (by show t.val % 4 = k + 1; omega)
  have hprev : outsAt0 m hO c (t.val - 1) (Nat.lt_of_le_of_lt (Nat.sub_le _ _) t.isLt) = outsAt0 m hO c n' hn' :=
    outsAt0_congr m hO c en _ _
  have hiff : cond0_1 (grid0.coords t) (lenWord c (grid0.coords t) (tbl m 0)) ↔ Cert.Spot.tileOn (vlenK m c) ⟨b, hb⟩ ⟨k + 1, hk⟩ := by
    have := tileOn_iff m hO c t
    rwa [hr, hkk] at this
  by_cases h1 : cond0_1 (grid0.coords t) (lenWord c (grid0.coords t) (tbl m 0))
  · have hon := hiff.mp h1
    have key : (∀ (p : Fin 64) (d : Fin 1024),
          numStep c (grid0.coords t) (iblk m hO c 0 t) (iblk m hO c 1 t : Vec Ideal S1x1024x1024 .f32) (iblk m hO c 2 t : Vec Ideal S1x64x2 .f32) (tbl m 0) (outsAt0 m hO c n' hn').2.1 (ix2 p d) = Cert.Spot.accNum (vpK m c) (vlenK m c) (cenK m c) (xsK m c) (ysK m c) ⟨b, hb⟩ p d (k + 1) hk)
        ∧ (∀ p : Fin 64,
          denStep c (grid0.coords t) (iblk m hO c 0 t) (iblk m hO c 2 t : Vec Ideal S1x64x2 .f32) (tbl m 0) (outsAt0 m hO c n' hn').2.2 (ix2 p (0 : Fin 1)) = Cert.Spot.accDen (vlenK m c) (cenK m c) (xsK m c) (ysK m c) ⟨b, hb⟩ p (k + 1) hk) := by
      refine ⟨fun p d => ?_, fun p => ?_⟩
      · rw [accNum_succ, if_pos hon]
        refine (num_exec m hO c t h1 _ p d).trans ?_
        rw [ih.1 p d, hr, hkk]
      · rw [accDen_succ, if_pos hon]
        refine (den_exec m hO c t _ p).trans ?_
        rw [ih.2 p, hr, hkk]
    by_cases h2 : t.val % 4 = 3
    · rw [outsAt0_E m hO c t h0 h1 h2, hprev]
      dsimp only
      refine ⟨fun p d => ?_, fun p => ?_⟩
      · exact (congrFun (sout_E_0 (F := Ideal) c (grid0.coords t) _ _ _ _ _ _ _ _ _ _ _ _ (iblk m hO c 0 t) (iblk m hO c 1 t) (iblk m hO c 2 t) (tbl m 0) (outsAt0 m hO c n' hn').2.1 (outsAt0 m hO c n' hn').2.2 _ _ h1) (ix2 p d)).trans (key.1 p d)
      · exact (congrFun (sout_E_1 (F := Ideal) c (grid0.coords t) _ _ _ _ _ _ _ _ _ _ _ _ (iblk m hO c 0 t) (iblk m hO c 1 t) (iblk m hO c 2 t) (tbl m 0) (outsAt0 m hO c n' hn').2.1 (outsAt0 m hO c n' hn').2.2 _ _ h1) (ix2 p (0 : Fin 1))).trans (key.2 p)
    · rw [outsAt0_C m hO c t h0 h1 h2, hprev]
      dsimp only
      refine ⟨fun p d => ?_, fun p => ?_⟩
      · exact (congrFun (sout_C_0 (F := Ideal) c (grid0.coords t) _ _ _ _ _ _ _ _ _ _ _ _ (iblk m hO c 0 t) (iblk m hO c 1 t) (iblk m hO c 2 t) (tbl m 0) (outsAt0 m hO c n' hn').2.1 (outsAt0 m hO c n' hn').2.2 _ _ h1) (ix2 p d)).trans (key.1 p d)
      · exact (congrFun (sout_C_1 (F := Ideal) c (grid0.coords t) _ _ _ _ _ _ _ _ _ _ _ _ (iblk m hO c 0 t) (iblk m hO c 1 t) (iblk m hO c 2 t) (tbl m 0) (outsAt0 m hO c n' hn').2.1 (outsAt0 m hO c n' hn').2.2 _ _ h1) (ix2 p (0 : Fin 1))).trans (key.2 p)
  · have hoff : ¬Cert.Spot.tileOn (vlenK m c) ⟨b, hb⟩ ⟨k + 1, hk⟩ := fun h => h1 (hiff.mpr h)
    by_cases h2 : t.val % 4 = 3
    · rw [outsAt0_F m hO c t h0 h1 h2, hprev]
      unfold sout0_F_0 sout0_F_1
      dsimp only
      refine ⟨fun p d => ?_, fun p => ?_⟩
      · rw [accNum_succ, if_neg hoff]; exact ih.1 p d
      · rw [accDen_succ, if_neg hoff]; exact ih.2 p
    · rw [outsAt0_D m hO c t h0 h1 h2, hprev]
      unfold sout0_D_0 sout0_D_1
      dsimp only
      refine ⟨fun p d => ?_, fun p => ?_⟩
      · rw [accNum_succ, if_neg hoff]; exact ih.1 p d
      · rw [accDen_succ, if_neg hoff]; exact ih.2 p

/-- The same two steps with the point given by its number, so that the induction meets them at a variable point. -/
theorem first_tile' (n : ℕ) (hn : n < (cfgM m hO).N) (b : ℕ) (hb : b < 16) (e : n = 4 * b + 0) :
    (∀ (p : Fin 64) (d : Fin 1024), (outsAt0 m hO c n hn).2.1 (ix2 p d) = Cert.Spot.accNum (vpK m c) (vlenK m c) (cenK m c) (xsK m c) (ysK m c) ⟨b, hb⟩ p d 0 (by decide))
    ∧ (∀ p : Fin 64, (outsAt0 m hO c n hn).2.2 (ix2 p (0 : Fin 1)) = Cert.Spot.accDen (vlenK m c) (cenK m c) (xsK m c) (ysK m c) ⟨b, hb⟩ p 0 (by decide)) :=
  first_tile m hO c ⟨n, hn⟩ b hb e

theorem later_tile' (n1 : ℕ) (hn1 : n1 < (cfgM m hO).N) (n : ℕ) (hn : n < (cfgM m hO).N) (e1 : n1 = n + 1)
    (b : ℕ) (hb : b < 16) (k : ℕ) (hk : k + 1 < 4) (e : n1 = 4 * b + (k + 1))
    (ih : (∀ (p : Fin 64) (d : Fin 1024), (outsAt0 m hO c n hn).2.1 (ix2 p d) = Cert.Spot.accNum (vpK m c) (vlenK m c) (cenK m c) (xsK m c) (ysK m c) ⟨b, hb⟩ p d k (Nat.lt_of_succ_lt hk))
      ∧ (∀ p : Fin 64, (outsAt0 m hO c n hn).2.2 (ix2 p (0 : Fin 1)) = Cert.Spot.accDen (vlenK m c) (cenK m c) (xsK m c) (ysK m c) ⟨b, hb⟩ p k (Nat.lt_of_succ_lt hk))) :
    (∀ (p : Fin 64) (d : Fin 1024), (outsAt0 m hO c n1 hn1).2.1 (ix2 p d) = Cert.Spot.accNum (vpK m c) (vlenK m c) (cenK m c) (xsK m c) (ysK m c) ⟨b, hb⟩ p d (k + 1) hk)
    ∧ (∀ p : Fin 64, (outsAt0 m hO c n1 hn1).2.2 (ix2 p (0 : Fin 1)) = Cert.Spot.accDen (vlenK m c) (cenK m c) (xsK m c) (ysK m c) ⟨b, hb⟩ p (k + 1) hk) :=
  later_tile m hO c ⟨n1, hn1⟩ b hb k hk e n hn (by show n1 - 1 = n; omega) ih

/-- After tile `k` of row `b` the two scratch buffers hold the accumulated sums. -/
theorem scratch_inv : ∀ (n : ℕ) (hn : n < (cfgM m hO).N) (b : ℕ) (hb : b < 16) (k : ℕ) (hk : k < 4), n = 4 * b + k →
    (∀ (p : Fin 64) (d : Fin 1024), (outsAt0 m hO c n hn).2.1 (ix2 p d) = Cert.Spot.accNum (vpK m c) (vlenK m c) (cenK m c) (xsK m c) (ysK m c) ⟨b, hb⟩ p d k hk)
    ∧ (∀ p : Fin 64, (outsAt0 m hO c n hn).2.2 (ix2 p (0 : Fin 1)) = Cert.Spot.accDen (vlenK m c) (cenK m c) (xsK m c) (ysK m c) ⟨b, hb⟩ p k hk) := by
  intro n
  induction n with
  | zero =>
    intro hn b hb k hk e
    obtain rfl : k = 0 := by omega
    exact first_tile' m hO c 0 hn b hb e
  | succ n ih =>
    intro hn b hb k hk e
    cases k with
    | zero => exact first_tile' m hO c (n + 1) hn b hb e
    | succ k =>
      exact later_tile' m hO c (n + 1) hn n (Nat.lt_of_succ_lt hn) rfl b hb k hk e
        (ih (Nat.lt_of_succ_lt hn) b hb k (Nat.lt_of_succ_lt hk) (by omega))

/-! ## The output at a row's last tile -/

/-- At a row's last tile, executed or skipped, the output block is the quotient of what the two scratch buffers then hold. -/
theorem out_eq_pay4 (t : Fin (cfgM m hO).N) (h3 : t.val % 4 = 3) :
    (outsAt0 m hO c t.val t.isLt).1 = k0_pay4 (F := Ideal) (outsAt0 m hO c t.val t.isLt).2.1 (outsAt0 m hO c t.val t.isLt).2.2 := by
  have h0 : ¬t.val % 4 = 0 := by omega
  by_cases h1 : cond0_1 (grid0.coords t) (lenWord c (grid0.coords t) (tbl m 0))
  · rw [outsAt0_E m hO c t h0 h1 h3]
    dsimp only
    refine (out_E_3 (F := Ideal) c (grid0.coords t) _ _ _ _ _ _ _ _ _ _ _ _ (iblk m hO c 0 t) (iblk m hO c 1 t) (iblk m hO c 2 t) (tbl m 0) _ _ _ _ h1).trans ?_
    rw [sout_E_0 (F := Ideal) c (grid0.coords t) _ _ _ _ _ _ _ _ _ _ _ _ (iblk m hO c 0 t) (iblk m hO c 1 t) (iblk m hO c 2 t) (tbl m 0) _ _ _ _ h1, sout_E_1 (F := Ideal) c (grid0.coords t) _ _ _ _ _ _ _ _ _ _ _ _ (iblk m hO c 0 t) (iblk m hO c 1 t) (iblk m hO c 2 t) (tbl m 0) _ _ _ _ h1]
  · rw [outsAt0_F m hO c t h0 h1 h3]
    unfold sout0_F_0 sout0_F_1
    dsimp only
    exact out_F_3 (F := Ideal) c (grid0.coords t) _ _ _ _ _ _ _ _ _ _ _ _ (iblk m hO c 0 t) (iblk m hO c 1 t) (iblk m hO c 2 t) (tbl m 0) _ _ _ _ h1

/-- At a row's last tile the output block holds the row's weighted means. -/
theorem out_final (t : Fin (cfgM m hO).N) (h3 : t.val % 4 = 3) (p : Fin 64) (d : Fin 1024) :
    (outsAt0 m hO c t.val t.isLt).1 (ix3 (0 : Fin 1) p d) = Gk m c (ix3 (rowOf t.val (t_lt m hO t)) p d) := by
  have hb : t.val / 4 < 16 := by have := t_lt m hO t; omega
  have e : t.val = 4 * (t.val / 4) + 3 := by omega
  have inv := scratch_inv m hO c t.val t.isLt (t.val / 4) hb 3 (by decide) e
  rw [out_eq_pay4 m hO c t h3]
  refine (pay4_apply _ _ p d).trans ?_
  rw [inv.1 p d, inv.2 p, Cert.Spot.accNum_last, Cert.Spot.accDen_last]
  rfl

end Cert.KernelIdeal.Val

end
-- ==== Proof.KernelFinal.lean ====
/-
  From the blocks to the array. The output is written back once per row, at the row's last tile, and the block written
  there is the row's slab of the weighted mean; the sixteen slabs cover the array, so the result array ends holding the
  weighted mean `Spot.G` of the arrays the region finds.

  The output's index map sends grid point t = 4 b + k to block (b, 0, 0) of blocks of sizes [1, 64, 1024], whatever the
  length table holds: element (0, p, d) of the block at t is element (t / 4, p, d) of the array, an array index (r, p, d)
  lies in the block of point 4 r + 3, and that point writes its block back. These facts are stated at arbitrary
  admissible contents of the table and used at the contents the region reads.
-/
import proofs.«415546_j62010737819899_3_alg».proof.Proof.KernelInvariant
import proofs.«415546_j62010737819899_3_alg».proof.Proof.KernelOk
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

namespace Final

/-! ## The output's blocks, at any admissible contents of the table -/

section blocks

variable (a : (pcfg0 (F := Ideal)).Adm)

/-- The output's index map sends point `t` to block (t / 4, 0, 0): the row's slab. -/
theorem out_index : ∀ t : Fin (cfg0 a).N, ((cfg0 a).win 3).index t = ![t.val / 4, 0, 0] :=
  (by decide +kernel : ∀ t : Fin grid0.N, cc0_transform_3 (grid0.coords t) = ![t.val / 4, 0, 0])

/-- Element (0, p, d) of the block at point `t` is element (t / 4, p, d) of the array: on each axis the block index
    times the block's size plus the coordinate inside the block. -/
theorem blk_emb (t : Fin (cfg0 a).N) (y : S1x64x1024.Idx) :
    (((cfg0 a).win 3).blk t).view.emb y = (ix3 (rowOf t.val (lt_of_lt_of_eq t.isLt N_0)) (y 1) (y 2) : S16x64x1024.Idx) := by
  funext b; apply Fin.ext
  have e := out_index a t
  have e0 : ((cfg0 a).win 3).index t (0 : Fin 3) = t.val / 4 := congrFun e (0 : Fin 3)
  have e1 : ((cfg0 a).win 3).index t (1 : Fin 3) = 0 := congrFun e (1 : Fin 3)
  have e2 : ((cfg0 a).win 3).index t (2 : Fin 3) = 0 := congrFun e (2 : Fin 3)
  match b with
  | ⟨0, _⟩ =>
    show ((cfg0 a).win 3).index t (0 : Fin 3) * 1 + 1 * (y 0).val = t.val / 4
    have : (y 0).val < 1 := (y 0).isLt
    omega
  | ⟨1, _⟩ =>
    show ((cfg0 a).win 3).index t (1 : Fin 3) * 64 + 1 * (y 1).val = (y 1).val
    omega
  | ⟨2, _⟩ =>
    show ((cfg0 a).win 3).index t (2 : Fin 3) * 1024 + 1 * (y 2).val = (y 2).val
    omega

/-- An index of the array is in point `t`'s block iff each coordinate is in the block's range on its axis. -/
theorem mem_blk (t : Fin (cfg0 a).N) (i : S16x64x1024.Idx) :
    i ∈ (((cfg0 a).win 3).blk t).view.set ↔ ∀ b : Fin 3, ((cfg0 a).win 3).index t b * S1x64x1024.size b ≤ (i b).val
      ∧ (i b).val < ((cfg0 a).win 3).index t b * S1x64x1024.size b + S1x64x1024.size b := by
  have h : (((cfg0 a).win 3).blk t).view.set = (((cfg0 a).win 3).rect t).set :=
    View.set_slice_whole main_v37 (((cfg0 a).win 3).rect t)
  exact (iff_of_eq (congrArg (fun s => i ∈ s) h)).trans Rect.mem_set_unit

/-- The sixteen slabs cover the array: index (r, p, d) is in the block of the row's last tile, point 4 r + 3, which
    is written back. -/
theorem cover (i : S16x64x1024.Idx) :
    ∃ t : Fin (cfg0 a).N, ((cfg0 a).win 3).flush t = true ∧ i ∈ (((cfg0 a).win 3).blk t).view.set := by
  have hi0 : (i 0).val < 16 := (i 0).isLt
  have hi1 : (i 1).val < 64 := (i 1).isLt
  have hi2 : (i 2).val < 1024 := (i 2).isLt
  have hN : (cfg0 a).N = 64 := N_0
  let t : Fin (cfg0 a).N := ⟨4 * (i 0).val + 3, by omega⟩
  have ht : t.val = 4 * (i 0).val + 3 := rfl
  refine ⟨t, (flush0_3 a t).mpr (by omega), ?_⟩
  rw [mem_blk]
  have e := out_index a t
  have e0 : ((cfg0 a).win 3).index t (0 : Fin 3) = t.val / 4 := congrFun e (0 : Fin 3)
  have e1 : ((cfg0 a).win 3).index t (1 : Fin 3) = 0 := congrFun e (1 : Fin 3)
  have e2 : ((cfg0 a).win 3).index t (2 : Fin 3) = 0 := congrFun e (2 : Fin 3)
  intro b
  match b with
  | ⟨0, _⟩ =>
    show ((cfg0 a).win 3).index t (0 : Fin 3) * 1 ≤ (i 0).val ∧ (i 0).val < ((cfg0 a).win 3).index t (0 : Fin 3) * 1 + 1
    omega
  | ⟨1, _⟩ =>
    show ((cfg0 a).win 3).index t (1 : Fin 3) * 64 ≤ (i 1).val ∧ (i 1).val < ((cfg0 a).win 3).index t (1 : Fin 3) * 64 + 64
    omega
  | ⟨2, _⟩ =>
    show ((cfg0 a).win 3).index t (2 : Fin 3) * 1024 ≤ (i 2).val ∧ (i 2).val < ((cfg0 a).win 3).index t (2 : Fin 3) * 1024 + 1024
    omega

/-- Contents `X` of a block that agree, element by element, with row t / 4 of an array `G` are `G` read through the
    block at point `t`: the window's blocks tile the array, so nothing of a block is cut away. -/
theorem cut_eq_read (t : Fin (cfg0 a).N) (X : Vec Ideal S1x64x1024 .f32) (G : FVec Ideal S16x64x1024 .f32)
    (h : ∀ (p : Fin 64) (d : Fin 1024), X (ix3 (0 : Fin 1) p d) = G (ix3 (rowOf t.val (lt_of_lt_of_eq t.isLt N_0)) p d)) :
    ((cfg0 a).win 3).cut (grid0.coords t) X = (((cfg0 a).win 3).blk t).view.read (Elt Ideal) G := by
  refine funext fun (y : S1x64x1024.Idx) => ?_
  show X y = G ((((cfg0 a).win 3).blk t).view.emb y)
  rw [blk_emb a t y]
  have hy : y = ix3 (0 : Fin 1) (y 1) (y 2) := by
    funext b
    match b with
    | ⟨0, _⟩ => exact Fin.ext (by have : (y 0).val < 1 := (y 0).isLt; show (y 0).val = 0; omega)
    | ⟨1, _⟩ => rfl
    | ⟨2, _⟩ => rfl
  exact (congrArg X hy).trans (h (y 1) (y 2))

end blocks

/-! ## The result array -/

variable (m : (ℓ : Loc nD τ sig) → Buf (Elt Ideal) ℓ) (hO : Ok m)

/-- What a row's last tile writes back is the row's slab of the weighted mean. -/
theorem flushed_eq (c : Dev nD) (t : Fin (cfgM m hO).N) (hf : ((cfgM m hO).win 3).flush t = true) :
    (dats m hO 0 c).flushed 3 t = (((cfgM m hO).win 3).blk t).view.read (Elt Ideal) (Gk m c) := by
  show ((cfgM m hO).win 3).cut (grid0.coords t) ((dats m hO 0 c).after 3 t) = _
  rw [after0_3]
  have h3 : t.val % 4 = 3 := (flush0_3 (adm m hO) t).mp hf
  exact cut_eq_read (adm m hO) t _ (Gk m c) fun p d => out_final m hO c t h3 p d

/-- The result array ends at the weighted mean: the written-back slabs cover it. -/
theorem arr_final (c : Dev nD) : (dats m hO 0 c).arrAt 3 (cfgM m hO).N = Gk m c :=
  (dats m hO 0 c).arrAt_eq_of_cover 3 (Gk m c) (flushed_eq m hO c) (cover (adm m hO))

end Final

variable (m : (ℓ : Loc nD τ sig) → Buf (Elt Ideal) ℓ) (ρ : Dev nD → PrngReg)

/-- The kernel's run under the side condition of the table's contents: the result array at the weighted mean, the
    four arguments unchanged (the values and the centres are staged and never written back; the two integer
    arrays are staged by no window). -/
theorem run_ok (hO : Ok m) : θ_run defs (onTc (τ := τ) (main (F := Ideal))) ⟨m, fun _ => 0, ρ⟩ fun r => ∀ c : Dev nD,
      r.2.mem ((c.tc : Thread nD τ).loc main_v37) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (Final.arr_final m hO c),
      ((h c).1 1).trans (((dats m hO 0 c).arrAt_in 1 rfl _).trans ((A_eq m hO c 1).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's run, read: the result array at the weighted mean, the four arguments unchanged. The side condition
    holds whatever the table holds: the values' block index is always a tile number. -/
theorem run : θ_run defs (onTc (τ := τ) (main (F := Ideal))) ⟨m, fun _ => 0, ρ⟩ fun r => ∀ c : Dev nD,
      r.2.mem ((c.tc : Thread nD τ).loc main_v37) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_ok m ρ (ok_any m)

end Cert.KernelIdeal.Val

end
-- ==== Proof.Coords.lean ====
/-
  The positions' coordinates. Both programs compute, on the host and by the same operations, two arrays over
  (row, position): `x = (l mod W) / W` and `y = ⌊l / W⌋ / H`, where for each row `W = max 1 (round (sqrt (len · (w / h))))`
  and `H = max 1 (ceil (len / W))` come from the row's length and the grid's height `h` and width `w`, the integer
  remainder and quotient being the floored ones (the truncated ones corrected where the signs differ). They are written
  here once, as functions of the two integer inputs, so that each program's run is read as applying them and neither
  proof looks inside them.
-/
import proofs.«415546_j62010737819899_3_alg».proof.KernelIdeal
import proofs.«415546_j62010737819899_3_alg».proof.Proof.Gen.KernelIdeal
import Idealize.ShloMosaic.PureOps.Ideal

noncomputable section

namespace Cert.Spot.Coord

open Idealize.ShloMosaic Cert.KernelIdeal Cert.KernelIdeal.Gen

/-- The effective width of each row. -/
def weff (a1 : IVec S16 32) (a2 : IVec S16x3 32) : IVec S16 32 :=
  let v0 : FVec Ideal S16 .f32 := sitofp .f32 a1
  let v1 : IVec S16x1 32 := extractStridedSlice S16x1 ![0, 1] a2 slices_S16x3_S16x1_0_1
  let v2 : IVec S16 32 := shapeCast S16 v1 shapeCasts_S16x1_S16
  let v3 : FVec Ideal S16 .f32 := sitofp .f32 v2
  let v4 : IVec S16x1 32 := extractStridedSlice S16x1 ![0, 2] a2 slices_S16x3_S16x1_0_2
  let v5 : IVec S16 32 := shapeCast S16 v4 shapeCasts_S16x1_S16
  let v6 : FVec Ideal S16 .f32 := sitofp .f32 v5
  let v7 : FVec Ideal S16 .f32 := Host.divf v6 v3
  let v8 : FVec Ideal S16 .f32 := mulf v0 v7
  let v9 : FVec Ideal S16 .f32 := Host.sqrt v8
  let v10 : FVec Ideal S16 .f32 := Host.roundeven v9
  let v11 : IVec S16 32 := fptosi 32 v10
  let c : IVec S_ 32 := constantI S_ 32 1#32
  let v12 : IVec S16 32 := broadcastInDim S16 ![] bcast_S_S16 c
  maxsi v12 v11

/-- The effective height of each row. -/
def heff (a1 : IVec S16 32) (a2 : IVec S16x3 32) : IVec S16 32 :=
  let v0 : FVec Ideal S16 .f32 := sitofp .f32 a1
  let v14 : FVec Ideal S16 .f32 := sitofp .f32 (weff a1 a2)
  let v15 : FVec Ideal S16 .f32 := Host.divf v0 v14
  let v16 : FVec Ideal S16 .f32 := Host.ceil v15
  let v17 : IVec S16 32 := fptosi 32 v16
  let c_0 : IVec S_ 32 := constantI S_ 32 1#32
  let v18 : IVec S16 32 := broadcastInDim S16 ![] bcast_S_S16 c_0
  maxsi v18 v17

/-- The positions 0 … 4095 as a row. -/
def posRow : IVec S1x4096 32 :=
  broadcastInDim S1x4096 ![1] bcast_S4096_S1x4096_1 (iotaInDim S4096 32 0)

/-- The floored remainder of each position by each row's width. -/
def remW (w : IVec S16x1 32) : IVec S16x4096 32 :=
  let rc : IVec S_ 32 := constantI S_ 32 0#32
  let r0 : IVec S16x1 32 := broadcastInDim S16x1 ![] bcast_S_S16x1 rc
  let r1 : IVec S16x1 1 := cmpi .eq w r0
  let rc_0 : IVec S_ 32 := constantI S_ 32 1#32
  let r2 : IVec S16x1 32 := broadcastInDim S16x1 ![] bcast_S_S16x1 rc_0
  let r3 : IVec S16x1 32 := select r1 r2 w
  let r4 : IVec S16x4096 32 := broadcastInDim S16x4096 ![0, 1] bcast_S1x4096_S16x4096_0_1 posRow
  let r5 : IVec S16x4096 32 := broadcastInDim S16x4096 ![0, 1] bcast_S16x1_S16x4096_0_1 r3
  let r6 : IVec S16x4096 32 := Host.remsi r4 r5
  let rc_1 : IVec S_ 32 := constantI S_ 32 0#32
  let r7 : IVec S16x4096 32 := broadcastInDim S16x4096 ![] bcast_S_S16x4096 rc_1
  let r8 : IVec S16x4096 1 := cmpi .ne r6 r7
  let rc_2 : IVec S_ 32 := constantI S_ 32 0#32
  let r9 : IVec S16x4096 32 := broadcastInDim S16x4096 ![] bcast_S_S16x4096 rc_2
  let r10 : IVec S16x4096 1 := cmpi .slt r6 r9
  let rc_3 : IVec S_ 32 := constantI S_ 32 0#32
  let r11 : IVec S16x1 32 := broadcastInDim S16x1 ![] bcast_S_S16x1 rc_3
  let r12 : IVec S16x1 1 := cmpi .slt r3 r11
  let r13 : IVec S16x4096 1 := broadcastInDim S16x4096 ![0, 1] bcast_S16x1_S16x4096_0_1 r12
  let r14 : IVec S16x4096 1 := cmpi .ne r10 r13
  let r15 : IVec S16x4096 1 := andi r14 r8
  let r16 : IVec S16x4096 32 := broadcastInDim S16x4096 ![0, 1] bcast_S16x1_S16x4096_0_1 r3
  let r17 : IVec S16x4096 32 := addi r6 r16
  select r15 r17 r6

/-- The floored quotient of each position by each row's width. -/
def quoW (w : IVec S16x1 32) : IVec S16x4096 32 :=
  let f0 : IVec S16x4096 32 := broadcastInDim S16x4096 ![0, 1] bcast_S1x4096_S16x4096_0_1 posRow
  let f1 : IVec S16x4096 32 := broadcastInDim S16x4096 ![0, 1] bcast_S16x1_S16x4096_0_1 w
  let f2 : IVec S16x4096 32 := Host.divsi f0 f1
  let f3 : IVec S1x4096 32 := signi posRow
  let f4 : IVec S16x1 32 := signi w
  let f5 : IVec S16x4096 32 := broadcastInDim S16x4096 ![0, 1] bcast_S1x4096_S16x4096_0_1 f3
  let f6 : IVec S16x4096 32 := broadcastInDim S16x4096 ![0, 1] bcast_S16x1_S16x4096_0_1 f4
  let f7 : IVec S16x4096 1 := cmpi .ne f5 f6
  let f8 : IVec S16x4096 32 := broadcastInDim S16x4096 ![0, 1] bcast_S1x4096_S16x4096_0_1 posRow
  let f9 : IVec S16x4096 32 := broadcastInDim S16x4096 ![0, 1] bcast_S16x1_S16x4096_0_1 w
  let f10 : IVec S16x4096 32 := Host.remsi f8 f9
  let fc : IVec S_ 32 := constantI S_ 32 0#32
  let f11 : IVec S16x4096 32 := broadcastInDim S16x4096 ![] bcast_S_S16x4096 fc
  let f12 : IVec S16x4096 1 := cmpi .ne f10 f11
  let f13 : IVec S16x4096 1 := andi f7 f12
  let fc_0 : IVec S_ 32 := constantI S_ 32 1#32
  let f14 : IVec S16x4096 32 := broadcastInDim S16x4096 ![] bcast_S_S16x4096 fc_0
  let f15 : IVec S16x4096 32 := subi f2 f14
  select f13 f15 f2

/-- The x coordinates: the remainder over the width. -/
def xCoord (a1 : IVec S16 32) (a2 : IVec S16x3 32) : FVec Ideal S16x4096 .f32 :=
  let v22 : IVec S16x1 32 := broadcastInDim S16x1 ![0] bcast_S16_S16x1_0 (weff a1 a2)
  let v25 : FVec Ideal S16x4096 .f32 := sitofp .f32 (remW v22)
  let v26 : FVec Ideal S16x1 .f32 := sitofp .f32 v22
  let v27 : FVec Ideal S16x4096 .f32 := broadcastInDim S16x4096 ![0, 1] bcast_S16x1_S16x4096_0_1 v26
  Host.divf v25 v27

/-- The y coordinates: the quotient over the height. -/
def yCoord (a1 : IVec S16 32) (a2 : IVec S16x3 32) : FVec Ideal S16x4096 .f32 :=
  let v22 : IVec S16x1 32 := broadcastInDim S16x1 ![0] bcast_S16_S16x1_0 (weff a1 a2)
  let v23 : IVec S16x1 32 := broadcastInDim S16x1 ![0] bcast_S16_S16x1_0 (heff a1 a2)
  let v30 : FVec Ideal S16x4096 .f32 := sitofp .f32 (quoW v22)
  let v31 : FVec Ideal S16x1 .f32 := sitofp .f32 v23
  let v32 : FVec Ideal S16x4096 .f32 := broadcastInDim S16x4096 ![0, 1] bcast_S16x1_S16x4096_0_1 v31
  Host.divf v30 v32

end Cert.Spot.Coord

end
-- ==== Proof.KernelCoords.lean ====
/-
  The two coordinate arrays the region finds are the coordinate functions of the two integer inputs: the host
  operations before the region, read back.

  The operations come in seven stretches, and the buffers the region finds are the fold over the stretches one after
  the other. The first three stretches (the two extents of every row, the row of positions, and the extents as
  columns) are read together from the launch contents. Each later stretch is read over an ARBITRARY state of the
  buffers: the floored remainder and the floored quotient as functions of the column of widths they find (given that
  the row of positions is in place), the two final divisions as functions of their operands, and beside each the
  buffers the stretch leaves as it found them. The two arrays then follow by rewriting stretch by stretch, from the
  last one back to the first, and what remains is the coordinate function itself.
-/
import proofs.«415546_j62010737819899_3_alg».proof.Proof.KernelDefs
import proofs.«415546_j62010737819899_3_alg».proof.Proof.Coords
import proofs.«415546_j62010737819899_3_alg».proof.Proof.LibSsa
import Idealize.ShloMosaic.Lib.StableHlo.Run

noncomputable section

namespace Cert.KernelIdeal.Val

open Idealize.ShloMosaic Idealize.ShloMosaic.TcCoe Idealize.ShloMosaic.ValueIdx Idealize.SL.Sem
open Idealize.ShloMosaic.StableHlo
open Cert.KernelIdeal Cert.KernelIdeal.Gen
open scoped BigOperators

section Stretches

variable (G : Valuation τ sig (Elt Ideal))

/-! ### The first three stretches, from any state: the positions and the two columns of extents -/

/-- The row of positions 0 … 4095. -/
theorem head_v21 :
    (after (hostOps0_2 (F := Ideal)) (after (hostOps0_1 (F := Ideal)) (after (hostOps0 (F := Ideal)) G))
        (Proc.devRef .tc main_v21) : IVec S1x4096 32)
      = Cert.Spot.Coord.posRow := by
  simp only [Gen.hostOps0, Gen.hostOps0_1, Gen.hostOps0_2]
  after_results_simp
  rfl

/-- The rows' widths, as a column. -/
theorem head_v22 :
    (after (hostOps0_2 (F := Ideal)) (after (hostOps0_1 (F := Ideal)) (after (hostOps0 (F := Ideal)) G))
        (Proc.devRef .tc main_v22) : IVec S16x1 32)
      = broadcastInDim S16x1 ![0] bcast_S16_S16x1_0
          (Cert.Spot.Coord.weff (G (Proc.devRef .tc main_arg1)) (G (Proc.devRef .tc main_arg2))) := by
  simp only [Gen.hostOps0, Gen.hostOps0_1, Gen.hostOps0_2]
  after_results_simp
  rfl

/-- The rows' heights, as a column. -/
theorem head_v23 :
    (after (hostOps0_2 (F := Ideal)) (after (hostOps0_1 (F := Ideal)) (after (hostOps0 (F := Ideal)) G))
        (Proc.devRef .tc main_v23) : IVec S16x1 32)
      = broadcastInDim S16x1 ![0] bcast_S16_S16x1_0
          (Cert.Spot.Coord.heff (G (Proc.devRef .tc main_arg1)) (G (Proc.devRef .tc main_arg2))) := by
  simp only [Gen.hostOps0, Gen.hostOps0_1, Gen.hostOps0_2]
  after_results_simp
  rfl

/-! ### The fourth stretch: the floored remainder -/

/-- With the row of positions in place, the stretch leaves the floored remainder by the column of widths it finds.
    Each value of the stretch is moved to its buffer's own type where it is written and back where it is read; the two
    transports of every such pair are along the same equation and cancel, which leaves the operations' term itself. -/
theorem rem_v24 (h21 : (G (Proc.devRef .tc main_v21) : IVec S1x4096 32) = Cert.Spot.Coord.posRow) :
    (after (hostOps0_3 (F := Ideal)) G (Proc.devRef .tc main_v24) : IVec S16x4096 32)
      = Cert.Spot.Coord.remW (G (Proc.devRef .tc main_v22)) := by
  simp only [Gen.hostOps0_3]
  after_results_simp
  simp only [TRef.toBuf, TRef.ofBuf, cast_cast, cast_eq]
  rw [h21]
  rfl

theorem rem_keep_v21 : after (hostOps0_3 (F := Ideal)) G (Proc.devRef .tc main_v21) = G (Proc.devRef .tc main_v21) := by
  simp only [Gen.hostOps0_3]
  after_results_simp

theorem rem_keep_v22 : after (hostOps0_3 (F := Ideal)) G (Proc.devRef .tc main_v22) = G (Proc.devRef .tc main_v22) := by
  simp only [Gen.hostOps0_3]
  after_results_simp

theorem rem_keep_v23 : after (hostOps0_3 (F := Ideal)) G (Proc.devRef .tc main_v23) = G (Proc.devRef .tc main_v23) := by
  simp only [Gen.hostOps0_3]
  after_results_simp

/-! ### The fifth stretch: the remainder over the width -/

theorem xdiv_v28 :
    (after (hostOps0_4 (F := Ideal)) G (Proc.devRef .tc main_v28) : FVec Ideal S16x4096 .f32)
      = Host.divf (sitofp .f32 (G (Proc.devRef .tc main_v24) : IVec S16x4096 32))
          (broadcastInDim S16x4096 ![0, 1] bcast_S16x1_S16x4096_0_1
            (sitofp .f32 (G (Proc.devRef .tc main_v22) : IVec S16x1 32) : FVec Ideal S16x1 .f32)) := by
  simp only [Gen.hostOps0_4]
  after_results_simp

theorem xdiv_keep_v21 : after (hostOps0_4 (F := Ideal)) G (Proc.devRef .tc main_v21) = G (Proc.devRef .tc main_v21) := by
  simp only [Gen.hostOps0_4]
  after_results_simp

theorem xdiv_keep_v22 : after (hostOps0_4 (F := Ideal)) G (Proc.devRef .tc main_v22) = G (Proc.devRef .tc main_v22) := by
  simp only [Gen.hostOps0_4]
  after_results_simp

theorem xdiv_keep_v23 : after (hostOps0_4 (F := Ideal)) G (Proc.devRef .tc main_v23) = G (Proc.devRef .tc main_v23) := by
  simp only [Gen.hostOps0_4]
  after_results_simp

/-! ### The sixth stretch: the floored quotient -/

/-- With the row of positions in place, the stretch leaves the floored quotient by the column of widths it finds. -/
theorem quo_v29 (h21 : (G (Proc.devRef .tc main_v21) : IVec S1x4096 32) = Cert.Spot.Coord.posRow) :
    (after (hostOps0_5 (F := Ideal)) G (Proc.devRef .tc main_v29) : IVec S16x4096 32)
      = Cert.Spot.Coord.quoW (G (Proc.devRef .tc main_v22)) := by
  simp only [Gen.hostOps0_5]
  after_results_simp
  simp only [TRef.toBuf, TRef.ofBuf, cast_cast, cast_eq]
  rw [h21]
  rfl

theorem quo_keep_v23 : after (hostOps0_5 (F := Ideal)) G (Proc.devRef .tc main_v23) = G (Proc.devRef .tc main_v23) := by
  simp only [Gen.hostOps0_5]
  after_results_simp

theorem quo_keep_v28 : after (hostOps0_5 (F := Ideal)) G (Proc.devRef .tc main_v28) = G (Proc.devRef .tc main_v28) := by
  simp only [Gen.hostOps0_5]
  after_results_simp

/-! ### The seventh stretch: the quotient over the height -/

theorem ydiv_v33 :
    (after (hostOps0_6 (F := Ideal)) G (Proc.devRef .tc main_v33) : FVec Ideal S16x4096 .f32)
      = Host.divf (sitofp .f32 (G (Proc.devRef .tc main_v29) : IVec S16x4096 32))
          (broadcastInDim S16x4096 ![0, 1] bcast_S16x1_S16x4096_0_1
            (sitofp .f32 (G (Proc.devRef .tc main_v23) : IVec S16x1 32) : FVec Ideal S16x1 .f32)) := by
  simp only [Gen.hostOps0_6]
  after_results_simp

theorem ydiv_keep_v28 : after (hostOps0_6 (F := Ideal)) G (Proc.devRef .tc main_v28) = G (Proc.devRef .tc main_v28) := by
  simp only [Gen.hostOps0_6]
  after_results_simp

end Stretches

variable (m : (ℓ : Loc nD τ sig) → Buf (Elt Ideal) ℓ) (c : Dev nD)

/-- What the region finds in a buffer is the fold over the seven stretches, one after the other. -/
theorem V_stretches (b : Ref sig .tc) :
    V m c b
      = after (hostOps0_6 (F := Ideal)) (after (hostOps0_5 (F := Ideal)) (after (hostOps0_4 (F := Ideal))
          (after (hostOps0_3 (F := Ideal)) (after (hostOps0_2 (F := Ideal)) (after (hostOps0_1 (F := Ideal))
            (after (hostOps0 (F := Ideal)) (fun b => m (c, b)))))))) (Proc.devRef .tc b) := by
  dsimp only [Gen.V]
  simp only [List.flatten_cons, List.flatten_nil, List.append_nil, after_append]

theorem V_xs : (V m c main_v28 : FVec Ideal S16x4096 .f32)
    = Cert.Spot.Coord.xCoord (m ((c.tc : Thread nD τ).loc main_arg1)) (m ((c.tc : Thread nD τ).loc main_arg2)) := by
  rw [V_stretches m c main_v28, ydiv_keep_v28, quo_keep_v28, xdiv_v28, rem_v24 _ (head_v21 _), rem_keep_v22, head_v22]
  rfl

theorem V_ys : (V m c main_v33 : FVec Ideal S16x4096 .f32)
    = Cert.Spot.Coord.yCoord (m ((c.tc : Thread nD τ).loc main_arg1)) (m ((c.tc : Thread nD τ).loc main_arg2)) := by
  rw [V_stretches m c main_v33, ydiv_v33,
    quo_v29 _ ((xdiv_keep_v21 _).trans ((rem_keep_v21 _).trans (head_v21 _))), quo_keep_v23,
    xdiv_keep_v22, xdiv_keep_v23, rem_keep_v22, rem_keep_v23, head_v22, head_v23]
  rfl

end Cert.KernelIdeal.Val

end
-- ==== Proof.RefTab.lean ====
/-
  The reference program's operations, as tables. Its @main is 71 statements, three of them calls of functions the module
  keeps apart (a rounding; a floored remainder, which itself calls a three-way select; a floored quotient, which calls
  another select). A call runs the callee's body on the operands, over buffers of that call's own, so the whole program
  is 111 operations, each writing one buffer that no other operation writes: the 101 of the first 60 statements (57 of
  @main's own, 1 of the rounding, 24 of the remainder, 19 of the quotient), then the 10 of the last 11 (the eleventh is
  the return). `written` names, in the same order, the buffer each operation writes.
-/
import proofs.«415546_j62010737819899_3_alg».proof.ReferenceIdeal
import proofs.«415546_j62010737819899_3_alg».proof.Proof.Gen.ReferenceIdeal
import Idealize.ShloMosaic.Lib.StableHlo.Run

noncomputable section

namespace Cert.ReferenceIdeal.Val

open Idealize.ShloMosaic Idealize.SL.Sem Cert.ReferenceIdeal Cert.ReferenceIdeal.Gen

variable {F : FTy → Type} [FloatOps F]

set_option maxHeartbeats 4000000 in
/-- The operations of @main's statements 1 … 60, in program order, each call replaced by its callee's operations over
    that call's buffers (the callee's arguments are the caller's buffers; a value the callee returns is the buffer of
    the caller's result). -/
abbrev ops0 : List (HloOp τ sig (Elt F)) :=
  [ StableHlo.unary main_arg1 main_v0 (sitofp .f32 : (⟨S16, .i32⟩ : BufTy).Contents (Elt F) → (⟨S16, .f32⟩ : BufTy).Contents (Elt F)),
    StableHlo.unary main_arg2 main_v1 ((extractStridedSlice S16x1 ![0, 1] · slices_S16x3_S16x1_0_1) : (⟨S16x3, .i32⟩ : BufTy).Contents (Elt F) → (⟨S16x1, .i32⟩ : BufTy).Contents (Elt F)),
    StableHlo.reshape main_v1 main_v2 rfl shapeCasts_S16x1_S16,
    StableHlo.unary main_v2 main_v3 (sitofp .f32 : (⟨S16, .i32⟩ : BufTy).Contents (Elt F) → (⟨S16, .f32⟩ : BufTy).Contents (Elt F)),
    StableHlo.unary main_arg2 main_v4 ((extractStridedSlice S16x1 ![0, 2] · slices_S16x3_S16x1_0_2) : (⟨S16x3, .i32⟩ : BufTy).Contents (Elt F) → (⟨S16x1, .i32⟩ : BufTy).Contents (Elt F)),
    StableHlo.reshape main_v4 main_v5 rfl shapeCasts_S16x1_S16,
    StableHlo.unary main_v5 main_v6 (sitofp .f32 : (⟨S16, .i32⟩ : BufTy).Contents (Elt F) → (⟨S16, .f32⟩ : BufTy).Contents (Elt F)),
    StableHlo.binary main_v6 main_v3 main_v7 (Host.divf : (⟨S16, .f32⟩ : BufTy).Contents (Elt F) → (⟨S16, .f32⟩ : BufTy).Contents (Elt F) → (⟨S16, .f32⟩ : BufTy).Contents (Elt F)),
    StableHlo.binary main_v0 main_v7 main_v8 (mulf : (⟨S16, .f32⟩ : BufTy).Contents (Elt F) → (⟨S16, .f32⟩ : BufTy).Contents (Elt F) → (⟨S16, .f32⟩ : BufTy).Contents (Elt F)),
    StableHlo.unary main_v8 main_v9 (Host.sqrt : (⟨S16, .f32⟩ : BufTy).Contents (Elt F) → (⟨S16, .f32⟩ : BufTy).Contents (Elt F)),
    StableHlo.TRef.unary (.of main_v9 : StableHlo.TRef sig ⟨S16, .f32⟩) main_call0.v0 Host.roundeven,
    StableHlo.unary main_v10 main_v11 (fptosi 32 : (⟨S16, .f32⟩ : BufTy).Contents (Elt F) → (⟨S16, .i32⟩ : BufTy).Contents (Elt F)),
    StableHlo.nullary main_c (constantI S_ 32 1#32),
    StableHlo.unary main_c main_v12 (broadcastInDim S16 ![] bcast_S_S16 : (⟨S_, .i32⟩ : BufTy).Contents (Elt F) → (⟨S16, .i32⟩ : BufTy).Contents (Elt F)),
    StableHlo.binary main_v12 main_v11 main_v13 (maxsi : (⟨S16, .i32⟩ : BufTy).Contents (Elt F) → (⟨S16, .i32⟩ : BufTy).Contents (Elt F) → (⟨S16, .i32⟩ : BufTy).Contents (Elt F)),
    StableHlo.unary main_v13 main_v14 (sitofp .f32 : (⟨S16, .i32⟩ : BufTy).Contents (Elt F) → (⟨S16, .f32⟩ : BufTy).Contents (Elt F)),
    StableHlo.binary main_v0 main_v14 main_v15 (Host.divf : (⟨S16, .f32⟩ : BufTy).Contents (Elt F) → (⟨S16, .f32⟩ : BufTy).Contents (Elt F) → (⟨S16, .f32⟩ : BufTy).Contents (Elt F)),
    StableHlo.unary main_v15 main_v16 (Host.ceil : (⟨S16, .f32⟩ : BufTy).Contents (Elt F) → (⟨S16, .f32⟩ : BufTy).Contents (Elt F)),
    StableHlo.unary main_v16 main_v17 (fptosi 32 : (⟨S16, .f32⟩ : BufTy).Contents (Elt F) → (⟨S16, .i32⟩ : BufTy).Contents (Elt F)),
    StableHlo.nullary main_c_0 (constantI S_ 32 1#32),
    StableHlo.unary main_c_0 main_v18 (broadcastInDim S16 ![] bcast_S_S16 : (⟨S_, .i32⟩ : BufTy).Contents (Elt F) → (⟨S16, .i32⟩ : BufTy).Contents (Elt F)),
    StableHlo.binary main_v18 main_v17 main_v19 (maxsi : (⟨S16, .i32⟩ : BufTy).Contents (Elt F) → (⟨S16, .i32⟩ : BufTy).Contents (Elt F) → (⟨S16, .i32⟩ : BufTy).Contents (Elt F)),
    StableHlo.nullary main_v20 (iotaInDim S4096 32 0),
    StableHlo.unary main_v13 main_v21 (broadcastInDim S16x1 ![0] bcast_S16_S16x1_0 : (⟨S16, .i32⟩ : BufTy).Contents (Elt F) → (⟨S16x1, .i32⟩ : BufTy).Contents (Elt F)),
    StableHlo.unary main_v19 main_v22 (broadcastInDim S16x1 ![0] bcast_S16_S16x1_0 : (⟨S16, .i32⟩ : BufTy).Contents (Elt F) → (⟨S16x1, .i32⟩ : BufTy).Contents (Elt F)),
    StableHlo.unary main_v20 main_v23 (broadcastInDim S1x4096 ![1] bcast_S4096_S1x4096_1 : (⟨S4096, .i32⟩ : BufTy).Contents (Elt F) → (⟨S1x4096, .i32⟩ : BufTy).Contents (Elt F)),
    StableHlo.TRef.nullary main_call1.c (constantI S_ 32 0#32),
    StableHlo.TRef.unary main_call1.c main_call1.v0 (broadcastInDim S16x1 ![] bcast_S_S16x1),
    StableHlo.TRef.binary (.of main_v21 : StableHlo.TRef sig ⟨S16x1, .i32⟩) main_call1.v0 main_call1.v1 (cmpi .eq),
    StableHlo.TRef.nullary main_call1.c_0 (constantI S_ 32 1#32),
    StableHlo.TRef.unary main_call1.c_0 main_call1.v2 (broadcastInDim S16x1 ![] bcast_S_S16x1),
    StableHlo.TRef.ternary main_call1.v1 main_call1.v2 (.of main_v21 : StableHlo.TRef sig ⟨S16x1, .i32⟩) main_call1.call0.v0 select,
    StableHlo.TRef.unary (.of main_v23 : StableHlo.TRef sig ⟨S1x4096, .i32⟩) main_call1.v4 (broadcastInDim S16x4096 ![0, 1] bcast_S1x4096_S16x4096_0_1),
    StableHlo.TRef.unary main_call1.call0.v0 main_call1.v5 (broadcastInDim S16x4096 ![0, 1] bcast_S16x1_S16x4096_0_1),
    StableHlo.TRef.binary main_call1.v4 main_call1.v5 main_call1.v6 Host.remsi,
    StableHlo.TRef.nullary main_call1.c_1 (constantI S_ 32 0#32),
    StableHlo.TRef.unary main_call1.c_1 main_call1.v7 (broadcastInDim S16x4096 ![] bcast_S_S16x4096),
    StableHlo.TRef.binary main_call1.v6 main_call1.v7 main_call1.v8 (cmpi .ne),
    StableHlo.TRef.nullary main_call1.c_2 (constantI S_ 32 0#32),
    StableHlo.TRef.unary main_call1.c_2 main_call1.v9 (broadcastInDim S16x4096 ![] bcast_S_S16x4096),
    StableHlo.TRef.binary main_call1.v6 main_call1.v9 main_call1.v10 (cmpi .slt),
    StableHlo.TRef.nullary main_call1.c_3 (constantI S_ 32 0#32),
    StableHlo.TRef.unary main_call1.c_3 main_call1.v11 (broadcastInDim S16x1 ![] bcast_S_S16x1),
    StableHlo.TRef.binary main_call1.call0.v0 main_call1.v11 main_call1.v12 (cmpi .slt),
    StableHlo.TRef.unary main_call1.v12 main_call1.v13 (broadcastInDim S16x4096 ![0, 1] bcast_S16x1_S16x4096_0_1),
    StableHlo.TRef.binary main_call1.v10 main_call1.v13 main_call1.v14 (cmpi .ne),
    StableHlo.TRef.binary main_call1.v14 main_call1.v8 main_call1.v15 andi,
    StableHlo.TRef.unary main_call1.call0.v0 main_call1.v16 (broadcastInDim S16x4096 ![0, 1] bcast_S16x1_S16x4096_0_1),
    StableHlo.TRef.binary main_call1.v6 main_call1.v16 main_call1.v17 addi,
    StableHlo.TRef.ternary main_call1.v15 main_call1.v17 main_call1.v6 main_call1.v18 select,
    StableHlo.unary main_v24 main_v25 (sitofp .f32 : (⟨S16x4096, .i32⟩ : BufTy).Contents (Elt F) → (⟨S16x4096, .f32⟩ : BufTy).Contents (Elt F)),
    StableHlo.unary main_v21 main_v26 (sitofp .f32 : (⟨S16x1, .i32⟩ : BufTy).Contents (Elt F) → (⟨S16x1, .f32⟩ : BufTy).Contents (Elt F)),
    StableHlo.unary main_v26 main_v27 (broadcastInDim S16x4096 ![0, 1] bcast_S16x1_S16x4096_0_1 : (⟨S16x1, .f32⟩ : BufTy).Contents (Elt F) → (⟨S16x4096, .f32⟩ : BufTy).Contents (Elt F)),
    StableHlo.binary main_v25 main_v27 main_v28 (Host.divf : (⟨S16x4096, .f32⟩ : BufTy).Contents (Elt F) → (⟨S16x4096, .f32⟩ : BufTy).Contents (Elt F) → (⟨S16x4096, .f32⟩ : BufTy).Contents (Elt F)),
    StableHlo.unary main_v20 main_v29 (broadcastInDim S1x4096 ![1] bcast_S4096_S1x4096_1 : (⟨S4096, .i32⟩ : BufTy).Contents (Elt F) → (⟨S1x4096, .i32⟩ : BufTy).Contents (Elt F)),
    StableHlo.TRef.unary (.of main_v29 : StableHlo.TRef sig ⟨S1x4096, .i32⟩) main_call2.v0 (broadcastInDim S16x4096 ![0, 1] bcast_S1x4096_S16x4096_0_1),
    StableHlo.TRef.unary (.of main_v21 : StableHlo.TRef sig ⟨S16x1, .i32⟩) main_call2.v1 (broadcastInDim S16x4096 ![0, 1] bcast_S16x1_S16x4096_0_1),
    StableHlo.TRef.binary main_call2.v0 main_call2.v1 main_call2.v2 Host.divsi,
    StableHlo.TRef.unary (.of main_v29 : StableHlo.TRef sig ⟨S1x4096, .i32⟩) main_call2.v3 signi,
    StableHlo.TRef.unary (.of main_v21 : StableHlo.TRef sig ⟨S16x1, .i32⟩) main_call2.v4 signi,
    StableHlo.TRef.unary main_call2.v3 main_call2.v5 (broadcastInDim S16x4096 ![0, 1] bcast_S1x4096_S16x4096_0_1),
    StableHlo.TRef.unary main_call2.v4 main_call2.v6 (broadcastInDim S16x4096 ![0, 1] bcast_S16x1_S16x4096_0_1),
    StableHlo.TRef.binary main_call2.v5 main_call2.v6 main_call2.v7 (cmpi .ne),
    StableHlo.TRef.unary (.of main_v29 : StableHlo.TRef sig ⟨S1x4096, .i32⟩) main_call2.v8 (broadcastInDim S16x4096 ![0, 1] bcast_S1x4096_S16x4096_0_1),
    StableHlo.TRef.unary (.of main_v21 : StableHlo.TRef sig ⟨S16x1, .i32⟩) main_call2.v9 (broadcastInDim S16x4096 ![0, 1] bcast_S16x1_S16x4096_0_1),
    StableHlo.TRef.binary main_call2.v8 main_call2.v9 main_call2.v10 Host.remsi,
    StableHlo.TRef.nullary main_call2.c (constantI S_ 32 0#32),
    StableHlo.TRef.unary main_call2.c main_call2.v11 (broadcastInDim S16x4096 ![] bcast_S_S16x4096),
    StableHlo.TRef.binary main_call2.v10 main_call2.v11 main_call2.v12 (cmpi .ne),
    StableHlo.TRef.binary main_call2.v7 main_call2.v12 main_call2.v13 andi,
    StableHlo.TRef.nullary main_call2.c_0 (constantI S_ 32 1#32),
    StableHlo.TRef.unary main_call2.c_0 main_call2.v14 (broadcastInDim S16x4096 ![] bcast_S_S16x4096),
    StableHlo.TRef.binary main_call2.v2 main_call2.v14 main_call2.v15 subi,
    StableHlo.TRef.ternary main_call2.v13 main_call2.v15 main_call2.v2 main_call2.call0.v0 select,
    StableHlo.unary main_v30 main_v31 (sitofp .f32 : (⟨S16x4096, .i32⟩ : BufTy).Contents (Elt F) → (⟨S16x4096, .f32⟩ : BufTy).Contents (Elt F)),
    StableHlo.unary main_v22 main_v32 (sitofp .f32 : (⟨S16x1, .i32⟩ : BufTy).Contents (Elt F) → (⟨S16x1, .f32⟩ : BufTy).Contents (Elt F)),
    StableHlo.unary main_v32 main_v33 (broadcastInDim S16x4096 ![0, 1] bcast_S16x1_S16x4096_0_1 : (⟨S16x1, .f32⟩ : BufTy).Contents (Elt F) → (⟨S16x4096, .f32⟩ : BufTy).Contents (Elt F)),
    StableHlo.binary main_v31 main_v33 main_v34 (Host.divf : (⟨S16x4096, .f32⟩ : BufTy).Contents (Elt F) → (⟨S16x4096, .f32⟩ : BufTy).Contents (Elt F) → (⟨S16x4096, .f32⟩ : BufTy).Contents (Elt F)),
    StableHlo.unary main_v28 main_v35 (broadcastInDim S16x4096x1 ![0, 1] bcast_S16x4096_S16x4096x1_0_1 : (⟨S16x4096, .f32⟩ : BufTy).Contents (Elt F) → (⟨S16x4096x1, .f32⟩ : BufTy).Contents (Elt F)),
    StableHlo.unary main_v34 main_v36 (broadcastInDim S16x4096x1 ![0, 1] bcast_S16x4096_S16x4096x1_0_1 : (⟨S16x4096, .f32⟩ : BufTy).Contents (Elt F) → (⟨S16x4096x1, .f32⟩ : BufTy).Contents (Elt F)),
    StableHlo.binary main_v35 main_v36 main_v37 ((fun a b => concatenate S16x4096x2 2 [⟨S16x4096x1, a⟩, ⟨S16x4096x1, b⟩] concatenates_S16x4096x1_S16x4096x1_S16x4096x2_d2) : (⟨S16x4096x1, .f32⟩ : BufTy).Contents (Elt F) → (⟨S16x4096x1, .f32⟩ : BufTy).Contents (Elt F) → (⟨S16x4096x2, .f32⟩ : BufTy).Contents (Elt F)),
    StableHlo.unary main_arg3 main_v38 (broadcastInDim S16x64x1x2 ![0, 1, 3] bcast_S16x64x2_S16x64x1x2_0_1_3 : (⟨S16x64x2, .f32⟩ : BufTy).Contents (Elt F) → (⟨S16x64x1x2, .f32⟩ : BufTy).Contents (Elt F)),
    StableHlo.unary main_v37 main_v39 (broadcastInDim S16x1x4096x2 ![0, 2, 3] bcast_S16x4096x2_S16x1x4096x2_0_2_3 : (⟨S16x4096x2, .f32⟩ : BufTy).Contents (Elt F) → (⟨S16x1x4096x2, .f32⟩ : BufTy).Contents (Elt F)),
    StableHlo.unary main_v38 main_v40 (broadcastInDim S16x64x4096x2 ![0, 1, 2, 3] bcast_S16x64x1x2_S16x64x4096x2_0_1_2_3 : (⟨S16x64x1x2, .f32⟩ : BufTy).Contents (Elt F) → (⟨S16x64x4096x2, .f32⟩ : BufTy).Contents (Elt F)),
    StableHlo.unary main_v39 main_v41 (broadcastInDim S16x64x4096x2 ![0, 1, 2, 3] bcast_S16x1x4096x2_S16x64x4096x2_0_1_2_3 : (⟨S16x1x4096x2, .f32⟩ : BufTy).Contents (Elt F) → (⟨S16x64x4096x2, .f32⟩ : BufTy).Contents (Elt F)),
    StableHlo.binary main_v40 main_v41 main_v42 (subf : (⟨S16x64x4096x2, .f32⟩ : BufTy).Contents (Elt F) → (⟨S16x64x4096x2, .f32⟩ : BufTy).Contents (Elt F) → (⟨S16x64x4096x2, .f32⟩ : BufTy).Contents (Elt F)),
    StableHlo.binary main_v42 main_v42 main_v43 (mulf : (⟨S16x64x4096x2, .f32⟩ : BufTy).Contents (Elt F) → (⟨S16x64x4096x2, .f32⟩ : BufTy).Contents (Elt F) → (⟨S16x64x4096x2, .f32⟩ : BufTy).Contents (Elt F)),
    StableHlo.nullary main_cst (constant S_ .f32 0x00000000#32),
    StableHlo.binary main_v43 main_cst main_v44 ((fun x v => Host.reduceAdd x v reducesTo_S16x64x4096x2_S16x64x4096_d3 h_S_) : (⟨S16x64x4096x2, .f32⟩ : BufTy).Contents (Elt F) → (⟨S_, .f32⟩ : BufTy).Contents (Elt F) → (⟨S16x64x4096, .f32⟩ : BufTy).Contents (Elt F)),
    StableHlo.unary main_v20 main_v45 (broadcastInDim S1x4096 ![1] bcast_S4096_S1x4096_1 : (⟨S4096, .i32⟩ : BufTy).Contents (Elt F) → (⟨S1x4096, .i32⟩ : BufTy).Contents (Elt F)),
    StableHlo.unary main_arg1 main_v46 (broadcastInDim S16x1 ![0] bcast_S16_S16x1_0 : (⟨S16, .i32⟩ : BufTy).Contents (Elt F) → (⟨S16x1, .i32⟩ : BufTy).Contents (Elt F)),
    StableHlo.unary main_v45 main_v47 (broadcastInDim S16x4096 ![0, 1] bcast_S1x4096_S16x4096_0_1 : (⟨S1x4096, .i32⟩ : BufTy).Contents (Elt F) → (⟨S16x4096, .i32⟩ : BufTy).Contents (Elt F)),
    StableHlo.unary main_v46 main_v48 (broadcastInDim S16x4096 ![0, 1] bcast_S16x1_S16x4096_0_1 : (⟨S16x1, .i32⟩ : BufTy).Contents (Elt F) → (⟨S16x4096, .i32⟩ : BufTy).Contents (Elt F)),
    StableHlo.binary main_v47 main_v48 main_v49 (cmpi .slt : (⟨S16x4096, .i32⟩ : BufTy).Contents (Elt F) → (⟨S16x4096, .i32⟩ : BufTy).Contents (Elt F) → (⟨S16x4096, .i1⟩ : BufTy).Contents (Elt F)),
    StableHlo.unary main_v49 main_v50 (uitofp .f32 : (⟨S16x4096, .i1⟩ : BufTy).Contents (Elt F) → (⟨S16x4096, .f32⟩ : BufTy).Contents (Elt F)),
    StableHlo.nullary main_cst_1 (constant S_ .f32 0xC1A00000#32),
    StableHlo.unary main_cst_1 main_v51 (broadcastInDim S16x64x4096 ![] bcast_S_S16x64x4096 : (⟨S_, .f32⟩ : BufTy).Contents (Elt F) → (⟨S16x64x4096, .f32⟩ : BufTy).Contents (Elt F)),
    StableHlo.binary main_v51 main_v44 main_v52 (mulf : (⟨S16x64x4096, .f32⟩ : BufTy).Contents (Elt F) → (⟨S16x64x4096, .f32⟩ : BufTy).Contents (Elt F) → (⟨S16x64x4096, .f32⟩ : BufTy).Contents (Elt F)),
    StableHlo.unary main_v52 main_v53 (Host.exp : (⟨S16x64x4096, .f32⟩ : BufTy).Contents (Elt F) → (⟨S16x64x4096, .f32⟩ : BufTy).Contents (Elt F)),
    StableHlo.unary main_v50 main_v54 (broadcastInDim S16x1x4096 ![0, 2] bcast_S16x4096_S16x1x4096_0_2 : (⟨S16x4096, .f32⟩ : BufTy).Contents (Elt F) → (⟨S16x1x4096, .f32⟩ : BufTy).Contents (Elt F)),
    StableHlo.unary main_v54 main_v55 (broadcastInDim S16x64x4096 ![0, 1, 2] bcast_S16x1x4096_S16x64x4096_0_1_2 : (⟨S16x1x4096, .f32⟩ : BufTy).Contents (Elt F) → (⟨S16x64x4096, .f32⟩ : BufTy).Contents (Elt F)) ]

/-- The operations of @main's statements 61 … 70 (statement 71 returns). -/
abbrev ops1 : List (HloOp τ sig (Elt F)) :=
  [ StableHlo.binary main_v53 main_v55 main_v56 (mulf : (⟨S16x64x4096, .f32⟩ : BufTy).Contents (Elt F) → (⟨S16x64x4096, .f32⟩ : BufTy).Contents (Elt F) → (⟨S16x64x4096, .f32⟩ : BufTy).Contents (Elt F)),
    StableHlo.binary main_v56 main_arg0 main_v57 ((fun l r => Host.dotGeneral dot_S16x64x4096_S16x4096x1024_S16x64x1024_2_1_1_2_0_0 none l r) : (⟨S16x64x4096, .f32⟩ : BufTy).Contents (Elt F) → (⟨S16x4096x1024, .f32⟩ : BufTy).Contents (Elt F) → (⟨S16x64x1024, .f32⟩ : BufTy).Contents (Elt F)),
    StableHlo.nullary main_cst_2 (constant S_ .f32 0x00000000#32),
    StableHlo.binary main_v56 main_cst_2 main_v58 ((fun x v => Host.reduceAdd x v reducesTo_S16x64x4096_S16x64_d2 h_S_) : (⟨S16x64x4096, .f32⟩ : BufTy).Contents (Elt F) → (⟨S_, .f32⟩ : BufTy).Contents (Elt F) → (⟨S16x64, .f32⟩ : BufTy).Contents (Elt F)),
    StableHlo.unary main_v58 main_v59 (broadcastInDim S16x64x1 ![0, 1] bcast_S16x64_S16x64x1_0_1 : (⟨S16x64, .f32⟩ : BufTy).Contents (Elt F) → (⟨S16x64x1, .f32⟩ : BufTy).Contents (Elt F)),
    StableHlo.nullary main_cst_3 (constant S_ .f32 0x358637BD#32),
    StableHlo.unary main_cst_3 main_v60 (broadcastInDim S16x64x1 ![] bcast_S_S16x64x1 : (⟨S_, .f32⟩ : BufTy).Contents (Elt F) → (⟨S16x64x1, .f32⟩ : BufTy).Contents (Elt F)),
    StableHlo.binary main_v59 main_v60 main_v61 (addf : (⟨S16x64x1, .f32⟩ : BufTy).Contents (Elt F) → (⟨S16x64x1, .f32⟩ : BufTy).Contents (Elt F) → (⟨S16x64x1, .f32⟩ : BufTy).Contents (Elt F)),
    StableHlo.unary main_v61 main_v62 (broadcastInDim S16x64x1024 ![0, 1, 2] bcast_S16x64x1_S16x64x1024_0_1_2 : (⟨S16x64x1, .f32⟩ : BufTy).Contents (Elt F) → (⟨S16x64x1024, .f32⟩ : BufTy).Contents (Elt F)),
    StableHlo.binary main_v57 main_v62 main_v63 (Host.divf : (⟨S16x64x1024, .f32⟩ : BufTy).Contents (Elt F) → (⟨S16x64x1024, .f32⟩ : BufTy).Contents (Elt F) → (⟨S16x64x1024, .f32⟩ : BufTy).Contents (Elt F)) ]

/-- The buffer each operation writes, in the operations' order (the first stretch's, then the second's): every tensor
    value of the program other than its four arguments, once. -/
abbrev written : List (Ref sig .tc) :=
  [ main_v0, main_v1, main_v2, main_v3, main_v4, main_v5, main_v6, main_v7,
    main_v8, main_v9, main_v10, main_v11, main_c, main_v12, main_v13, main_v14,
    main_v15, main_v16, main_v17, main_c_0, main_v18, main_v19, main_v20, main_v21,
    main_v22, main_v23, main_call1_c, main_call1_v0, main_call1_v1, main_call1_c_0, main_call1_v2, main_call1_v3,
    main_call1_v4, main_call1_v5, main_call1_v6, main_call1_c_1, main_call1_v7, main_call1_v8, main_call1_c_2, main_call1_v9,
    main_call1_v10, main_call1_c_3, main_call1_v11, main_call1_v12, main_call1_v13, main_call1_v14, main_call1_v15, main_call1_v16,
    main_call1_v17, main_v24, main_v25, main_v26, main_v27, main_v28, main_v29, main_call2_v0,
    main_call2_v1, main_call2_v2, main_call2_v3, main_call2_v4, main_call2_v5, main_call2_v6, main_call2_v7, main_call2_v8,
    main_call2_v9, main_call2_v10, main_call2_c, main_call2_v11, main_call2_v12, main_call2_v13, main_call2_c_0, main_call2_v14,
    main_call2_v15, main_v30, main_v31, main_v32, main_v33, main_v34, main_v35, main_v36,
    main_v37, main_v38, main_v39, main_v40, main_v41, main_v42, main_v43, main_cst,
    main_v44, main_v45, main_v46, main_v47, main_v48, main_v49, main_v50, main_cst_1,
    main_v51, main_v52, main_v53, main_v54, main_v55, main_v56, main_v57, main_cst_2,
    main_v58, main_v59, main_cst_3, main_v60, main_v61, main_v62, main_v63 ]

end Cert.ReferenceIdeal.Val

end
-- ==== Proof.RefOps.lean ====
/-
  The reference program as one straight line: the operations of its first sixty statements followed by those of its
  last eleven, 111 in all. The `k`-th operation writes the `k`-th buffer of `written` and no other, and `written` has
  no repetition, so the line is in static single assignment: what a buffer holds at the end is decided where it is
  written.
-/
import proofs.«415546_j62010737819899_3_alg».proof.Proof.RefTab
import proofs.«415546_j62010737819899_3_alg».proof.Proof.LibSsa

noncomputable section

namespace Cert.ReferenceIdeal.Val

open Idealize.ShloMosaic Idealize.SL.Sem Cert.ReferenceIdeal Cert.ReferenceIdeal.Gen

variable {F : FTy → Type} [FloatOps F]

/-- The whole program's operations, in order. -/
abbrev ops : List (HloOp τ sig (Elt F)) := ops0 ++ ops1

/-- The `k`-th operation writes the `k`-th of the buffers of `written` and nothing else: each builder's operation writes
    its result operand only, and the result operands, read off in order, are that list. -/
theorem hW : StableHlo.WritesAre (ops (F := F)) written := by
  unfold StableHlo.WritesAre
  repeat (first | exact List.Forall₂.nil | refine List.Forall₂.cons rfl ?_)

end Cert.ReferenceIdeal.Val

end
-- ==== Proof.RefRun.lean ====
/-
  The reference's run. Its @main is the straight line `ops`: unfolding the three called functions (and the two selects
  they call) at their call sites and reassociating the sequencing leaves one chain of operation steps, the chain of the
  list. The signature scopes no buffer and no semaphore, and every operation touches TensorCore buffers only and
  determines all it writes; so from any memory with zero counters every weakly fair execution of @main terminates, and
  at the end every TensorCore buffer of every device holds the fold of the operations over what the device held at the
  start.
-/
import proofs.«415546_j62010737819899_3_alg».proof.Proof.RefOps

noncomputable section

namespace Cert.ReferenceIdeal.Val

open Idealize.ShloMosaic Idealize.ShloMosaic.TcCoe Idealize.SL.Sem Cert.ReferenceIdeal Cert.ReferenceIdeal.Gen

variable {F : FTy → Type} [FloatOps F]

-- a hundred and one binds re-associated: the rewrite under the chain recurses once per statement
set_option maxRecDepth 8192 in
set_option maxHeartbeats 4000000 in
/-- Statements 1 … 60 are the first stretch of the line: the callees' bodies unfolded at the calls and the calls'
    records at their fields, both sides are one chain of operation steps once sequencing is reassociated. -/
theorem main_part0_eq (c : Dev nD) : main_part0 (F := F) c = StableHlo.seq ops0 := by
  simp only [main_part0, fn_round.body, fn_remainder.body, fn_where.body, fn_floor_divide.body, fn_where_0.body,
    StableHlo.seq, bind_assoc, pure_bind]
  rfl

/-- Statements 61 … 71 are the second stretch, the return included: unfolded and reassociated, the two sides are the
    same chain. -/
theorem main_part1_eq (c : Dev nD) : main_part1 (F := F) c = StableHlo.seq ops1 := by
  simp only [main_part1, StableHlo.seq, bind_assoc, pure_bind]

/-- @main runs the two stretches in order, which is the line of their concatenation. -/
theorem main_eq (c : Dev nD) : main (F := F) c = StableHlo.seq ops := by
  show (main_part0 (F := F) c >>= fun _ => main_part1 (F := F) c) = StableHlo.seq (ops0 ++ ops1)
  rw [StableHlo.seq_append, main_part0_eq, main_part1_eq]

/-- No TensorCore buffer is scoped: the program has tensor values only. -/
theorem scopedRefs_eq : (Finset.univ.filter fun b : Ref sig .tc => b.isScoped) = ∅ := by decide
/-- Nor is any semaphore: the signature has none. -/
theorem scopedSems_eq : (Finset.univ.filter fun sm : SemLoc sig => sm.isScoped .tc) = ∅ := by decide

/-- Every operation of the first stretch touches TensorCore references only: whichever builder made it, its buffers
    are its operands' and its result's, all TensorCore references. -/
theorem ops0_sub : (ops0 : List (HloOp τ sig (Elt F))).Forall fun op => op.bufs ⊆ StableHlo.tcRefs τ sig := by
  simp only [List.forall_cons, List.Forall, StableHlo.nullary_bufs_sub, StableHlo.unary_bufs_sub,
    StableHlo.binary_bufs_sub, StableHlo.ternary_bufs_sub, StableHlo.reshape_bufs_sub, and_self]

/-- So does every operation of the second. -/
theorem ops1_sub : (ops1 : List (HloOp τ sig (Elt F))).Forall fun op => op.bufs ⊆ StableHlo.tcRefs τ sig := by
  simp only [List.forall_cons, List.Forall, StableHlo.nullary_bufs_sub, StableHlo.unary_bufs_sub,
    StableHlo.binary_bufs_sub, and_self]

/-- Every operation of the line touches TensorCore references only. -/
theorem ops_sub : (ops : List (HloOp τ sig (Elt F))).Forall fun op => op.bufs ⊆ StableHlo.tcRefs τ sig :=
  List.forall_append.mpr ⟨ops0_sub, ops1_sub⟩

/-- Every operation of the line determines all it writes (none leaves a buffer to the machine's choice). -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => ops_fresh)

end Cert.ReferenceIdeal.Val

end
-- ==== Proof.RefTail.lean ====
/-
  The reference's last stretch as one function. After it has the coordinates `xs`, `ys`, the reference pairs them
  along a last axis of two, subtracts each pair from each view's centre, squares and adds the two differences into the
  squared distance, takes `exp (-20 · dist²)` times the validity mask `[l < len]`, contracts that weight against the
  values over the positions, sums it over the positions, adds the offset and divides. Read at an index that is the
  weighted mean `Spot.G`.

  The proof reads each operation that is not pointwise at an index built from its coordinates: a broadcast reads its
  operand at the coordinates its axes name (0 on a unit axis); the pair's entry 0 is the first piece and entry 1 the
  second; the sum over the axis of two is the sum of the two entries, and the sum over the positions a sum over
  `Fin 4096`, each from the initial value 0; the contraction with the batch row kept is, at `(b, p, d)`, the sum over the
  positions `l` of the weight at `(b, p, l)` times the value at `(b, l, d)`; the signed comparison's bit converted to a
  float is 1 or 0. The pointwise operations between them are the extended reals' own. Composed: the mask, the squared
  distance and the weight are `Spot.mask`, `Spot.dist2` and `Spot.wgt` at every index, and the quotient is `Spot.G`.
-/
import proofs.«415546_j62010737819899_3_alg».proof.ReferenceIdeal
import proofs.«415546_j62010737819899_3_alg».proof.Proof.Gen.ReferenceIdeal
import proofs.«415546_j62010737819899_3_alg».proof.Proof.Spec
import Idealize.ShloMosaic.Lib.IdealHost
import Idealize.ShloMosaic.Lib.Pipeline.Value

noncomputable section

namespace Cert.ReferenceIdeal.Val

open Idealize.ShloMosaic Idealize.ShloMosaic.ValueIdx Cert.ReferenceIdeal Cert.ReferenceIdeal.Gen
open scoped BigOperators

namespace Tail

/-! ## The broadcasts, each read at an index -/

section Broadcasts
variable {α : Type}

/-- A [16, 4096] array given a trailing unit axis. -/
theorem bc_col_apply (x : S16x4096.Idx → α) (b : Fin 16) (l : Fin 4096) (e : Fin 1) :
    broadcastInDim S16x4096x1 ![0, 1] bcast_S16x4096_S16x4096x1_0_1 x (ix3 b l e) = x (ix2 b l) :=
  broadcastInDim_apply _ _ x (ix3 b l e) (ix2 b l) fun a => by
    match a with
    | ⟨0, _⟩ => rfl
    | ⟨1, _⟩ => rfl

/-- The centres given a unit axis for the positions. -/
theorem bc_cen_apply (x : S16x64x2.Idx → α) (b : Fin 16) (p : Fin 64) (u : Fin 1) (e : Fin 2) :
    broadcastInDim S16x64x1x2 ![0, 1, 3] bcast_S16x64x2_S16x64x1x2_0_1_3 x (ix4 b p u e) = x (ix3 b p e) :=
  broadcastInDim_apply _ _ x (ix4 b p u e) (ix3 b p e) fun a => by
    match a with
    | ⟨0, _⟩ => rfl
    | ⟨1, _⟩ => rfl
    | ⟨2, _⟩ => rfl

/-- The coordinate pairs given a unit axis for the views. -/
theorem bc_xy_apply (x : S16x4096x2.Idx → α) (b : Fin 16) (u : Fin 1) (l : Fin 4096) (e : Fin 2) :
    broadcastInDim S16x1x4096x2 ![0, 2, 3] bcast_S16x4096x2_S16x1x4096x2_0_2_3 x (ix4 b u l e) = x (ix3 b l e) :=
  broadcastInDim_apply _ _ x (ix4 b u l e) (ix3 b l e) fun a => by
    match a with
    | ⟨0, _⟩ => rfl
    | ⟨1, _⟩ => rfl
    | ⟨2, _⟩ => rfl

/-- The centres repeated over the positions. -/
theorem bc_cen_full_apply (x : S16x64x1x2.Idx → α) (b : Fin 16) (p : Fin 64) (l : Fin 4096) (e : Fin 2) :
    broadcastInDim S16x64x4096x2 ![0, 1, 2, 3] bcast_S16x64x1x2_S16x64x4096x2_0_1_2_3 x (ix4 b p l e) = x (ix4 b p (0 : Fin 1) e) :=
  broadcastInDim_apply _ _ x (ix4 b p l e) (ix4 b p (0 : Fin 1) e) fun a => by
    match a with
    | ⟨0, _⟩ => rfl
    | ⟨1, _⟩ => rfl
    | ⟨2, _⟩ => rfl
    | ⟨3, _⟩ => rfl

/-- The coordinate pairs repeated over the views. -/
theorem bc_xy_full_apply (x : S16x1x4096x2.Idx → α) (b : Fin 16) (p : Fin 64) (l : Fin 4096) (e : Fin 2) :
    broadcastInDim S16x64x4096x2 ![0, 1, 2, 3] bcast_S16x1x4096x2_S16x64x4096x2_0_1_2_3 x (ix4 b p l e) = x (ix4 b (0 : Fin 1) l e) :=
  broadcastInDim_apply _ _ x (ix4 b p l e) (ix4 b (0 : Fin 1) l e) fun a => by
    match a with
    | ⟨0, _⟩ => rfl
    | ⟨1, _⟩ => rfl
    | ⟨2, _⟩ => rfl
    | ⟨3, _⟩ => rfl

/-- The positions' row given a leading unit axis. -/
theorem bc_iota_apply (x : S4096.Idx → α) (u : Fin 1) (l : Fin 4096) :
    broadcastInDim S1x4096 ![1] bcast_S4096_S1x4096_1 x (ix2 u l) = x (ix1 l) :=
  broadcastInDim_apply _ _ x (ix2 u l) (ix1 l) fun a => by
    match a with
    | ⟨0, _⟩ => rfl

/-- The lengths given a trailing unit axis. -/
theorem bc_len_apply (x : S16.Idx → α) (b : Fin 16) (u : Fin 1) :
    broadcastInDim S16x1 ![0] bcast_S16_S16x1_0 x (ix2 b u) = x (ix1 b) :=
  broadcastInDim_apply _ _ x (ix2 b u) (ix1 b) fun a => by
    match a with
    | ⟨0, _⟩ => rfl

/-- The positions' row repeated over the batch rows. -/
theorem bc_iota_full_apply (x : S1x4096.Idx → α) (b : Fin 16) (l : Fin 4096) :
    broadcastInDim S16x4096 ![0, 1] bcast_S1x4096_S16x4096_0_1 x (ix2 b l) = x (ix2 (0 : Fin 1) l) :=
  broadcastInDim_apply _ _ x (ix2 b l) (ix2 (0 : Fin 1) l) fun a => by
    match a with
    | ⟨0, _⟩ => rfl
    | ⟨1, _⟩ => rfl

/-- The lengths' column repeated over the positions. -/
theorem bc_len_full_apply (x : S16x1.Idx → α) (b : Fin 16) (l : Fin 4096) :
    broadcastInDim S16x4096 ![0, 1] bcast_S16x1_S16x4096_0_1 x (ix2 b l) = x (ix2 b (0 : Fin 1)) :=
  broadcastInDim_apply _ _ x (ix2 b l) (ix2 b (0 : Fin 1)) fun a => by
    match a with
    | ⟨0, _⟩ => rfl
    | ⟨1, _⟩ => rfl

/-- The mask given a unit axis for the views. -/
theorem bc_mask_apply (x : S16x4096.Idx → α) (b : Fin 16) (u : Fin 1) (l : Fin 4096) :
    broadcastInDim S16x1x4096 ![0, 2] bcast_S16x4096_S16x1x4096_0_2 x (ix3 b u l) = x (ix2 b l) :=
  broadcastInDim_apply _ _ x (ix3 b u l) (ix2 b l) fun a => by
    match a with
    | ⟨0, _⟩ => rfl
    | ⟨1, _⟩ => rfl

/-- The mask repeated over the views. -/
theorem bc_mask_full_apply (x : S16x1x4096.Idx → α) (b : Fin 16) (p : Fin 64) (l : Fin 4096) :
    broadcastInDim S16x64x4096 ![0, 1, 2] bcast_S16x1x4096_S16x64x4096_0_1_2 x (ix3 b p l) = x (ix3 b (0 : Fin 1) l) :=
  broadcastInDim_apply _ _ x (ix3 b p l) (ix3 b (0 : Fin 1) l) fun a => by
    match a with
    | ⟨0, _⟩ => rfl
    | ⟨1, _⟩ => rfl
    | ⟨2, _⟩ => rfl

/-- The sums of weights given a trailing unit axis. -/
theorem bc_den_apply (x : S16x64.Idx → α) (b : Fin 16) (p : Fin 64) (u : Fin 1) :
    broadcastInDim S16x64x1 ![0, 1] bcast_S16x64_S16x64x1_0_1 x (ix3 b p u) = x (ix2 b p) :=
  broadcastInDim_apply _ _ x (ix3 b p u) (ix2 b p) fun a => by
    match a with
    | ⟨0, _⟩ => rfl
    | ⟨1, _⟩ => rfl

/-- The denominators repeated over the value columns. -/
theorem bc_den_full_apply (x : S16x64x1.Idx → α) (b : Fin 16) (p : Fin 64) (d : Fin 1024) :
    broadcastInDim S16x64x1024 ![0, 1, 2] bcast_S16x64x1_S16x64x1024_0_1_2 x (ix3 b p d) = x (ix3 b p (0 : Fin 1)) :=
  broadcastInDim_apply _ _ x (ix3 b p d) (ix3 b p (0 : Fin 1)) fun a => by
    match a with
    | ⟨0, _⟩ => rfl
    | ⟨1, _⟩ => rfl
    | ⟨2, _⟩ => rfl

end Broadcasts

/-! ## The concatenation along the last axis of two -/

section Concat
variable {α : Type}

/-- Entry 0 of a pair is the first piece. -/
theorem concat_apply_zero (u v : S16x4096x1.Idx → α) (b : Fin 16) (l : Fin 4096) :
    concatenate S16x4096x2 2 [⟨S16x4096x1, u⟩, ⟨S16x4096x1, v⟩] concatenates_S16x4096x1_S16x4096x1_S16x4096x2_d2 (ix3 b l (0 : Fin 2))
      = u (ix3 b l (0 : Fin 1)) :=
  concatenate_pair_apply_left (2 : Fin 3) u v _ (ix3 b l (0 : Fin 2)) rfl (ix3 b l (0 : Fin 1)) fun a => by
    match a with
    | ⟨0, _⟩ => rfl
    | ⟨1, _⟩ => rfl
    | ⟨2, _⟩ => rfl

/-- Entry 1 of a pair is the second piece. -/
theorem concat_apply_one (u v : S16x4096x1.Idx → α) (b : Fin 16) (l : Fin 4096) :
    concatenate S16x4096x2 2 [⟨S16x4096x1, u⟩, ⟨S16x4096x1, v⟩] concatenates_S16x4096x1_S16x4096x1_S16x4096x2_d2 (ix3 b l (1 : Fin 2))
      = v (ix3 b l (0 : Fin 1)) :=
  concatenate_pair_apply_right (2 : Fin 3) u v _ (ix3 b l (1 : Fin 2)) rfl rfl (ix3 b l (0 : Fin 1))
    (fun a => by
      match a with
      | ⟨0, _⟩ => intro _; rfl
      | ⟨1, _⟩ => intro _; rfl
      | ⟨2, _⟩ => intro h; exact absurd rfl h)
    rfl

end Concat

/-! ## The two sums -/

section Sums

/-- The sum over the last axis of two is the sum of the two entries. -/
theorem reduce_pair_apply (x : FVec Ideal S16x64x4096x2 .f32) (b : Fin 16) (p : Fin 64) (l : Fin 4096) :
    Host.reduceAdd (F := Ideal) x (constant (F := Ideal) S_ .f32 0x00000000#32) reducesTo_S16x64x4096x2_S16x64x4096_d3 h_S_ (ix3 b p l)
      = x (ix4 b p l (0 : Fin 2)) + x (ix4 b p l (1 : Fin 2)) := by
  have h : S16x64x4096x2.Reduces [3] S16x64x4096 := by decide
  have e0 : h.lift (ix3 b p l) (0 : Fin 2) = ix4 b p l (0 : Fin 2) := by
    funext a; apply Fin.ext
    match a with
    | ⟨0, _⟩ => rfl
    | ⟨1, _⟩ => rfl
    | ⟨2, _⟩ => rfl
    | ⟨3, _⟩ => rfl
  have e1 : h.lift (ix3 b p l) (1 : Fin 2) = ix4 b p l (1 : Fin 2) := by
    funext a; apply Fin.ext
    match a with
    | ⟨0, _⟩ => rfl
    | ⟨1, _⟩ => rfl
    | ⟨2, _⟩ => rfl
    | ⟨3, _⟩ => rfl
  rw [hostReduceAdd_apply, Ideal.hostReduceAdd_single _ h, constant_apply, Ideal.ofBits_zero_f32, zero_add]
  show ∑ k : Fin 2, x (h.lift (ix3 b p l) k) = _
  rw [Fin.sum_univ_two, e0, e1]

/-- The sum over the positions. -/
theorem reduce_pos_apply (x : FVec Ideal S16x64x4096 .f32) (b : Fin 16) (p : Fin 64) :
    Host.reduceAdd (F := Ideal) x (constant (F := Ideal) S_ .f32 0x00000000#32) reducesTo_S16x64x4096_S16x64_d2 h_S_ (ix2 b p)
      = ∑ l : Fin 4096, x (ix3 b p l) := by
  have h : S16x64x4096.Reduces [2] S16x64 := by decide
  have e : ∀ l : Fin 4096, h.lift (ix2 b p) l = ix3 b p l := by
    intro l
    funext a; apply Fin.ext
    match a with
    | ⟨0, _⟩ => rfl
    | ⟨1, _⟩ => rfl
    | ⟨2, _⟩ => rfl
  rw [hostReduceAdd_apply, Ideal.hostReduceAdd_single _ h, constant_apply, Ideal.ofBits_zero_f32, zero_add]
  show ∑ l : Fin 4096, x (h.lift (ix2 b p) l) = _
  exact Finset.sum_congr rfl fun l _ => by rw [e l]

end Sums

/-! ## The contraction over the positions -/

section Dot

/-- The left operand's index at result index `j` and contraction index `k`, axis by axis: the batch row … -/
theorem dot_lhs_0 (j : S16x64x1024.Idx) (k : dot_S16x64x4096_S16x4096x1024_S16x64x1024_2_1_1_2_0_0.contr.Idx) :
    (dot_S16x64x4096_S16x4096x1024_S16x64x1024_2_1_1_2_0_0.lhsIdx j k 0 : ℕ) = j 0 := by
  simp [DotDims.lhsIdx, dot_S16x64x4096_S16x4096x1024_S16x64x1024_2_1_1_2_0_0]; rfl
/-- … the view … -/
theorem dot_lhs_1 (j : S16x64x1024.Idx) (k : dot_S16x64x4096_S16x4096x1024_S16x64x1024_2_1_1_2_0_0.contr.Idx) :
    (dot_S16x64x4096_S16x4096x1024_S16x64x1024_2_1_1_2_0_0.lhsIdx j k 1 : ℕ) = j 1 := by
  simp [DotDims.lhsIdx, dot_S16x64x4096_S16x4096x1024_S16x64x1024_2_1_1_2_0_0]; rfl
/-- … and the contracted position. -/
theorem dot_lhs_2 (j : S16x64x1024.Idx) (k : dot_S16x64x4096_S16x4096x1024_S16x64x1024_2_1_1_2_0_0.contr.Idx) :
    (dot_S16x64x4096_S16x4096x1024_S16x64x1024_2_1_1_2_0_0.lhsIdx j k 2 : ℕ) = k ⟨0, by decide⟩ := by
  simp [DotDims.lhsIdx, dot_S16x64x4096_S16x4096x1024_S16x64x1024_2_1_1_2_0_0]; rfl
/-- The right operand's likewise: the batch row … -/
theorem dot_rhs_0 (j : S16x64x1024.Idx) (k : dot_S16x64x4096_S16x4096x1024_S16x64x1024_2_1_1_2_0_0.contr.Idx) :
    (dot_S16x64x4096_S16x4096x1024_S16x64x1024_2_1_1_2_0_0.rhsIdx j k 0 : ℕ) = j 0 := by
  simp [DotDims.rhsIdx, dot_S16x64x4096_S16x4096x1024_S16x64x1024_2_1_1_2_0_0]; rfl
/-- … the contracted position … -/
theorem dot_rhs_1 (j : S16x64x1024.Idx) (k : dot_S16x64x4096_S16x4096x1024_S16x64x1024_2_1_1_2_0_0.contr.Idx) :
    (dot_S16x64x4096_S16x4096x1024_S16x64x1024_2_1_1_2_0_0.rhsIdx j k 1 : ℕ) = k ⟨0, by decide⟩ := by
  simp [DotDims.rhsIdx, dot_S16x64x4096_S16x4096x1024_S16x64x1024_2_1_1_2_0_0]; rfl
/-- … and the value column. -/
theorem dot_rhs_2 (j : S16x64x1024.Idx) (k : dot_S16x64x4096_S16x4096x1024_S16x64x1024_2_1_1_2_0_0.contr.Idx) :
    (dot_S16x64x4096_S16x4096x1024_S16x64x1024_2_1_1_2_0_0.rhsIdx j k 2 : ℕ) = j 2 := by
  simp [DotDims.rhsIdx, dot_S16x64x4096_S16x4096x1024_S16x64x1024_2_1_1_2_0_0]; rfl

/-- The contraction index is the position. -/
def posEquiv : dot_S16x64x4096_S16x4096x1024_S16x64x1024_2_1_1_2_0_0.contr.Idx ≃ Fin 4096 :=
  contrEquiv1 dot_S16x64x4096_S16x4096x1024_S16x64x1024_2_1_1_2_0_0 4096 rfl rfl

theorem posEquiv_symm_val (l : Fin 4096) : ((posEquiv.symm l) ⟨0, by decide⟩ : ℕ) = l.val :=
  contrEquiv1_symm_val dot_S16x64x4096_S16x4096x1024_S16x64x1024_2_1_1_2_0_0 4096 rfl rfl l

/-- The product of the weights with the values, read at an index: the sum over the positions. -/
theorem dot_apply (w : FVec Ideal S16x64x4096 .f32) (vp : FVec Ideal S16x4096x1024 .f32) (b : Fin 16) (p : Fin 64) (d : Fin 1024) :
    Host.dotGeneral (F := Ideal) dot_S16x64x4096_S16x4096x1024_S16x64x1024_2_1_1_2_0_0 none w vp (ix3 b p d)
      = ∑ l : Fin 4096, w (ix3 b p l) * vp (ix3 b l d) := by
  simp only [Host.dotGeneral]
  rw [Ideal.dotGeneral_apply, ← Equiv.sum_comp posEquiv.symm]
  refine Finset.sum_congr rfl fun l _ => ?_
  have eL : dot_S16x64x4096_S16x4096x1024_S16x64x1024_2_1_1_2_0_0.lhsIdx (ix3 b p d) (posEquiv.symm l) = ix3 b p l := by
    funext a; apply Fin.ext
    match a with
    | ⟨0, _⟩ => exact dot_lhs_0 _ _
    | ⟨1, _⟩ => exact dot_lhs_1 _ _
    | ⟨2, _⟩ => exact (dot_lhs_2 _ _).trans (posEquiv_symm_val l)
  have eR : dot_S16x64x4096_S16x4096x1024_S16x64x1024_2_1_1_2_0_0.rhsIdx (ix3 b p d) (posEquiv.symm l) = ix3 b l d := by
    funext a; apply Fin.ext
    match a with
    | ⟨0, _⟩ => exact dot_rhs_0 _ _
    | ⟨1, _⟩ => exact (dot_rhs_1 _ _).trans (posEquiv_symm_val l)
    | ⟨2, _⟩ => exact dot_rhs_2 _ _
  rw [eL, eR]

end Dot

/-! ## The mask -/

section Mask

/-- The signed comparison's bit, converted, is 1 or 0. -/
theorem mask_word (x y : BitVec 32) :
    (FloatOps.uitofp (F := Ideal) .f32 (IntOp.cmpi .slt x y) : EReal) = if x.slt y = true then 1 else 0 := by
  show (((BitVec.ofBool (x.slt y)).toNat : ℝ) : EReal) = _
  cases x.slt y <;> simp

/-- The converted comparison of two word arrays, read at an index. -/
theorem uitofp_cmpi_slt_apply {s : Shape} (x y : IVec s 32) (i : s.Idx) :
    (uitofp (F := Ideal) .f32 (cmpi .slt x y)) i = if (x i).slt (y i) = true then 1 else 0 :=
  mask_word (x i) (y i)

/-- The validity mask as the reference computes it: position below length, converted. -/
def maskVec (vlen : IVec S16 32) : FVec Ideal S16x4096 .f32 :=
  uitofp .f32 (cmpi .slt
    (broadcastInDim S16x4096 ![0, 1] bcast_S1x4096_S16x4096_0_1 (broadcastInDim S1x4096 ![1] bcast_S4096_S1x4096_1 (iotaInDim S4096 32 0)))
    (broadcastInDim S16x4096 ![0, 1] bcast_S16x1_S16x4096_0_1 (broadcastInDim S16x1 ![0] bcast_S16_S16x1_0 vlen)))

theorem maskVec_apply (vlen : IVec S16 32) (b : Fin 16) (l : Fin 4096) :
    maskVec vlen (ix2 b l) = Cert.Spot.mask vlen b l := by
  unfold maskVec
  rw [uitofp_cmpi_slt_apply, bc_iota_full_apply, bc_iota_apply, bc_len_full_apply, bc_len_apply]
  rfl

end Mask

/-! ## The squared distance -/

section Dist

/-- The coordinates paired along a last axis of two. -/
def pairs (xs ys : FVec Ideal S16x4096 .f32) : FVec Ideal S16x4096x2 .f32 :=
  concatenate S16x4096x2 2
    [⟨S16x4096x1, broadcastInDim S16x4096x1 ![0, 1] bcast_S16x4096_S16x4096x1_0_1 xs⟩,
     ⟨S16x4096x1, broadcastInDim S16x4096x1 ![0, 1] bcast_S16x4096_S16x4096x1_0_1 ys⟩]
    concatenates_S16x4096x1_S16x4096x1_S16x4096x2_d2

theorem pairs_apply_zero (xs ys : FVec Ideal S16x4096 .f32) (b : Fin 16) (l : Fin 4096) :
    pairs xs ys (ix3 b l (0 : Fin 2)) = xs (ix2 b l) := by
  unfold pairs
  rw [concat_apply_zero, bc_col_apply]

theorem pairs_apply_one (xs ys : FVec Ideal S16x4096 .f32) (b : Fin 16) (l : Fin 4096) :
    pairs xs ys (ix3 b l (1 : Fin 2)) = ys (ix2 b l) := by
  unfold pairs
  rw [concat_apply_one, bc_col_apply]

/-- Centre minus coordinate, for every view, position and entry of the pair. -/
def diffs (cen : FVec Ideal S16x64x2 .f32) (xs ys : FVec Ideal S16x4096 .f32) : FVec Ideal S16x64x4096x2 .f32 :=
  subf
    (broadcastInDim S16x64x4096x2 ![0, 1, 2, 3] bcast_S16x64x1x2_S16x64x4096x2_0_1_2_3
      (broadcastInDim S16x64x1x2 ![0, 1, 3] bcast_S16x64x2_S16x64x1x2_0_1_3 cen))
    (broadcastInDim S16x64x4096x2 ![0, 1, 2, 3] bcast_S16x1x4096x2_S16x64x4096x2_0_1_2_3
      (broadcastInDim S16x1x4096x2 ![0, 2, 3] bcast_S16x4096x2_S16x1x4096x2_0_2_3 (pairs xs ys)))

theorem diffs_apply (cen : FVec Ideal S16x64x2 .f32) (xs ys : FVec Ideal S16x4096 .f32)
    (b : Fin 16) (p : Fin 64) (l : Fin 4096) (e : Fin 2) :
    diffs cen xs ys (ix4 b p l e) = cen (ix3 b p e) - pairs xs ys (ix3 b l e) := by
  unfold diffs
  rw [subf_apply, bc_cen_full_apply, bc_cen_apply, bc_xy_full_apply, bc_xy_apply]

/-- The squares of the differences summed over the pair. -/
def sqDist (cen : FVec Ideal S16x64x2 .f32) (xs ys : FVec Ideal S16x4096 .f32) : FVec Ideal S16x64x4096 .f32 :=
  Host.reduceAdd (mulf (diffs cen xs ys) (diffs cen xs ys)) (constant (F := Ideal) S_ .f32 0x00000000#32)
    reducesTo_S16x64x4096x2_S16x64x4096_d3 h_S_

theorem sqDist_apply (cen : FVec Ideal S16x64x2 .f32) (xs ys : FVec Ideal S16x4096 .f32)
    (b : Fin 16) (p : Fin 64) (l : Fin 4096) :
    sqDist cen xs ys (ix3 b p l) = Cert.Spot.dist2 cen xs ys b p l := by
  unfold sqDist
  rw [reduce_pair_apply, mulf_apply, mulf_apply, diffs_apply, diffs_apply, pairs_apply_zero, pairs_apply_one]
  rfl

end Dist

/-! ## The weights -/

section Weights

/-- The host's exponential at an index. -/
theorem hostExp_apply {s : Shape} {φ : FTy} (v : FVec Ideal s φ) (i : s.Idx) : Host.exp v i = Ideal.exp (v i) := rfl

/-- The weights as the reference computes them. -/
def weights (vlen : IVec S16 32) (cen : FVec Ideal S16x64x2 .f32) (xs ys : FVec Ideal S16x4096 .f32) :
    FVec Ideal S16x64x4096 .f32 :=
  mulf
    (Host.exp (mulf (broadcastInDim S16x64x4096 ![] bcast_S_S16x64x4096 (constant (F := Ideal) S_ .f32 0xC1A00000#32)) (sqDist cen xs ys)))
    (broadcastInDim S16x64x4096 ![0, 1, 2] bcast_S16x1x4096_S16x64x4096_0_1_2
      (broadcastInDim S16x1x4096 ![0, 2] bcast_S16x4096_S16x1x4096_0_2 (maskVec vlen)))

theorem weights_apply (vlen : IVec S16 32) (cen : FVec Ideal S16x64x2 .f32) (xs ys : FVec Ideal S16x4096 .f32)
    (b : Fin 16) (p : Fin 64) (l : Fin 4096) :
    weights vlen cen xs ys (ix3 b p l) = Cert.Spot.wgt vlen cen xs ys b p l := by
  unfold weights
  rw [mulf_apply, hostExp_apply, mulf_apply, broadcastInDim_scalar_apply, constant_apply, sqDist_apply,
    bc_mask_full_apply, bc_mask_apply, maskVec_apply]
  rfl

end Weights

end Tail

open Tail

/-! ## The whole stretch -/

/-- The reference's operations from the coordinates on, composed. -/
def refTail (vp : FVec Ideal S16x4096x1024 .f32) (vlen : IVec S16 32) (cen : FVec Ideal S16x64x2 .f32)
    (xs ys : FVec Ideal S16x4096 .f32) : FVec Ideal S16x64x1024 .f32 :=
  let v35 : FVec Ideal S16x4096x1 .f32 := broadcastInDim S16x4096x1 ![0, 1] bcast_S16x4096_S16x4096x1_0_1 xs
  let v36 : FVec Ideal S16x4096x1 .f32 := broadcastInDim S16x4096x1 ![0, 1] bcast_S16x4096_S16x4096x1_0_1 ys
  let v37 : FVec Ideal S16x4096x2 .f32 := concatenate S16x4096x2 2 [⟨S16x4096x1, v35⟩, ⟨S16x4096x1, v36⟩] concatenates_S16x4096x1_S16x4096x1_S16x4096x2_d2
  let v38 : FVec Ideal S16x64x1x2 .f32 := broadcastInDim S16x64x1x2 ![0, 1, 3] bcast_S16x64x2_S16x64x1x2_0_1_3 cen
  let v39 : FVec Ideal S16x1x4096x2 .f32 := broadcastInDim S16x1x4096x2 ![0, 2, 3] bcast_S16x4096x2_S16x1x4096x2_0_2_3 v37
  let v40 : FVec Ideal S16x64x4096x2 .f32 := broadcastInDim S16x64x4096x2 ![0, 1, 2, 3] bcast_S16x64x1x2_S16x64x4096x2_0_1_2_3 v38
  let v41 : FVec Ideal S16x64x4096x2 .f32 := broadcastInDim S16x64x4096x2 ![0, 1, 2, 3] bcast_S16x1x4096x2_S16x64x4096x2_0_1_2_3 v39
  let v42 : FVec Ideal S16x64x4096x2 .f32 := subf v40 v41
  let v43 : FVec Ideal S16x64x4096x2 .f32 := mulf v42 v42
  let cst : FVec Ideal S_ .f32 := constant S_ .f32 0x00000000#32
  let v44 : FVec Ideal S16x64x4096 .f32 := Host.reduceAdd v43 cst reducesTo_S16x64x4096x2_S16x64x4096_d3 h_S_
  let v45 : IVec S1x4096 32 := broadcastInDim S1x4096 ![1] bcast_S4096_S1x4096_1 (iotaInDim S4096 32 0)
  let v46 : IVec S16x1 32 := broadcastInDim S16x1 ![0] bcast_S16_S16x1_0 vlen
  let v47 : IVec S16x4096 32 := broadcastInDim S16x4096 ![0, 1] bcast_S1x4096_S16x4096_0_1 v45
  let v48 : IVec S16x4096 32 := broadcastInDim S16x4096 ![0, 1] bcast_S16x1_S16x4096_0_1 v46
  let v49 : IVec S16x4096 1 := cmpi .slt v47 v48
  let v50 : FVec Ideal S16x4096 .f32 := uitofp .f32 v49
  let cst_1 : FVec Ideal S_ .f32 := constant S_ .f32 0xC1A00000#32
  let v51 : FVec Ideal S16x64x4096 .f32 := broadcastInDim S16x64x4096 ![] bcast_S_S16x64x4096 cst_1
  let v52 : FVec Ideal S16x64x4096 .f32 := mulf v51 v44
  let v53 : FVec Ideal S16x64x4096 .f32 := Host.exp v52
  let v54 : FVec Ideal S16x1x4096 .f32 := broadcastInDim S16x1x4096 ![0, 2] bcast_S16x4096_S16x1x4096_0_2 v50
  let v55 : FVec Ideal S16x64x4096 .f32 := broadcastInDim S16x64x4096 ![0, 1, 2] bcast_S16x1x4096_S16x64x4096_0_1_2 v54
  let v56 : FVec Ideal S16x64x4096 .f32 := mulf v53 v55
  let v57 : FVec Ideal S16x64x1024 .f32 := Host.dotGeneral dot_S16x64x4096_S16x4096x1024_S16x64x1024_2_1_1_2_0_0 none v56 vp
  let cst_2 : FVec Ideal S_ .f32 := constant S_ .f32 0x00000000#32
  let v58 : FVec Ideal S16x64 .f32 := Host.reduceAdd v56 cst_2 reducesTo_S16x64x4096_S16x64_d2 h_S_
  let v59 : FVec Ideal S16x64x1 .f32 := broadcastInDim S16x64x1 ![0, 1] bcast_S16x64_S16x64x1_0_1 v58
  let cst_3 : FVec Ideal S_ .f32 := constant S_ .f32 0x358637BD#32
  let v60 : FVec Ideal S16x64x1 .f32 := broadcastInDim S16x64x1 ![] bcast_S_S16x64x1 cst_3
  let v61 : FVec Ideal S16x64x1 .f32 := addf v59 v60
  let v62 : FVec Ideal S16x64x1024 .f32 := broadcastInDim S16x64x1024 ![0, 1, 2] bcast_S16x64x1_S16x64x1024_0_1_2 v61
  Host.divf v57 v62

/-- The stretch in terms of the weights. -/
theorem Tail.refTail_unfold (vp : FVec Ideal S16x4096x1024 .f32) (vlen : IVec S16 32) (cen : FVec Ideal S16x64x2 .f32)
    (xs ys : FVec Ideal S16x4096 .f32) :
    refTail vp vlen cen xs ys
      = Host.divf
          (Host.dotGeneral dot_S16x64x4096_S16x4096x1024_S16x64x1024_2_1_1_2_0_0 none (weights vlen cen xs ys) vp)
          (broadcastInDim S16x64x1024 ![0, 1, 2] bcast_S16x64x1_S16x64x1024_0_1_2
            (addf
              (broadcastInDim S16x64x1 ![0, 1] bcast_S16x64_S16x64x1_0_1
                (Host.reduceAdd (weights vlen cen xs ys) (constant (F := Ideal) S_ .f32 0x00000000#32) reducesTo_S16x64x4096_S16x64_d2 h_S_))
              (broadcastInDim S16x64x1 ![] bcast_S_S16x64x1 (constant (F := Ideal) S_ .f32 0x358637BD#32)))) := rfl

/-- Index by index the reference's last stretch is the weighted mean. -/
theorem refTail_eq (vp : FVec Ideal S16x4096x1024 .f32) (vlen : IVec S16 32) (cen : FVec Ideal S16x64x2 .f32)
    (xs ys : FVec Ideal S16x4096 .f32) : refTail vp vlen cen xs ys = Cert.Spot.G vp vlen cen xs ys := by
  funext i
  obtain ⟨b, p, d, rfl⟩ : ∃ (b : Fin 16) (p : Fin 64) (d : Fin 1024), i = ix3 b p d := ⟨i 0, i 1, i 2, eq_ix3 i⟩
  rw [refTail_unfold, hostDivf_apply, dot_apply, bc_den_full_apply, addf_apply, bc_den_apply, reduce_pos_apply,
    broadcastInDim_scalar_apply, constant_apply]
  simp only [weights_apply]
  rfl

end Cert.ReferenceIdeal.Val

end
-- ==== Proof.RefStages.lean ====
/-
  The reference's line of operations read stage by stage. The line is in single assignment, so what a buffer holds
  when the whole line has run is its operation's function of what the operands hold then: one equation per operation,
  none mentioning the rest of the line. Chained in program order they give the three stages the run is read through:
  the width `W` and the height `H` of each row are the coordinate chain's `weff` and `heff` of the two integer
  arguments; the two position rows are the positions 0 … 4095; the floored remainder and the floored quotient by the
  broadcast width are `remW` and `quoW` of it, so the two coordinate arrays are `xCoord` and `yCoord` of the
  arguments; and the result is the last stretch `refTail` of the three other arguments and the two coordinate arrays.
  The four arguments are written by no operation and end as they began.
-/
import proofs.«415546_j62010737819899_3_alg».proof.Proof.RefOps
import proofs.«415546_j62010737819899_3_alg».proof.Proof.LibSsa
import proofs.«415546_j62010737819899_3_alg».proof.Proof.RefTail
import proofs.«415546_j62010737819899_3_alg».proof.Proof.Coords

noncomputable section

namespace Cert.ReferenceIdeal.Val

open Idealize.ShloMosaic Idealize.ShloMosaic.TcCoe Idealize.ShloMosaic.StableHlo Idealize.SL.Sem
open Cert.ReferenceIdeal Cert.ReferenceIdeal.Gen

variable (F0 : Valuation τ sig (Elt Ideal))

/-! ## The arguments -/

/-- The values: no operation writes them. -/
theorem kept0 : StableHlo.after ops F0 (main_arg0 : DevRef τ sig) = F0 (main_arg0 : DevRef τ sig) :=
  after_keep hW F0 (by decide)
/-- The lengths. -/
theorem kept1 : StableHlo.after ops F0 (main_arg1 : DevRef τ sig) = F0 (main_arg1 : DevRef τ sig) :=
  after_keep hW F0 (by decide)
/-- The grids' heights and widths. -/
theorem kept2 : StableHlo.after ops F0 (main_arg2 : DevRef τ sig) = F0 (main_arg2 : DevRef τ sig) :=
  after_keep hW F0 (by decide)
/-- The centres. -/
theorem kept3 : StableHlo.after ops F0 (main_arg3 : DevRef τ sig) = F0 (main_arg3 : DevRef τ sig) :=
  after_keep hW F0 (by decide)

namespace Stage

/-! ## The final contents, buffer by buffer, at the type of the value the buffer holds -/

abbrev f_arg0 : FVec Ideal S16x4096x1024 .f32 := StableHlo.after ops F0 (Proc.devRef .tc main_arg0)
abbrev f_arg1 : IVec S16 32 := StableHlo.after ops F0 (Proc.devRef .tc main_arg1)
abbrev f_arg2 : IVec S16x3 32 := StableHlo.after ops F0 (Proc.devRef .tc main_arg2)
abbrev f_arg3 : FVec Ideal S16x64x2 .f32 := StableHlo.after ops F0 (Proc.devRef .tc main_arg3)
abbrev f_v0 : FVec Ideal S16 .f32 := StableHlo.after ops F0 (Proc.devRef .tc main_v0)
abbrev f_v1 : IVec S16x1 32 := StableHlo.after ops F0 (Proc.devRef .tc main_v1)
abbrev f_v2 : IVec S16 32 := StableHlo.after ops F0 (Proc.devRef .tc main_v2)
abbrev f_v3 : FVec Ideal S16 .f32 := StableHlo.after ops F0 (Proc.devRef .tc main_v3)
abbrev f_v4 : IVec S16x1 32 := StableHlo.after ops F0 (Proc.devRef .tc main_v4)
abbrev f_v5 : IVec S16 32 := StableHlo.after ops F0 (Proc.devRef .tc main_v5)
abbrev f_v6 : FVec Ideal S16 .f32 := StableHlo.after ops F0 (Proc.devRef .tc main_v6)
abbrev f_v7 : FVec Ideal S16 .f32 := StableHlo.after ops F0 (Proc.devRef .tc main_v7)
abbrev f_v8 : FVec Ideal S16 .f32 := StableHlo.after ops F0 (Proc.devRef .tc main_v8)
abbrev f_v9 : FVec Ideal S16 .f32 := StableHlo.after ops F0 (Proc.devRef .tc main_v9)
abbrev f_v10 : FVec Ideal S16 .f32 := StableHlo.after ops F0 (Proc.devRef .tc main_v10)
abbrev f_v11 : IVec S16 32 := StableHlo.after ops F0 (Proc.devRef .tc main_v11)
abbrev f_c : IVec S_ 32 := StableHlo.after ops F0 (Proc.devRef .tc main_c)
abbrev f_v12 : IVec S16 32 := StableHlo.after ops F0 (Proc.devRef .tc main_v12)
abbrev f_v13 : IVec S16 32 := StableHlo.after ops F0 (Proc.devRef .tc main_v13)
abbrev f_v14 : FVec Ideal S16 .f32 := StableHlo.after ops F0 (Proc.devRef .tc main_v14)
abbrev f_v15 : FVec Ideal S16 .f32 := StableHlo.after ops F0 (Proc.devRef .tc main_v15)
abbrev f_v16 : FVec Ideal S16 .f32 := StableHlo.after ops F0 (Proc.devRef .tc main_v16)
abbrev f_v17 : IVec S16 32 := StableHlo.after ops F0 (Proc.devRef .tc main_v17)
abbrev f_c_0 : IVec S_ 32 := StableHlo.after ops F0 (Proc.devRef .tc main_c_0)
abbrev f_v18 : IVec S16 32 := StableHlo.after ops F0 (Proc.devRef .tc main_v18)
abbrev f_v19 : IVec S16 32 := StableHlo.after ops F0 (Proc.devRef .tc main_v19)
abbrev f_v20 : IVec S4096 32 := StableHlo.after ops F0 (Proc.devRef .tc main_v20)
abbrev f_v21 : IVec S16x1 32 := StableHlo.after ops F0 (Proc.devRef .tc main_v21)
abbrev f_v22 : IVec S16x1 32 := StableHlo.after ops F0 (Proc.devRef .tc main_v22)
abbrev f_v23 : IVec S1x4096 32 := StableHlo.after ops F0 (Proc.devRef .tc main_v23)
abbrev f_r_c : IVec S_ 32 := StableHlo.after ops F0 (Proc.devRef .tc main_call1_c)
abbrev f_r_v0 : IVec S16x1 32 := StableHlo.after ops F0 (Proc.devRef .tc main_call1_v0)
abbrev f_r_v1 : IVec S16x1 1 := StableHlo.after ops F0 (Proc.devRef .tc main_call1_v1)
abbrev f_r_c_0 : IVec S_ 32 := StableHlo.after ops F0 (Proc.devRef .tc main_call1_c_0)
abbrev f_r_v2 : IVec S16x1 32 := StableHlo.after ops F0 (Proc.devRef .tc main_call1_v2)
abbrev f_r_v3 : IVec S16x1 32 := StableHlo.after ops F0 (Proc.devRef .tc main_call1_v3)
abbrev f_r_v4 : IVec S16x4096 32 := StableHlo.after ops F0 (Proc.devRef .tc main_call1_v4)
abbrev f_r_v5 : IVec S16x4096 32 := StableHlo.after ops F0 (Proc.devRef .tc main_call1_v5)
abbrev f_r_v6 : IVec S16x4096 32 := StableHlo.after ops F0 (Proc.devRef .tc main_call1_v6)
abbrev f_r_c_1 : IVec S_ 32 := StableHlo.after ops F0 (Proc.devRef .tc main_call1_c_1)
abbrev f_r_v7 : IVec S16x4096 32 := StableHlo.after ops F0 (Proc.devRef .tc main_call1_v7)
abbrev f_r_v8 : IVec S16x4096 1 := StableHlo.after ops F0 (Proc.devRef .tc main_call1_v8)
abbrev f_r_c_2 : IVec S_ 32 := StableHlo.after ops F0 (Proc.devRef .tc main_call1_c_2)
abbrev f_r_v9 : IVec S16x4096 32 := StableHlo.after ops F0 (Proc.devRef .tc main_call1_v9)
abbrev f_r_v10 : IVec S16x4096 1 := StableHlo.after ops F0 (Proc.devRef .tc main_call1_v10)
abbrev f_r_c_3 : IVec S_ 32 := StableHlo.after ops F0 (Proc.devRef .tc main_call1_c_3)
abbrev f_r_v11 : IVec S16x1 32 := StableHlo.after ops F0 (Proc.devRef .tc main_call1_v11)
abbrev f_r_v12 : IVec S16x1 1 := StableHlo.after ops F0 (Proc.devRef .tc main_call1_v12)
abbrev f_r_v13 : IVec S16x4096 1 := StableHlo.after ops F0 (Proc.devRef .tc main_call1_v13)
abbrev f_r_v14 : IVec S16x4096 1 := StableHlo.after ops F0 (Proc.devRef .tc main_call1_v14)
abbrev f_r_v15 : IVec S16x4096 1 := StableHlo.after ops F0 (Proc.devRef .tc main_call1_v15)
abbrev f_r_v16 : IVec S16x4096 32 := StableHlo.after ops F0 (Proc.devRef .tc main_call1_v16)
abbrev f_r_v17 : IVec S16x4096 32 := StableHlo.after ops F0 (Proc.devRef .tc main_call1_v17)
abbrev f_v24 : IVec S16x4096 32 := StableHlo.after ops F0 (Proc.devRef .tc main_v24)
abbrev f_v25 : FVec Ideal S16x4096 .f32 := StableHlo.after ops F0 (Proc.devRef .tc main_v25)
abbrev f_v26 : FVec Ideal S16x1 .f32 := StableHlo.after ops F0 (Proc.devRef .tc main_v26)
abbrev f_v27 : FVec Ideal S16x4096 .f32 := StableHlo.after ops F0 (Proc.devRef .tc main_v27)
abbrev f_v28 : FVec Ideal S16x4096 .f32 := StableHlo.after ops F0 (Proc.devRef .tc main_v28)
abbrev f_v29 : IVec S1x4096 32 := StableHlo.after ops F0 (Proc.devRef .tc main_v29)
abbrev f_q_v0 : IVec S16x4096 32 := StableHlo.after ops F0 (Proc.devRef .tc main_call2_v0)
abbrev f_q_v1 : IVec S16x4096 32 := StableHlo.after ops F0 (Proc.devRef .tc main_call2_v1)
abbrev f_q_v2 : IVec S16x4096 32 := StableHlo.after ops F0 (Proc.devRef .tc main_call2_v2)
abbrev f_q_v3 : IVec S1x4096 32 := StableHlo.after ops F0 (Proc.devRef .tc main_call2_v3)
abbrev f_q_v4 : IVec S16x1 32 := StableHlo.after ops F0 (Proc.devRef .tc main_call2_v4)
abbrev f_q_v5 : IVec S16x4096 32 := StableHlo.after ops F0 (Proc.devRef .tc main_call2_v5)
abbrev f_q_v6 : IVec S16x4096 32 := StableHlo.after ops F0 (Proc.devRef .tc main_call2_v6)
abbrev f_q_v7 : IVec S16x4096 1 := StableHlo.after ops F0 (Proc.devRef .tc main_call2_v7)
abbrev f_q_v8 : IVec S16x4096 32 := StableHlo.after ops F0 (Proc.devRef .tc main_call2_v8)
abbrev f_q_v9 : IVec S16x4096 32 := StableHlo.after ops F0 (Proc.devRef .tc main_call2_v9)
abbrev f_q_v10 : IVec S16x4096 32 := StableHlo.after ops F0 (Proc.devRef .tc main_call2_v10)
abbrev f_q_c : IVec S_ 32 := StableHlo.after ops F0 (Proc.devRef .tc main_call2_c)
abbrev f_q_v11 : IVec S16x4096 32 := StableHlo.after ops F0 (Proc.devRef .tc main_call2_v11)
abbrev f_q_v12 : IVec S16x4096 1 := StableHlo.after ops F0 (Proc.devRef .tc main_call2_v12)
abbrev f_q_v13 : IVec S16x4096 1 := StableHlo.after ops F0 (Proc.devRef .tc main_call2_v13)
abbrev f_q_c_0 : IVec S_ 32 := StableHlo.after ops F0 (Proc.devRef .tc main_call2_c_0)
abbrev f_q_v14 : IVec S16x4096 32 := StableHlo.after ops F0 (Proc.devRef .tc main_call2_v14)
abbrev f_q_v15 : IVec S16x4096 32 := StableHlo.after ops F0 (Proc.devRef .tc main_call2_v15)
abbrev f_v30 : IVec S16x4096 32 := StableHlo.after ops F0 (Proc.devRef .tc main_v30)
abbrev f_v31 : FVec Ideal S16x4096 .f32 := StableHlo.after ops F0 (Proc.devRef .tc main_v31)
abbrev f_v32 : FVec Ideal S16x1 .f32 := StableHlo.after ops F0 (Proc.devRef .tc main_v32)
abbrev f_v33 : FVec Ideal S16x4096 .f32 := StableHlo.after ops F0 (Proc.devRef .tc main_v33)
abbrev f_v34 : FVec Ideal S16x4096 .f32 := StableHlo.after ops F0 (Proc.devRef .tc main_v34)
abbrev f_v35 : FVec Ideal S16x4096x1 .f32 := StableHlo.after ops F0 (Proc.devRef .tc main_v35)
abbrev f_v36 : FVec Ideal S16x4096x1 .f32 := StableHlo.after ops F0 (Proc.devRef .tc main_v36)
abbrev f_v37 : FVec Ideal S16x4096x2 .f32 := StableHlo.after ops F0 (Proc.devRef .tc main_v37)
abbrev f_v38 : FVec Ideal S16x64x1x2 .f32 := StableHlo.after ops F0 (Proc.devRef .tc main_v38)
abbrev f_v39 : FVec Ideal S16x1x4096x2 .f32 := StableHlo.after ops F0 (Proc.devRef .tc main_v39)
abbrev f_v40 : FVec Ideal S16x64x4096x2 .f32 := StableHlo.after ops F0 (Proc.devRef .tc main_v40)
abbrev f_v41 : FVec Ideal S16x64x4096x2 .f32 := StableHlo.after ops F0 (Proc.devRef .tc main_v41)
abbrev f_v42 : FVec Ideal S16x64x4096x2 .f32 := StableHlo.after ops F0 (Proc.devRef .tc main_v42)
abbrev f_v43 : FVec Ideal S16x64x4096x2 .f32 := StableHlo.after ops F0 (Proc.devRef .tc main_v43)
abbrev f_cst : FVec Ideal S_ .f32 := StableHlo.after ops F0 (Proc.devRef .tc main_cst)
abbrev f_v44 : FVec Ideal S16x64x4096 .f32 := StableHlo.after ops F0 (Proc.devRef .tc main_v44)
abbrev f_v45 : IVec S1x4096 32 := StableHlo.after ops F0 (Proc.devRef .tc main_v45)
abbrev f_v46 : IVec S16x1 32 := StableHlo.after ops F0 (Proc.devRef .tc main_v46)
abbrev f_v47 : IVec S16x4096 32 := StableHlo.after ops F0 (Proc.devRef .tc main_v47)
abbrev f_v48 : IVec S16x4096 32 := StableHlo.after ops F0 (Proc.devRef .tc main_v48)
abbrev f_v49 : IVec S16x4096 1 := StableHlo.after ops F0 (Proc.devRef .tc main_v49)
abbrev f_v50 : FVec Ideal S16x4096 .f32 := StableHlo.after ops F0 (Proc.devRef .tc main_v50)
abbrev f_cst_1 : FVec Ideal S_ .f32 := StableHlo.after ops F0 (Proc.devRef .tc main_cst_1)
abbrev f_v51 : FVec Ideal S16x64x4096 .f32 := StableHlo.after ops F0 (Proc.devRef .tc main_v51)
abbrev f_v52 : FVec Ideal S16x64x4096 .f32 := StableHlo.after ops F0 (Proc.devRef .tc main_v52)
abbrev f_v53 : FVec Ideal S16x64x4096 .f32 := StableHlo.after ops F0 (Proc.devRef .tc main_v53)
abbrev f_v54 : FVec Ideal S16x1x4096 .f32 := StableHlo.after ops F0 (Proc.devRef .tc main_v54)
abbrev f_v55 : FVec Ideal S16x64x4096 .f32 := StableHlo.after ops F0 (Proc.devRef .tc main_v55)
abbrev f_v56 : FVec Ideal S16x64x4096 .f32 := StableHlo.after ops F0 (Proc.devRef .tc main_v56)
abbrev f_v57 : FVec Ideal S16x64x1024 .f32 := StableHlo.after ops F0 (Proc.devRef .tc main_v57)
abbrev f_cst_2 : FVec Ideal S_ .f32 := StableHlo.after ops F0 (Proc.devRef .tc main_cst_2)
abbrev f_v58 : FVec Ideal S16x64 .f32 := StableHlo.after ops F0 (Proc.devRef .tc main_v58)
abbrev f_v59 : FVec Ideal S16x64x1 .f32 := StableHlo.after ops F0 (Proc.devRef .tc main_v59)
abbrev f_cst_3 : FVec Ideal S_ .f32 := StableHlo.after ops F0 (Proc.devRef .tc main_cst_3)
abbrev f_v60 : FVec Ideal S16x64x1 .f32 := StableHlo.after ops F0 (Proc.devRef .tc main_v60)
abbrev f_v61 : FVec Ideal S16x64x1 .f32 := StableHlo.after ops F0 (Proc.devRef .tc main_v61)
abbrev f_v62 : FVec Ideal S16x64x1024 .f32 := StableHlo.after ops F0 (Proc.devRef .tc main_v62)
abbrev f_v63 : FVec Ideal S16x64x1024 .f32 := StableHlo.after ops F0 (Proc.devRef .tc main_v63)

/-! ## One equation per operation

The operation at place `k` of the line gives what its buffer holds at the end as its function of what its operands hold
at the end. The places: the host chain of the width and the height 0 … 25, the floored remainder 26 … 49, the x
coordinate 50 … 53, the second position row 54, the floored quotient 55 … 73, the y coordinate 74 … 77, the last
stretch 78 … 110. -/

theorem s_v0 : f_v0 F0 = sitofp .f32 (f_arg1 F0) :=
  ssa_unary hW F0 0 rfl (by decide) (by decide)
theorem s_v1 : f_v1 F0 = extractStridedSlice S16x1 ![0, 1] (f_arg2 F0) slices_S16x3_S16x1_0_1 := by
  have h := ssa_unary hW F0 1 rfl (by decide) (by decide); exact h
theorem s_v2 : f_v2 F0 = shapeCast S16 (f_v1 F0) shapeCasts_S16x1_S16 := by
  have h := ssa_reshape hW F0 2 rfl (by decide) (by decide); exact h
theorem s_v3 : f_v3 F0 = sitofp .f32 (f_v2 F0) :=
  ssa_unary hW F0 3 rfl (by decide) (by decide)
theorem s_v4 : f_v4 F0 = extractStridedSlice S16x1 ![0, 2] (f_arg2 F0) slices_S16x3_S16x1_0_2 := by
  have h := ssa_unary hW F0 4 rfl (by decide) (by decide); exact h
theorem s_v5 : f_v5 F0 = shapeCast S16 (f_v4 F0) shapeCasts_S16x1_S16 := by
  have h := ssa_reshape hW F0 5 rfl (by decide) (by decide); exact h
theorem s_v6 : f_v6 F0 = sitofp .f32 (f_v5 F0) :=
  ssa_unary hW F0 6 rfl (by decide) (by decide)
theorem s_v7 : f_v7 F0 = Host.divf (f_v6 F0) (f_v3 F0) :=
  ssa_binary hW F0 7 rfl (by decide) (by decide) (by decide)
theorem s_v8 : f_v8 F0 = mulf (f_v0 F0) (f_v7 F0) :=
  ssa_binary hW F0 8 rfl (by decide) (by decide) (by decide)
theorem s_v9 : f_v9 F0 = Host.sqrt (f_v8 F0) :=
  ssa_unary hW F0 9 rfl (by decide) (by decide)
theorem s_v10 : f_v10 F0 = Host.roundeven (f_v9 F0) :=
  ssa_unary hW F0 10 rfl (by decide) (by decide)
theorem s_v11 : f_v11 F0 = fptosi 32 (f_v10 F0) :=
  ssa_unary hW F0 11 rfl (by decide) (by decide)
theorem s_c : f_c F0 = constantI S_ 32 1#32 :=
  ssa_nullary hW F0 12 rfl (by decide)
theorem s_v12 : f_v12 F0 = broadcastInDim S16 ![] bcast_S_S16 (f_c F0) :=
  ssa_unary hW F0 13 rfl (by decide) (by decide)
theorem s_v13 : f_v13 F0 = maxsi (f_v12 F0) (f_v11 F0) :=
  ssa_binary hW F0 14 rfl (by decide) (by decide) (by decide)
theorem s_v14 : f_v14 F0 = sitofp .f32 (f_v13 F0) :=
  ssa_unary hW F0 15 rfl (by decide) (by decide)
theorem s_v15 : f_v15 F0 = Host.divf (f_v0 F0) (f_v14 F0) :=
  ssa_binary hW F0 16 rfl (by decide) (by decide) (by decide)
theorem s_v16 : f_v16 F0 = Host.ceil (f_v15 F0) :=
  ssa_unary hW F0 17 rfl (by decide) (by decide)
theorem s_v17 : f_v17 F0 = fptosi 32 (f_v16 F0) :=
  ssa_unary hW F0 18 rfl (by decide) (by decide)
theorem s_c_0 : f_c_0 F0 = constantI S_ 32 1#32 :=
  ssa_nullary hW F0 19 rfl (by decide)
theorem s_v18 : f_v18 F0 = broadcastInDim S16 ![] bcast_S_S16 (f_c_0 F0) :=
  ssa_unary hW F0 20 rfl (by decide) (by decide)
theorem s_v19 : f_v19 F0 = maxsi (f_v18 F0) (f_v17 F0) :=
  ssa_binary hW F0 21 rfl (by decide) (by decide) (by decide)
theorem s_v20 : f_v20 F0 = iotaInDim S4096 32 0 :=
  ssa_nullary hW F0 22 rfl (by decide)
theorem s_v21 : f_v21 F0 = broadcastInDim S16x1 ![0] bcast_S16_S16x1_0 (f_v13 F0) :=
  ssa_unary hW F0 23 rfl (by decide) (by decide)
theorem s_v22 : f_v22 F0 = broadcastInDim S16x1 ![0] bcast_S16_S16x1_0 (f_v19 F0) :=
  ssa_unary hW F0 24 rfl (by decide) (by decide)
theorem s_v23 : f_v23 F0 = broadcastInDim S1x4096 ![1] bcast_S4096_S1x4096_1 (f_v20 F0) :=
  ssa_unary hW F0 25 rfl (by decide) (by decide)
theorem s_r_c : f_r_c F0 = constantI S_ 32 0#32 :=
  ssa_nullary hW F0 26 rfl (by decide)
theorem s_r_v0 : f_r_v0 F0 = broadcastInDim S16x1 ![] bcast_S_S16x1 (f_r_c F0) :=
  ssa_unary hW F0 27 rfl (by decide) (by decide)
theorem s_r_v1 : f_r_v1 F0 = cmpi .eq (f_v21 F0) (f_r_v0 F0) :=
  ssa_binary hW F0 28 rfl (by decide) (by decide) (by decide)
theorem s_r_c_0 : f_r_c_0 F0 = constantI S_ 32 1#32 :=
  ssa_nullary hW F0 29 rfl (by decide)
theorem s_r_v2 : f_r_v2 F0 = broadcastInDim S16x1 ![] bcast_S_S16x1 (f_r_c_0 F0) :=
  ssa_unary hW F0 30 rfl (by decide) (by decide)
theorem s_r_v3 : f_r_v3 F0 = select (f_r_v1 F0) (f_r_v2 F0) (f_v21 F0) :=
  ssa_ternary hW F0 31 rfl (by decide) (by decide) (by decide) (by decide)
theorem s_r_v4 : f_r_v4 F0 = broadcastInDim S16x4096 ![0, 1] bcast_S1x4096_S16x4096_0_1 (f_v23 F0) :=
  ssa_unary hW F0 32 rfl (by decide) (by decide)
theorem s_r_v5 : f_r_v5 F0 = broadcastInDim S16x4096 ![0, 1] bcast_S16x1_S16x4096_0_1 (f_r_v3 F0) :=
  ssa_unary hW F0 33 rfl (by decide) (by decide)
theorem s_r_v6 : f_r_v6 F0 = Host.remsi (f_r_v4 F0) (f_r_v5 F0) :=
  ssa_binary hW F0 34 rfl (by decide) (by decide) (by decide)
theorem s_r_c_1 : f_r_c_1 F0 = constantI S_ 32 0#32 :=
  ssa_nullary hW F0 35 rfl (by decide)
theorem s_r_v7 : f_r_v7 F0 = broadcastInDim S16x4096 ![] bcast_S_S16x4096 (f_r_c_1 F0) :=
  ssa_unary hW F0 36 rfl (by decide) (by decide)
theorem s_r_v8 : f_r_v8 F0 = cmpi .ne (f_r_v6 F0) (f_r_v7 F0) :=
  ssa_binary hW F0 37 rfl (by decide) (by decide) (by decide)
theorem s_r_c_2 : f_r_c_2 F0 = constantI S_ 32 0#32 :=
  ssa_nullary hW F0 38 rfl (by decide)
theorem s_r_v9 : f_r_v9 F0 = broadcastInDim S16x4096 ![] bcast_S_S16x4096 (f_r_c_2 F0) :=
  ssa_unary hW F0 39 rfl (by decide) (by decide)
theorem s_r_v10 : f_r_v10 F0 = cmpi .slt (f_r_v6 F0) (f_r_v9 F0) :=
  ssa_binary hW F0 40 rfl (by decide) (by decide) (by decide)
theorem s_r_c_3 : f_r_c_3 F0 = constantI S_ 32 0#32 :=
  ssa_nullary hW F0 41 rfl (by decide)
theorem s_r_v11 : f_r_v11 F0 = broadcastInDim S16x1 ![] bcast_S_S16x1 (f_r_c_3 F0) :=
  ssa_unary hW F0 42 rfl (by decide) (by decide)
theorem s_r_v12 : f_r_v12 F0 = cmpi .slt (f_r_v3 F0) (f_r_v11 F0) :=
  ssa_binary hW F0 43 rfl (by decide) (by decide) (by decide)
theorem s_r_v13 : f_r_v13 F0 = broadcastInDim S16x4096 ![0, 1] bcast_S16x1_S16x4096_0_1 (f_r_v12 F0) :=
  ssa_unary hW F0 44 rfl (by decide) (by decide)
theorem s_r_v14 : f_r_v14 F0 = cmpi .ne (f_r_v10 F0) (f_r_v13 F0) :=
  ssa_binary hW F0 45 rfl (by decide) (by decide) (by decide)
theorem s_r_v15 : f_r_v15 F0 = andi (f_r_v14 F0) (f_r_v8 F0) :=
  ssa_binary hW F0 46 rfl (by decide) (by decide) (by decide)
theorem s_r_v16 : f_r_v16 F0 = broadcastInDim S16x4096 ![0, 1] bcast_S16x1_S16x4096_0_1 (f_r_v3 F0) :=
  ssa_unary hW F0 47 rfl (by decide) (by decide)
theorem s_r_v17 : f_r_v17 F0 = addi (f_r_v6 F0) (f_r_v16 F0) :=
  ssa_binary hW F0 48 rfl (by decide) (by decide) (by decide)
theorem s_v24 : f_v24 F0 = select (f_r_v15 F0) (f_r_v17 F0) (f_r_v6 F0) :=
  ssa_ternary hW F0 49 rfl (by decide) (by decide) (by decide) (by decide)
theorem s_v25 : f_v25 F0 = sitofp .f32 (f_v24 F0) :=
  ssa_unary hW F0 50 rfl (by decide) (by decide)
theorem s_v26 : f_v26 F0 = sitofp .f32 (f_v21 F0) :=
  ssa_unary hW F0 51 rfl (by decide) (by decide)
theorem s_v27 : f_v27 F0 = broadcastInDim S16x4096 ![0, 1] bcast_S16x1_S16x4096_0_1 (f_v26 F0) :=
  ssa_unary hW F0 52 rfl (by decide) (by decide)
theorem s_v28 : f_v28 F0 = Host.divf (f_v25 F0) (f_v27 F0) :=
  ssa_binary hW F0 53 rfl (by decide) (by decide) (by decide)
theorem s_v29 : f_v29 F0 = broadcastInDim S1x4096 ![1] bcast_S4096_S1x4096_1 (f_v20 F0) :=
  ssa_unary hW F0 54 rfl (by decide) (by decide)
theorem s_q_v0 : f_q_v0 F0 = broadcastInDim S16x4096 ![0, 1] bcast_S1x4096_S16x4096_0_1 (f_v29 F0) :=
  ssa_unary hW F0 55 rfl (by decide) (by decide)
theorem s_q_v1 : f_q_v1 F0 = broadcastInDim S16x4096 ![0, 1] bcast_S16x1_S16x4096_0_1 (f_v21 F0) :=
  ssa_unary hW F0 56 rfl (by decide) (by decide)
theorem s_q_v2 : f_q_v2 F0 = Host.divsi (f_q_v0 F0) (f_q_v1 F0) :=
  ssa_binary hW F0 57 rfl (by decide) (by decide) (by decide)
theorem s_q_v3 : f_q_v3 F0 = signi (f_v29 F0) :=
  ssa_unary hW F0 58 rfl (by decide) (by decide)
theorem s_q_v4 : f_q_v4 F0 = signi (f_v21 F0) :=
  ssa_unary hW F0 59 rfl (by decide) (by decide)
theorem s_q_v5 : f_q_v5 F0 = broadcastInDim S16x4096 ![0, 1] bcast_S1x4096_S16x4096_0_1 (f_q_v3 F0) :=
  ssa_unary hW F0 60 rfl (by decide) (by decide)
theorem s_q_v6 : f_q_v6 F0 = broadcastInDim S16x4096 ![0, 1] bcast_S16x1_S16x4096_0_1 (f_q_v4 F0) :=
  ssa_unary hW F0 61 rfl (by decide) (by decide)
theorem s_q_v7 : f_q_v7 F0 = cmpi .ne (f_q_v5 F0) (f_q_v6 F0) :=
  ssa_binary hW F0 62 rfl (by decide) (by decide) (by decide)
theorem s_q_v8 : f_q_v8 F0 = broadcastInDim S16x4096 ![0, 1] bcast_S1x4096_S16x4096_0_1 (f_v29 F0) :=
  ssa_unary hW F0 63 rfl (by decide) (by decide)
theorem s_q_v9 : f_q_v9 F0 = broadcastInDim S16x4096 ![0, 1] bcast_S16x1_S16x4096_0_1 (f_v21 F0) :=
  ssa_unary hW F0 64 rfl (by decide) (by decide)
theorem s_q_v10 : f_q_v10 F0 = Host.remsi (f_q_v8 F0) (f_q_v9 F0) :=
  ssa_binary hW F0 65 rfl (by decide) (by decide) (by decide)
theorem s_q_c : f_q_c F0 = constantI S_ 32 0#32 :=
  ssa_nullary hW F0 66 rfl (by decide)
theorem s_q_v11 : f_q_v11 F0 = broadcastInDim S16x4096 ![] bcast_S_S16x4096 (f_q_c F0) :=
  ssa_unary hW F0 67 rfl (by decide) (by decide)
theorem s_q_v12 : f_q_v12 F0 = cmpi .ne (f_q_v10 F0) (f_q_v11 F0) :=
  ssa_binary hW F0 68 rfl (by decide) (by decide) (by decide)
theorem s_q_v13 : f_q_v13 F0 = andi (f_q_v7 F0) (f_q_v12 F0) :=
  ssa_binary hW F0 69 rfl (by decide) (by decide) (by decide)
theorem s_q_c_0 : f_q_c_0 F0 = constantI S_ 32 1#32 :=
  ssa_nullary hW F0 70 rfl (by decide)
theorem s_q_v14 : f_q_v14 F0 = broadcastInDim S16x4096 ![] bcast_S_S16x4096 (f_q_c_0 F0) :=
  ssa_unary hW F0 71 rfl (by decide) (by decide)
theorem s_q_v15 : f_q_v15 F0 = subi (f_q_v2 F0) (f_q_v14 F0) :=
  ssa_binary hW F0 72 rfl (by decide) (by decide) (by decide)
theorem s_v30 : f_v30 F0 = select (f_q_v13 F0) (f_q_v15 F0) (f_q_v2 F0) :=
  ssa_ternary hW F0 73 rfl (by decide) (by decide) (by decide) (by decide)
theorem s_v31 : f_v31 F0 = sitofp .f32 (f_v30 F0) :=
  ssa_unary hW F0 74 rfl (by decide) (by decide)
theorem s_v32 : f_v32 F0 = sitofp .f32 (f_v22 F0) :=
  ssa_unary hW F0 75 rfl (by decide) (by decide)
theorem s_v33 : f_v33 F0 = broadcastInDim S16x4096 ![0, 1] bcast_S16x1_S16x4096_0_1 (f_v32 F0) :=
  ssa_unary hW F0 76 rfl (by decide) (by decide)
theorem s_v34 : f_v34 F0 = Host.divf (f_v31 F0) (f_v33 F0) :=
  ssa_binary hW F0 77 rfl (by decide) (by decide) (by decide)
theorem s_v35 : f_v35 F0 = broadcastInDim S16x4096x1 ![0, 1] bcast_S16x4096_S16x4096x1_0_1 (f_v28 F0) :=
  ssa_unary hW F0 78 rfl (by decide) (by decide)
theorem s_v36 : f_v36 F0 = broadcastInDim S16x4096x1 ![0, 1] bcast_S16x4096_S16x4096x1_0_1 (f_v34 F0) :=
  ssa_unary hW F0 79 rfl (by decide) (by decide)
theorem s_v37 : f_v37 F0 = concatenate S16x4096x2 2 [⟨S16x4096x1, f_v35 F0⟩, ⟨S16x4096x1, f_v36 F0⟩] concatenates_S16x4096x1_S16x4096x1_S16x4096x2_d2 :=
  ssa_binary hW F0 80 (a := main_v35) (b := main_v36) (y := main_v37)
    (f := fun a b : FVec Ideal S16x4096x1 .f32 =>
      (concatenate S16x4096x2 2 [⟨S16x4096x1, a⟩, ⟨S16x4096x1, b⟩] concatenates_S16x4096x1_S16x4096x1_S16x4096x2_d2 : FVec Ideal S16x4096x2 .f32))
    rfl (by decide) (by decide) (by decide)
theorem s_v38 : f_v38 F0 = broadcastInDim S16x64x1x2 ![0, 1, 3] bcast_S16x64x2_S16x64x1x2_0_1_3 (f_arg3 F0) :=
  ssa_unary hW F0 81 rfl (by decide) (by decide)
theorem s_v39 : f_v39 F0 = broadcastInDim S16x1x4096x2 ![0, 2, 3] bcast_S16x4096x2_S16x1x4096x2_0_2_3 (f_v37 F0) :=
  ssa_unary hW F0 82 rfl (by decide) (by decide)
theorem s_v40 : f_v40 F0 = broadcastInDim S16x64x4096x2 ![0, 1, 2, 3] bcast_S16x64x1x2_S16x64x4096x2_0_1_2_3 (f_v38 F0) :=
  ssa_unary hW F0 83 rfl (by decide) (by decide)
theorem s_v41 : f_v41 F0 = broadcastInDim S16x64x4096x2 ![0, 1, 2, 3] bcast_S16x1x4096x2_S16x64x4096x2_0_1_2_3 (f_v39 F0) :=
  ssa_unary hW F0 84 rfl (by decide) (by decide)
theorem s_v42 : f_v42 F0 = subf (f_v40 F0) (f_v41 F0) :=
  ssa_binary hW F0 85 rfl (by decide) (by decide) (by decide)
theorem s_v43 : f_v43 F0 = mulf (f_v42 F0) (f_v42 F0) :=
  ssa_binary hW F0 86 rfl (by decide) (by decide) (by decide)
theorem s_cst : f_cst F0 = constant S_ .f32 0x00000000#32 :=
  ssa_nullary hW F0 87 rfl (by decide)
theorem s_v44 : f_v44 F0 = Host.reduceAdd (f_v43 F0) (f_cst F0) reducesTo_S16x64x4096x2_S16x64x4096_d3 h_S_ :=
  ssa_binary hW F0 88 (a := main_v43) (b := main_cst) (y := main_v44)
    (f := fun (x : FVec Ideal S16x64x4096x2 .f32) (v : FVec Ideal S_ .f32) =>
      (Host.reduceAdd x v reducesTo_S16x64x4096x2_S16x64x4096_d3 h_S_ : FVec Ideal S16x64x4096 .f32))
    rfl (by decide) (by decide) (by decide)
theorem s_v45 : f_v45 F0 = broadcastInDim S1x4096 ![1] bcast_S4096_S1x4096_1 (f_v20 F0) :=
  ssa_unary hW F0 89 rfl (by decide) (by decide)
theorem s_v46 : f_v46 F0 = broadcastInDim S16x1 ![0] bcast_S16_S16x1_0 (f_arg1 F0) :=
  ssa_unary hW F0 90 rfl (by decide) (by decide)
theorem s_v47 : f_v47 F0 = broadcastInDim S16x4096 ![0, 1] bcast_S1x4096_S16x4096_0_1 (f_v45 F0) :=
  ssa_unary hW F0 91 rfl (by decide) (by decide)
theorem s_v48 : f_v48 F0 = broadcastInDim S16x4096 ![0, 1] bcast_S16x1_S16x4096_0_1 (f_v46 F0) :=
  ssa_unary hW F0 92 rfl (by decide) (by decide)
theorem s_v49 : f_v49 F0 = cmpi .slt (f_v47 F0) (f_v48 F0) :=
  ssa_binary hW F0 93 rfl (by decide) (by decide) (by decide)
theorem s_v50 : f_v50 F0 = uitofp .f32 (f_v49 F0) :=
  ssa_unary hW F0 94 rfl (by decide) (by decide)
theorem s_cst_1 : f_cst_1 F0 = constant S_ .f32 0xC1A00000#32 :=
  ssa_nullary hW F0 95 rfl (by decide)
theorem s_v51 : f_v51 F0 = broadcastInDim S16x64x4096 ![] bcast_S_S16x64x4096 (f_cst_1 F0) :=
  ssa_unary hW F0 96 rfl (by decide) (by decide)
theorem s_v52 : f_v52 F0 = mulf (f_v51 F0) (f_v44 F0) :=
  ssa_binary hW F0 97 rfl (by decide) (by decide) (by decide)
theorem s_v53 : f_v53 F0 = Host.exp (f_v52 F0) :=
  ssa_unary hW F0 98 rfl (by decide) (by decide)
theorem s_v54 : f_v54 F0 = broadcastInDim S16x1x4096 ![0, 2] bcast_S16x4096_S16x1x4096_0_2 (f_v50 F0) :=
  ssa_unary hW F0 99 rfl (by decide) (by decide)
theorem s_v55 : f_v55 F0 = broadcastInDim S16x64x4096 ![0, 1, 2] bcast_S16x1x4096_S16x64x4096_0_1_2 (f_v54 F0) :=
  ssa_unary hW F0 100 rfl (by decide) (by decide)
theorem s_v56 : f_v56 F0 = mulf (f_v53 F0) (f_v55 F0) :=
  ssa_binary hW F0 101 rfl (by decide) (by decide) (by decide)
theorem s_v57 : f_v57 F0 = Host.dotGeneral dot_S16x64x4096_S16x4096x1024_S16x64x1024_2_1_1_2_0_0 none (f_v56 F0) (f_arg0 F0) :=
  ssa_binary hW F0 102 rfl (by decide) (by decide) (by decide)
theorem s_cst_2 : f_cst_2 F0 = constant S_ .f32 0x00000000#32 :=
  ssa_nullary hW F0 103 rfl (by decide)
theorem s_v58 : f_v58 F0 = Host.reduceAdd (f_v56 F0) (f_cst_2 F0) reducesTo_S16x64x4096_S16x64_d2 h_S_ :=
  ssa_binary hW F0 104 (a := main_v56) (b := main_cst_2) (y := main_v58)
    (f := fun (x : FVec Ideal S16x64x4096 .f32) (v : FVec Ideal S_ .f32) =>
      (Host.reduceAdd x v reducesTo_S16x64x4096_S16x64_d2 h_S_ : FVec Ideal S16x64 .f32))
    rfl (by decide) (by decide) (by decide)
theorem s_v59 : f_v59 F0 = broadcastInDim S16x64x1 ![0, 1] bcast_S16x64_S16x64x1_0_1 (f_v58 F0) :=
  ssa_unary hW F0 105 rfl (by decide) (by decide)
theorem s_cst_3 : f_cst_3 F0 = constant S_ .f32 0x358637BD#32 :=
  ssa_nullary hW F0 106 rfl (by decide)
theorem s_v60 : f_v60 F0 = broadcastInDim S16x64x1 ![] bcast_S_S16x64x1 (f_cst_3 F0) :=
  ssa_unary hW F0 107 rfl (by decide) (by decide)
theorem s_v61 : f_v61 F0 = addf (f_v59 F0) (f_v60 F0) :=
  ssa_binary hW F0 108 rfl (by decide) (by decide) (by decide)
theorem s_v62 : f_v62 F0 = broadcastInDim S16x64x1024 ![0, 1, 2] bcast_S16x64x1_S16x64x1024_0_1_2 (f_v61 F0) :=
  ssa_unary hW F0 109 rfl (by decide) (by decide)
theorem s_v63 : f_v63 F0 = Host.divf (f_v57 F0) (f_v62 F0) :=
  ssa_binary hW F0 110 rfl (by decide) (by decide) (by decide)

/-! ## The arguments' final contents, at their types -/

theorem k_arg0 : f_arg0 F0 = F0 (main_arg0 : DevRef τ sig) := kept0 F0
theorem k_arg1 : f_arg1 F0 = F0 (main_arg1 : DevRef τ sig) := kept1 F0
theorem k_arg2 : f_arg2 F0 = F0 (main_arg2 : DevRef τ sig) := kept2 F0
theorem k_arg3 : f_arg3 F0 = F0 (main_arg3 : DevRef τ sig) := kept3 F0

/-! ## The stages -/

/-- The width buffer ends at the effective width: operations 0 … 14 are the coordinate chain's, in its order. -/
theorem weff_stage :
    f_v13 F0 = Cert.Spot.Coord.weff (F0 (main_arg1 : DevRef τ sig)) (F0 (main_arg2 : DevRef τ sig)) := by
  rw [s_v13, s_v12, s_c, s_v11, s_v10, s_v9, s_v8, s_v0, s_v7, s_v6, s_v5, s_v4, s_v3, s_v2, s_v1, k_arg1, k_arg2]
  rfl

/-- The height buffer ends at the effective height: the length over the width, rounded up, at least one. -/
theorem heff_stage :
    f_v19 F0 = Cert.Spot.Coord.heff (F0 (main_arg1 : DevRef τ sig)) (F0 (main_arg2 : DevRef τ sig)) := by
  rw [s_v19, s_v18, s_c_0, s_v17, s_v16, s_v15, s_v0, s_v14, weff_stage, k_arg1]
  rfl

/-- The remainder's position row. -/
theorem pos_stage : f_v23 F0 = Cert.Spot.Coord.posRow := by
  rw [s_v23, s_v20]
  rfl

/-- The quotient's position row: the same positions. -/
theorem pos_stage' : f_v29 F0 = Cert.Spot.Coord.posRow := by
  rw [s_v29, s_v20]
  rfl

/-- The called remainder, operations 26 … 49 over the position row and the broadcast width: the truncated
    remainder by the width (1 where the width is 0), moved by the width where it is not 0 and its sign is not the
    width's. -/
theorem rem_stage : f_v24 F0 = Cert.Spot.Coord.remW (f_v21 F0) := by
  rw [s_v24, s_r_v15, s_r_v14, s_r_v10, s_r_v9, s_r_c_2, s_r_v13, s_r_v12, s_r_v11, s_r_c_3, s_r_v8, s_r_v7, s_r_c_1,
    s_r_v17, s_r_v16, s_r_v6, s_r_v4, s_r_v5, s_r_v3, s_r_v1, s_r_v0, s_r_c, s_r_v2, s_r_c_0, pos_stage]
  rfl

/-- The called quotient, operations 55 … 73: the truncated quotient, less one where the signs differ and the
    remainder is not 0. -/
theorem quo_stage : f_v30 F0 = Cert.Spot.Coord.quoW (f_v21 F0) := by
  rw [s_v30, s_q_v13, s_q_v7, s_q_v5, s_q_v3, s_q_v6, s_q_v4, s_q_v12, s_q_v10, s_q_v8, s_q_v9, s_q_v11, s_q_c,
    s_q_v15, s_q_v14, s_q_c_0, s_q_v2, s_q_v0, s_q_v1, pos_stage']
  rfl

end Stage

open Stage

/-! ## The three stages the run is read through -/

/-- The x coordinates: the remainder over the width, both as floats. -/
theorem xs_stage : StableHlo.after ops F0 (main_v28 : DevRef τ sig)
    = Cert.Spot.Coord.xCoord (F0 (main_arg1 : DevRef τ sig)) (F0 (main_arg2 : DevRef τ sig)) := by
  show f_v28 F0 = _
  rw [s_v28, s_v25, rem_stage, s_v27, s_v26, s_v21, weff_stage]
  rfl

/-- The y coordinates: the quotient over the height. -/
theorem ys_stage : StableHlo.after ops F0 (main_v34 : DevRef τ sig)
    = Cert.Spot.Coord.yCoord (F0 (main_arg1 : DevRef τ sig)) (F0 (main_arg2 : DevRef τ sig)) := by
  show f_v34 F0 = _
  rw [s_v34, s_v31, quo_stage, s_v33, s_v32, s_v22, heff_stage, s_v21, weff_stage]
  rfl

/-- The result: operations 78 … 110 are the last stretch, over the values, the lengths, the centres and what the two
    coordinate buffers hold. -/
theorem out_stage : StableHlo.after ops F0 (main_v63 : DevRef τ sig)
    = refTail (F0 (main_arg0 : DevRef τ sig)) (F0 (main_arg1 : DevRef τ sig)) (F0 (main_arg3 : DevRef τ sig))
        (StableHlo.after ops F0 (main_v28 : DevRef τ sig)) (StableHlo.after ops F0 (main_v34 : DevRef τ sig)) := by
  show f_v63 F0 = refTail _ _ _ (f_v28 F0) (f_v34 F0)
  rw [s_v63, s_v57, s_v62, s_v61, s_v59, s_v58, s_cst_2, s_v60, s_cst_3, s_v56, s_v53, s_v52, s_v51, s_cst_1, s_v44,
    s_cst, s_v43, s_v42, s_v40, s_v38, s_v41, s_v39, s_v37, s_v35, s_v36, s_v55, s_v54, s_v50, s_v49, s_v47, s_v45,
    s_v20, s_v48, s_v46, k_arg0, k_arg1, k_arg3]
  rfl

end Cert.ReferenceIdeal.Val

end
-- ==== Proof.RefFinal.lean ====
/-
  The reference's run, read as values: its result array ends at the weighted mean `Spot.G` of its arguments' launch
  contents and of the coordinate functions of its two integer arguments, and its four arguments end unchanged. The run of
  the straight line gives every buffer at the operations' fold; the fold at the result is the last stretch applied to the
  fold at the two coordinate arrays, which are the coordinate functions; and the last stretch is the weighted mean.
-/
import proofs.«415546_j62010737819899_3_alg».proof.Proof.RefRun
import proofs.«415546_j62010737819899_3_alg».proof.Proof.RefStages
import proofs.«415546_j62010737819899_3_alg».proof.Proof.RefTail
import proofs.«415546_j62010737819899_3_alg».proof.Proof.Coords

noncomputable section

namespace Cert.ReferenceIdeal.Val

open Idealize.ShloMosaic Idealize.ShloMosaic.TcCoe Idealize.SL.Sem Idealize.ShloMosaic.StableHlo
open Cert.ReferenceIdeal Cert.ReferenceIdeal.Gen

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
          = Cert.Spot.G (m ((c.tc : Thread nD τ).loc main_arg0)) (m ((c.tc : Thread nD τ).loc main_arg1)) (m ((c.tc : Thread nD τ).loc main_arg3))
              (Cert.Spot.Coord.xCoord (m ((c.tc : Thread nD τ).loc main_arg1)) (m ((c.tc : Thread nD τ).loc main_arg2)))
              (Cert.Spot.Coord.yCoord (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h c main_v63).trans (by rw [out_stage, refTail_eq, xs_stage, ys_stage]),
        (h c main_arg0).trans (kept0 _), (h c main_arg1).trans (kept1 _), (h c main_arg2).trans (kept2 _),
        (h c main_arg3).trans (kept3 _)⟩)
    (run_main (F := Ideal) m ρ)

end Cert.ReferenceIdeal.Val

end
-- ==== Proof.lean ====
/-
  The certificate. The kernel is a spotlight sampler: for every row, view and lane it returns the mean of the row's
  values weighted by `exp (-20 · dist²) · [position < length]`, with a small offset in the denominator; it sums four
  tiles of positions at a time and leaves out the tiles that start at or past the row's length. The reference sums over
  all positions at once. Over the extended reals the two are one function: a left-out tile has weight 0 at each of its
  positions, and re-grouping a sum needs only associativity — no finiteness of the inputs is used.

  frame_Kernel, frame_KernelIdeal: the generated frames hold under a side condition on the length table (every block the
  clamped index map picks lies inside the values' array), and that condition holds for every table: the index is the
  smaller of the tile number and a word that is never negative.
  frame_ReferenceIdeal: the reference's run with the result dropped.
  preserves_Kernel_KernelIdeal: the idealization rewrote nothing.
  algebraic_KernelIdeal_ReferenceIdeal: both result arrays end at `Spot.G` of the same arguments and of the same
  coordinate functions of the two integer arguments.
-/
import proofs.«415546_j62010737819899_3_alg».proof.Defs
import proofs.«415546_j62010737819899_3_alg».proof.Proof.Gen.Kernel
import proofs.«415546_j62010737819899_3_alg».proof.Proof.Gen.Kernel.Frame
import proofs.«415546_j62010737819899_3_alg».proof.Proof.Gen.KernelIdeal
import proofs.«415546_j62010737819899_3_alg».proof.Proof.Gen.KernelIdeal.Frame
import proofs.«415546_j62010737819899_3_alg».proof.Proof.Gen.ReferenceIdeal
import proofs.«415546_j62010737819899_3_alg».proof.Proof.Gen.Pre_finite_inputs
import proofs.«415546_j62010737819899_3_alg».proof.Proof.KernelOk
import proofs.«415546_j62010737819899_3_alg».proof.Proof.KernelOkBits
import proofs.«415546_j62010737819899_3_alg».proof.Proof.KernelFinal
import proofs.«415546_j62010737819899_3_alg».proof.Proof.KernelCoords
import proofs.«415546_j62010737819899_3_alg».proof.Proof.RefFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ (Cert.Kernel.Val.ok_any m)

theorem frame_ki : Cert.frame_KernelIdeal := fun m ρ _ => Cert.KernelIdeal.Gen.frame m ρ (Cert.KernelIdeal.Val.ok_any m)

theorem frame_ri : Cert.frame_ReferenceIdeal := fun m ρ _ =>
  (θ_run Cert.ReferenceIdeal.defs _ _).mono (fun _ h c => (h c).2) (Cert.ReferenceIdeal.Val.ref_run m ρ)

/-- Both programs end at the weighted mean of arguments that agree. -/
theorem algebraic : Cert.algebraic_KernelIdeal_ReferenceIdeal := by
  intro m ρ m' ρ' _ hagree
  refine ⟨fun c => Cert.KernelIdeal.Val.Gk m c, Cert.KernelIdeal.Val.run m ρ, ?_⟩
  refine (θ_run Cert.ReferenceIdeal.defs _ _).mono (fun r h c => ⟨(h c).1.trans ?_, (h c).2⟩)
    (Cert.ReferenceIdeal.Val.ref_run m' ρ')
  rw [(hagree c).1, (hagree c).2.1, (hagree c).2.2.1, (hagree c).2.2.2]
  show _ = Cert.Spot.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
    (Cert.KernelIdeal.Gen.V m c Cert.KernelIdeal.main_v28) (Cert.KernelIdeal.Gen.V m c Cert.KernelIdeal.main_v33)
  rw [Cert.KernelIdeal.Val.V_xs m c, Cert.KernelIdeal.Val.V_ys m c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
